-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x16 : Shape := ⟨2, ![1600000, 16]⟩
abbrev S1600000 : Shape := ⟨1, ![1600000]⟩
abbrev S16x64 : Shape := ⟨2, ![16, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg2 : IVec S1600000 32) (main_arg9 : FVec F S4x64 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg2 main_v39
  let main_c_15 : IVec S_ 32 := constantI S_ 32 100000#32
  let main_v41 : IVec S1600000 32 := broadcastInDim S1600000 ![] bcast_S_S1600000 main_c_15
  let main_v42 : IVec S1600000 1 := cmpi .slt main_arg2 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg2 : IVec S1600000 32) (main_arg6 : FVec F S64x64 .f32) (main_arg7 : FVec F S64 .f32) (main_arg8 : FVec F S4x64x64 .f32) (main_arg9 : FVec F S4x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x64 .f32 := Host.absf main_arg8
  let main_cst_10 : FVec F S_ .f32 := constant S_ .f32 0x7F800000#32
  let main_v30 : FVec F S4x64x64 .f32 := broadcastInDim S4x64x64 ![] bcast_S_S4x64x64 main_cst_10
  let main_v31 : IVec S4x64x64 1 := cmpf .olt main_v29 main_v30
  let main_c_11 : IVec S_ 1 := constantI S_ 1 1#1
  let main_v32 : IVec S_ 1 := (fun x v => Host.reduce IntOp.andi x v reducesTo_S4x64x64_S_d0_1_2 h_S_) main_v31 main_c_11
  let main_v33 : IVec S_ 1 := andi main_v28 main_v32
  fn_part2 (F := F) main_arg2 main_arg9 main_v33

def fn {F : FTy → Type} [FloatOps F] (main_arg0 : FVec F S100000x64 .f32) (main_arg1 : FVec F S1600000x16 .f32) (main_arg2 : IVec S1600000 32) (main_arg3 : IVec S1600000 32) (main_arg4 : FVec F S16x64 .f32) (main_arg5 : FVec F S64 .f32) (main_arg6 : FVec F S64x64 .f32) (main_arg7 : FVec F S64 .f32) (main_arg8 : FVec F S4x64x64 .f32) (main_arg9 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_v13 main_v16
-- ==== Kernel.lean ====
abbrev S100000x64 : Shape := ⟨2, ![100000, 64]⟩
abbrev S1600000x16 : Shape := ⟨2, ![1600000, 16]⟩
abbrev S1600000 : Shape := ⟨1, ![1600000]⟩
abbrev S16x64 : Shape := ⟨2, ![16, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S1x64 : Shape := ⟨2, ![1, 64]⟩
abbrev S1600000x64 : Shape := ⟨2, ![1600000, 64]⟩
abbrev S8000x16 : Shape := ⟨2, ![8000, 16]⟩
abbrev S8000x64 : Shape := ⟨2, ![8000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S4000x64 : Shape := ⟨2, ![4000, 64]⟩
abbrev S1x64x64 : Shape := ⟨3, ![1, 64, 64]⟩
abbrev S5000x64 : Shape := ⟨2, ![5000, 64]⟩

abbrev nBuf : Space → Nat
  | .hbm => 149
  | .vmem => 64
  | .smem => 0
  | _ => 0

abbrev hbmTy0_0 (i : Nat) : BufTy := match i % 128 with
  | 0 => ⟨S100000x64, .f32⟩
  | 1 => ⟨S1600000x16, .f32⟩
  | 2 => ⟨S1600000, .i32⟩
  | 3 => ⟨S1600000, .i32⟩
  | 4 => ⟨S16x64, .f32⟩
  | 5 => ⟨S64, .f32⟩
  | 6 => ⟨S64x64, .f32⟩
  | 7 => ⟨S64, .f32⟩
  | 8 => ⟨S4x64x64, .f32⟩
  | 9 => ⟨S4x64, .f32⟩
  | 10 => ⟨S1x64, .f32⟩
  | 11 => ⟨S1x64, .f32⟩
  | 12 => ⟨S1600000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1, .i32⟩
  | 22 => ⟨S_, .i32⟩
  | 23 => ⟨S1600000x1, .i32⟩
  | 24 => ⟨S1600000x1, .i1⟩
  | 25 => ⟨S1x1, .i32⟩
  | 26 => ⟨S1600000x1, .i32⟩
  | 27 => ⟨S1600000x1, .i1⟩
  | 28 => ⟨S1600000x1, .i1⟩
  | 29 => ⟨S_, .i1⟩
  | 30 => ⟨S1600000, .i1⟩
  | 31 => ⟨S1600000x64, .f32⟩
  | 32 => ⟨S1600000x64, .i1⟩
  | 33 => ⟨S_, .f32⟩
  | 34 => ⟨S1600000x64, .f32⟩
  | 35 => ⟨S1600000x64, .f32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1, .i32⟩
  | 56 => ⟨S_, .i32⟩
  | 57 => ⟨S1600000x1, .i32⟩
  | 58 => ⟨S1600000x1, .i1⟩
  | 59 => ⟨S1x1, .i32⟩
  | 60 => ⟨S1600000x1, .i32⟩
  | 61 => ⟨S1600000x1, .i1⟩
  | 62 => ⟨S1600000x1, .i1⟩
  | 63 => ⟨S_, .i1⟩
  | 64 => ⟨S1600000, .i1⟩
  | 65 => ⟨S1600000x64, .f32⟩
  | 66 => ⟨S1600000x64, .i1⟩
  | 67 => ⟨S_, .f32⟩
  | 68 => ⟨S1600000x64, .f32⟩
  | 69 => ⟨S1600000x64, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1, .i32⟩
  | 90 => ⟨S_, .i32⟩
  | 91 => ⟨S1600000x1, .i32⟩
  | 92 => ⟨S1600000x1, .i1⟩
  | 93 => ⟨S1x1, .i32⟩
  | 94 => ⟨S1600000x1, .i32⟩
  | 95 => ⟨S1600000x1, .i1⟩
  | 96 => ⟨S1600000x1, .i1⟩
  | 97 => ⟨S_, .i1⟩
  | 98 => ⟨S1600000, .i1⟩
  | 99 => ⟨S1600000x64, .f32⟩
  | 100 => ⟨S1600000x64, .i1⟩
  | 101 => ⟨S_, .f32⟩
  | 102 => ⟨S1600000x64, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1, .i32⟩
  | 124 => ⟨S_, .i32⟩
  | 125 => ⟨S1600000x1, .i32⟩
  | 126 => ⟨S1600000x1, .i1⟩
  | 127 => ⟨S1x1, .i32⟩
  | _ => ⟨S100000x64, .f32⟩

abbrev hbmTy0_1 (i : Nat) : BufTy := match i % 128 with
  | 0 => ⟨S1600000x1, .i32⟩
  | 1 => ⟨S1600000x1, .i1⟩
  | 2 => ⟨S1600000x1, .i1⟩
  | 3 => ⟨S_, .i1⟩
  | 4 => ⟨S1600000, .i1⟩
  | 5 => ⟨S1600000x64, .f32⟩
  | 6 => ⟨S1600000x64, .i1⟩
  | 7 => ⟨S_, .f32⟩
  | 8 => ⟨S1600000x64, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S1x64x64, .f32⟩
  | 16 => ⟨S64x64, .f32⟩
  | 17 => ⟨S1x64, .f32⟩
  | 18 => ⟨S64, .f32⟩
  | 19 => ⟨S1x64, .f32⟩
  | 20 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x16, .f32⟩
  | .local _ .vmem, ⟨1, _⟩ => ⟨S8000x16, .f32⟩
  | .local _ .vmem, ⟨2, _⟩ => ⟨S16x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v14 : Ref sig .tc := ⟨.hbm, 69, rfl⟩
abbrev main_v15 : Ref sig .tc := ⟨.hbm, 70, rfl⟩
abbrev main_cst_0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v25 : Ref sig .tc := ⟨.hbm, 103, rfl⟩
abbrev main_v26 : Ref sig .tc := ⟨.hbm, 104, rfl⟩
abbrev main_cst_1 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v36 : Ref sig .tc := ⟨.hbm, 137, rfl⟩
abbrev main_v37 : Ref sig .tc := ⟨.hbm, 138, rfl⟩
abbrev main_cst_2 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem4_1 : DmaSem sig := 63

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![400], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  shapeCasts_S64_S1x64 : S64.ShapeCasts S1x64
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x64_S64x64 : S64x64.ShapeCasts S64x64
  broadcasts_S1x64_S5000x64 : S1x64.Broadcasts S5000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S8000x16_S16x64_S8000x64_1_0_0_1_n_n_wf : DotDims.WF S8000x16 S16x64 S8000x64 [1] [0] [0] [1] [] []
  dot_S8000x64_S64x64_S8000x64_1_0_0_1_n_n_wf : DotDims.WF S8000x64 S64x64 S8000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S1600000x16.size a
  hwx0_0 : ∀ i : grid0.Coords, EltTy.bits .f32 = 32 ∨ (Rect.block (s := S1600000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1600000x64.size a
  hwx3_0 : ∀ i : grid3.Coords, EltTy.bits .f32 = 32 ∨ (Rect.block (s := S1600000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S1600000x64.size a
  hwx3_1 : ∀ i : grid3.Coords, EltTy.bits .f32 = 32 ∨ (Rect.block (s := S1600000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S1600000x64.size a
  hwx3_2 : ∀ i : grid3.Coords, EltTy.bits .f32 = 32 ∨ (Rect.block (s := S1600000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S1600000x64.size a
  hwx5_0 : ∀ i : grid5.Coords, EltTy.bits .f32 = 32 ∨ (Rect.block (s := S1600000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S1600000x64.size a
  hwx5_1 : ∀ i : grid5.Coords, EltTy.bits .f32 = 32 ∨ (Rect.block (s := S1600000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S1600000x64.size a
  hwx5_2 : ∀ i : grid5.Coords, EltTy.bits .f32 = 32 ∨ (Rect.block (s := S1600000x64) S4000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S1600000x64.size a
  hwx7_0 : ∀ i : grid7.Coords, EltTy.bits .f32 = 32 ∨ (Rect.block (s := S1600000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S1600000x64.size a
  hwx7_1 : ∀ i : grid7.Coords, EltTy.bits .f32 = 32 ∨ (Rect.block (s := S1600000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x64.size a ≤ S1600000x64.size a
  hwx7_2 : ∀ i : grid7.Coords, EltTy.bits .f32 = 32 ∨ (Rect.block (s := S1600000x64) S4000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .f32 = 32 ∨ (Rect.block (s := S100000x64) S5000x64.size (cc8_transform_4 i) (hinb8_4 i)).WholeWords (EltTy.packing .f32)

variable [Facts₀]

def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg1) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v13) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v24) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v25) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v24) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v31) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v34) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v35) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v36) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v2) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v37) S4000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v35) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v40) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v42) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v45) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v46) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x64 : Shape := ⟨2, ![100000, 64]⟩
abbrev S1600000x16 : Shape := ⟨2, ![1600000, 16]⟩
abbrev S1600000 : Shape := ⟨1, ![1600000]⟩
abbrev S16x64 : Shape := ⟨2, ![16, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1x64x64 : Shape := ⟨3, ![1, 64, 64]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S1600000x16, .f32⟩
  | 2 => ⟨S1600000, .i32⟩
  | 3 => ⟨S1600000, .i32⟩
  | 4 => ⟨S16x64, .f32⟩
  | 5 => ⟨S64, .f32⟩
  | 6 => ⟨S64x64, .f32⟩
  | 7 => ⟨S64, .f32⟩
  | 8 => ⟨S4x64x64, .f32⟩
  | 9 => ⟨S4x64, .f32⟩
  | 10 => ⟨S1600000x64, .f32⟩
  | 11 => ⟨S1x64, .f32⟩
  | 12 => ⟨S1600000x64, .f32⟩
  | 13 => ⟨S1600000x64, .f32⟩
  | 14 => ⟨S_, .f32⟩
  | 15 => ⟨S1600000x64, .f32⟩
  | 16 => ⟨S1600000x64, .f32⟩
  | 17 => ⟨S1600000x64, .f32⟩
  | 18 => ⟨S1x64, .f32⟩
  | 19 => ⟨S1600000x64, .f32⟩
  | 20 => ⟨S1600000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S1600000x64, .f32⟩
  | 31 => ⟨S_, .f32⟩
  | 32 => ⟨S1600000x64, .f32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S100000x64, .f32⟩
  | 39 => ⟨S1x64x64, .f32⟩
  | 40 => ⟨S64x64, .f32⟩
  | 41 => ⟨S100000x64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x64, .f32⟩
  | 60 => ⟨S_, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000x64, .f32⟩
  | 68 => ⟨S1x64x64, .f32⟩
  | 69 => ⟨S64x64, .f32⟩
  | 70 => ⟨S100000x64, .f32⟩
  | 71 => ⟨S1x64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S1600000x64, .f32⟩
  | 89 => ⟨S_, .f32⟩
  | 90 => ⟨S1600000x64, .f32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x64, .f32⟩
  | 118 => ⟨S_, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_c_1 : Ref sig .tc := ⟨.hbm, 50, rfl⟩
abbrev main_v31 : Ref sig .tc := ⟨.hbm, 51, rfl⟩
abbrev main_v32 : Ref sig .tc := ⟨.hbm, 52, rfl⟩
abbrev main_c_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call3_cst : Ref sig .tc := ⟨.hbm, 60, rfl⟩
abbrev main_call3_v0 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call4_cst : Ref sig .tc := ⟨.hbm, 76, rfl⟩
abbrev main_call4_v0 : Ref sig .tc := ⟨.hbm, 77, rfl⟩
abbrev main_v52 : Ref sig .tc := ⟨.hbm, 78, rfl⟩
abbrev main_c_4 : Ref sig .tc := ⟨.hbm, 79, rfl⟩
abbrev main_v53 : Ref sig .tc := ⟨.hbm, 80, rfl⟩
abbrev main_v54 : Ref sig .tc := ⟨.hbm, 81, rfl⟩
abbrev main_c_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call5_cst : Ref sig .tc := ⟨.hbm, 89, rfl⟩
abbrev main_call5_v0 : Ref sig .tc := ⟨.hbm, 90, rfl⟩
abbrev main_v61 : Ref sig .tc := ⟨.hbm, 91, rfl⟩
abbrev main_cst_6 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call6_cst : Ref sig .tc := ⟨.hbm, 105, rfl⟩
abbrev main_call6_v0 : Ref sig .tc := ⟨.hbm, 106, rfl⟩
abbrev main_v74 : Ref sig .tc := ⟨.hbm, 107, rfl⟩
abbrev main_c_7 : Ref sig .tc := ⟨.hbm, 108, rfl⟩
abbrev main_v75 : Ref sig .tc := ⟨.hbm, 109, rfl⟩
abbrev main_v76 : Ref sig .tc := ⟨.hbm, 110, rfl⟩
abbrev main_c_8 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call7_cst : Ref sig .tc := ⟨.hbm, 118, rfl⟩
abbrev main_call7_v0 : Ref sig .tc := ⟨.hbm, 119, rfl⟩
abbrev main_v83 : Ref sig .tc := ⟨.hbm, 120, rfl⟩
abbrev main_cst_9 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call8_cst : Ref sig .tc := ⟨.hbm, 134, rfl⟩
abbrev main_call8_v0 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S1x64_S100000x64_0_1 : S1x64.BroadcastsInDim S100000x64 (![0, 1] : Fin 2 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  dot_S1600000x16_S16x64_S1600000x64_1_0_0_1_n_n_wf : DotDims.WF S1600000x16 S16x64 S1600000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RefFns.lean ====
/-
  The whole-array program's stages as functions of the arrays they read, and the network as their composition.

  The program computes the edge stage once — a matrix product, a bias row broadcast down the rows, the
  ramp, a second product and bias — and then four layers.  A layer gathers rows of the node features at the
  wrapped source indices, adds the edge rows and takes the ramp, sums those message rows into a zero table
  at the destination indices, adds the node features, multiplies by the layer's weight matrix, adds the
  layer's bias row and takes the ramp.  A layer's weights and bias are cut out of the stacked parameters.
-/
import proofs.«401560_j6914897347055_1_alg».proof.ReferenceIdeal
import proofs.«401560_j6914897347055_1_alg».proof.Proof.Gen.ReferenceIdeal

noncomputable section

namespace Cert.ReferenceIdeal.RefFns

open Idealize.ShloMosaic Cert.ReferenceIdeal Cert.ReferenceIdeal.Gen

variable {F : FTy → Type} [FloatOps F]

/-- The ramp, on an edge-indexed array. -/
def rampE (x : FVec F S1600000x64 .f32) : FVec F S1600000x64 .f32 :=
  maximumf x (broadcastInDim S1600000x64 ![] bcast_S_S1600000x64 (constant S_ .f32 0x00000000#32))
/-- The ramp, on a node-indexed array. -/
def rampN (x : FVec F S100000x64 .f32) : FVec F S100000x64 .f32 :=
  maximumf x (broadcastInDim S100000x64 ![] bcast_S_S100000x64 (constant S_ .f32 0x00000000#32))

/-- A bias vector as a one-row matrix. -/
def biasRow (b : FVec F S64 .f32) : FVec F S1x64 .f32 := broadcastInDim S1x64 ![1] bcast_S64_S1x64_1 b

/-- The edge stage on whole arrays. -/
def edgeHost (ef : FVec F S1600000x16 .f32) (W1 : FVec F S16x64 .f32) (b1 : FVec F S64 .f32) (W2 : FVec F S64x64 .f32)
    (b2 : FVec F S64 .f32) : FVec F S1600000x64 .f32 :=
  addf (Host.dotGeneral dot_S1600000x64_S64x64_S1600000x64_1_0_0_1_n_n none
      (rampE (addf (Host.dotGeneral dot_S1600000x16_S16x64_S1600000x64_1_0_0_1_n_n none ef W1)
        (broadcastInDim S1600000x64 ![0, 1] bcast_S1x64_S1600000x64_0_1 (biasRow b1)))) W2)
    (broadcastInDim S1600000x64 ![0, 1] bcast_S1x64_S1600000x64_0_1 (biasRow b2))

/-- A layer's messages on whole arrays. -/
def msgHost (hs e : FVec F S1600000x64 .f32) : FVec F S1600000x64 .f32 := rampE (addf hs e)

/-- A layer's node update on whole arrays, the bias given as a one-row matrix. -/
def updHost (h agg : FVec F S100000x64 .f32) (W : FVec F S64x64 .f32) (brow : FVec F S1x64 .f32) : FVec F S100000x64 .f32 :=
  rampN (addf (Host.dotGeneral dot_S100000x64_S64x64_S100000x64_1_0_0_1_n_n none (addf h agg) W)
    (broadcastInDim S100000x64 ![0, 1] bcast_S1x64_S100000x64_0_1 brow))

/-- The source indices with a negative index wrapped by the table's height. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped source indices as a column of start indices. -/
def srcIdx (src : IVec S1600000 32) : IVec S1600000x1 32 :=
  broadcastInDim S1600000x1 ![0] bcast_S1600000_S1600000x1_0 (wrapped src)

/-- The rows of `h` at the wrapped source indices. -/
def gathered (h : FVec F S100000x64 .f32) (src : IVec S1600000 32) : FVec F S1600000x64 .f32 :=
  Host.gather gather_S100000x64_S1600000x1_S1600000x64_1_0_n_n_0_1_164 h (srcIdx src)

/-- The message rows summed into a zero table at the destination indices. -/
def aggFn (dst : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) u

def w0 (lw : FVec F S4x64x64 .f32) : FVec F S64x64 .f32 :=
  shapeCast S64x64 (extractStridedSlice S1x64x64 ![0, 0, 0] lw slices_S4x64x64_S1x64x64_0_0_0) shapeCasts_S1x64x64_S64x64
def w1 (lw : FVec F S4x64x64 .f32) : FVec F S64x64 .f32 :=
  shapeCast S64x64 (extractStridedSlice S1x64x64 ![1, 0, 0] lw slices_S4x64x64_S1x64x64_1_0_0) shapeCasts_S1x64x64_S64x64
def w2 (lw : FVec F S4x64x64 .f32) : FVec F S64x64 .f32 :=
  shapeCast S64x64 (extractStridedSlice S1x64x64 ![2, 0, 0] lw slices_S4x64x64_S1x64x64_2_0_0) shapeCasts_S1x64x64_S64x64
def w3 (lw : FVec F S4x64x64 .f32) : FVec F S64x64 .f32 :=
  shapeCast S64x64 (extractStridedSlice S1x64x64 ![3, 0, 0] lw slices_S4x64x64_S1x64x64_3_0_0) shapeCasts_S1x64x64_S64x64

def b0 (lb : FVec F S4x64 .f32) : FVec F S1x64 .f32 :=
  biasRow (shapeCast S64 (extractStridedSlice S1x64 ![0, 0] lb slices_S4x64_S1x64_0_0) shapeCasts_S1x64_S64)
def b1 (lb : FVec F S4x64 .f32) : FVec F S1x64 .f32 :=
  biasRow (shapeCast S64 (extractStridedSlice S1x64 ![1, 0] lb slices_S4x64_S1x64_1_0) shapeCasts_S1x64_S64)
def b2 (lb : FVec F S4x64 .f32) : FVec F S1x64 .f32 :=
  biasRow (shapeCast S64 (extractStridedSlice S1x64 ![2, 0] lb slices_S4x64_S1x64_2_0) shapeCasts_S1x64_S64)
def b3 (lb : FVec F S4x64 .f32) : FVec F S1x64 .f32 :=
  biasRow (shapeCast S64 (extractStridedSlice S1x64 ![3, 0] lb slices_S4x64_S1x64_3_0) shapeCasts_S1x64_S64)

/-- One layer on whole arrays. -/
def layerHost (src dst : IVec S1600000 32) (e : FVec F S1600000x64 .f32) (W : FVec F S64x64 .f32) (brow : FVec F S1x64 .f32)
    (h : FVec F S100000x64 .f32) : FVec F S100000x64 .f32 :=
  updHost h (aggFn dst (msgHost (gathered h src) e)) W brow

/-- The network: the edge stage, then four layers. -/
def net (a0 : FVec F S100000x64 .f32) (a1 : FVec F S1600000x16 .f32) (src dst : IVec S1600000 32) (a4 : FVec F S16x64 .f32)
    (a5 : FVec F S64 .f32) (a6 : FVec F S64x64 .f32) (a7 : FVec F S64 .f32) (lw : FVec F S4x64x64 .f32) (lb : FVec F S4x64 .f32) :
    FVec F S100000x64 .f32 :=
  layerHost src dst (edgeHost a1 a4 a5 a6 a7) (w3 lw) (b3 lb)
    (layerHost src dst (edgeHost a1 a4 a5 a6 a7) (w2 lw) (b2 lb)
      (layerHost src dst (edgeHost a1 a4 a5 a6 a7) (w1 lw) (b1 lb)
        (layerHost src dst (edgeHost a1 a4 a5 a6 a7) (w0 lw) (b0 lb) a0)))

end Cert.ReferenceIdeal.RefFns

end
-- ==== Proof.RefValue.lean ====
/-
  The whole-array program's run with its result named: the network of the argument arrays.

  Every weakly fair execution of the program ends with each argument array as launched and with the result
  array at the composed term of its host operations, which is the network `RefFns.net` of the argument
  arrays: the edge stage once, then four layers.
-/
import proofs.«401560_j6914897347055_1_alg».proof.Proof.Gen.ReferenceIdeal.Run
import proofs.«401560_j6914897347055_1_alg».proof.Proof.RefFns
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The network of the argument arrays, its stages unfolded, is the composed term of the program's host operations. -/
theorem net_eq (c : Dev nD) :
    RefFns.net (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      = Cert.ReferenceIdeal.Value.res_main_v96 (F := Ideal) m c := by
  unfold Cert.ReferenceIdeal.Value.res_main_v96 RefFns.net RefFns.layerHost RefFns.updHost RefFns.msgHost RefFns.edgeHost
    RefFns.rampN RefFns.rampE RefFns.aggFn RefFns.gathered RefFns.srcIdx RefFns.wrapped RefFns.biasRow
    RefFns.w0 RefFns.w1 RefFns.w2 RefFns.w3 RefFns.b0 RefFns.b1 RefFns.b2 RefFns.b3
  rfl

/-- The run, its result named. -/
theorem run_value : θ_run (defs (F := Ideal)) (onTc (τ := τ) (main (F := Ideal))) ⟨m, fun _ => 0, ρ⟩ (fun r => ∀ c : Dev nD,
      r.2.mem ((c.tc : Thread nD τ).loc main_v96)
        = RefFns.net (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ h c => ⟨(h c).1.trans (net_eq m c).symm, (h c).2⟩)
    (Cert.ReferenceIdeal.Value.run (F := Ideal) m ρ)

end Cert.ReferenceIdeal.RefValue

end
-- ==== Proof.Spec.lean ====
/-
  The mathematics both programs compute, stage by stage, over the extended reals.

  The network has one edge stage and four node layers.  With `ef` the edge features and `h` the node features:
    * the edge stage is two affine maps with a ramp between them,
        e[r, q] = (∑ k, max (∑ j, ef[r, j] · W1[j, k] + b1[k]) 0 · W2[k, q]) + b2[q];
    * a layer's message on an edge is the ramp of the gathered source row plus the edge stage's row,
        msg[r, q] = max (hs[r, q] + e[r, q]) 0;
    * a layer's update of a node is the ramp of an affine map of the node's row plus what was summed into it,
        upd[r, q] = max (∑ k, (h[r, k] + agg[r, k]) · W[k, q] + b[q]) 0.
  The gather of source rows and the sum of messages into destination rows are the same host operations in
  both programs and are carried as they are; only these three stages are computed differently (block by
  block on one side, whole arrays on the other), and at the extended reals each is the one function below
  whatever the blocking.  A bias is kept as a one-row matrix, the form in which the blocked side stages it.
-/
import Idealize.ShloMosaic.PureOps.Ideal
import Idealize.ShloMosaic.Lib.ValueIdx

noncomputable section

open scoped BigOperators

namespace Cert.Spec

open Idealize.ShloMosaic Idealize.ShloMosaic.ValueIdx

/-- Edge features: 1 600 000 edges by 16 features. -/
abbrev SE16 : Shape := ⟨2, ![1600000, 16]⟩
/-- An edge-indexed array of hidden rows: 1 600 000 by 64. -/
abbrev SE64 : Shape := ⟨2, ![1600000, 64]⟩
/-- A node-indexed array of hidden rows: 100 000 by 64. -/
abbrev SN64 : Shape := ⟨2, ![100000, 64]⟩
abbrev S16x64 : Shape := ⟨2, ![16, 64]⟩
abbrev S64x64 : Shape := ⟨2, ![64, 64]⟩
/-- A bias as a one-row matrix. -/
abbrev S1x64 : Shape := ⟨2, ![1, 64]⟩

/-- The edge stage at edge `r`, hidden column `q`. -/
def edgeAt (ef : SE16.Idx → EReal) (W1 : S16x64.Idx → EReal) (b1 : S1x64.Idx → EReal) (W2 : S64x64.Idx → EReal)
    (b2 : S1x64.Idx → EReal) (r : Fin 1600000) (q : Fin 64) : EReal :=
  (∑ k : Fin 64, max ((∑ j : Fin 16, ef (ix2 r j) * W1 (ix2 j k)) + b1 (ix2 0 k)) 0 * W2 (ix2 k q)) + b2 (ix2 0 q)

/-- The edge stage as an array. -/
def edgeNet (ef : SE16.Idx → EReal) (W1 : S16x64.Idx → EReal) (b1 : S1x64.Idx → EReal) (W2 : S64x64.Idx → EReal)
    (b2 : S1x64.Idx → EReal) : SE64.Idx → EReal :=
  fun i => edgeAt ef W1 b1 W2 b2 (i 0) (i 1)

/-- A layer's messages: the ramp of gathered source rows plus edge rows, entry by entry. -/
def msg (hs e : SE64.Idx → EReal) : SE64.Idx → EReal := fun i => max (hs i + e i) 0

/-- A layer's node update at node `r`, hidden column `q`. -/
def updAt (h agg : SN64.Idx → EReal) (W : S64x64.Idx → EReal) (b : S1x64.Idx → EReal) (r : Fin 100000) (q : Fin 64) : EReal :=
  max ((∑ k : Fin 64, (h (ix2 r k) + agg (ix2 r k)) * W (ix2 k q)) + b (ix2 0 q)) 0

/-- A layer's node update as an array. -/
def upd (h agg : SN64.Idx → EReal) (W : S64x64.Idx → EReal) (b : S1x64.Idx → EReal) : SN64.Idx → EReal :=
  fun i => updAt h agg W b (i 0) (i 1)

/-- One layer: gather source rows of `h` (`gath`), form the messages against the edge rows `e`, sum them into
    destination rows (`summ`), and update `h`.  The gather and the sum are the host's and are passed as they are. -/
def layer (gath : (SN64.Idx → EReal) → SE64.Idx → EReal) (summ : (SE64.Idx → EReal) → SN64.Idx → EReal)
    (e : SE64.Idx → EReal) (W : S64x64.Idx → EReal) (b : S1x64.Idx → EReal) (h : SN64.Idx → EReal) : SN64.Idx → EReal :=
  upd h (summ (msg (gath h) e)) W b

theorem edgeNet_apply (ef : SE16.Idx → EReal) (W1 : S16x64.Idx → EReal) (b1 : S1x64.Idx → EReal) (W2 : S64x64.Idx → EReal)
    (b2 : S1x64.Idx → EReal) (r : Fin 1600000) (q : Fin 64) :
    edgeNet ef W1 b1 W2 b2 (ix2 r q) = edgeAt ef W1 b1 W2 b2 r q := rfl

theorem upd_apply (h agg : SN64.Idx → EReal) (W : S64x64.Idx → EReal) (b : S1x64.Idx → EReal) (r : Fin 100000) (q : Fin 64) :
    upd h agg W b (ix2 r q) = updAt h agg W b r q := rfl

end Cert.Spec

end
-- ==== Proof.HostFns.lean ====
/-
  The host operations of the blocked program between its regions, as functions of the arrays they read.

  Between two regions the program does three things on the host.  It gathers source rows: the source
  indices, wrapped when negative, are tested against the table's range, the rows are gathered, and a row
  whose index failed the test is replaced by a fill value (`takeFn`).  It sums messages into destination
  rows: a scatter-add of the message rows into a zero table at the destination indices (`aggFn`).  And it
  cuts a layer's weight matrix and bias row out of the stacked parameters (`wK`, `bK`).  Before the first
  region a bias vector is recast as a one-row matrix (`biasRow`).
-/
import proofs.«401560_j6914897347055_1_alg».proof.KernelIdeal
import proofs.«401560_j6914897347055_1_alg».proof.Proof.Gen.KernelIdeal

noncomputable section

namespace Cert.KernelIdeal.HostFns

open Idealize.ShloMosaic Cert.KernelIdeal Cert.KernelIdeal.Gen

variable {F : FTy → Type} [FloatOps F]

/-- A bias vector as a one-row matrix. -/
def biasRow (b : FVec F S64 .f32) : FVec F S1x64 .f32 := shapeCast S1x64 b shapeCasts_S64_S1x64

/-- The source indices with a negative index wrapped by the table's height. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped source indices as a column of start indices. -/
def srcIdx (src : IVec S1600000 32) : IVec S1600000x1 32 :=
  broadcastInDim S1600000x1 ![0] bcast_S1600000_S1600000x1_0 (wrapped src)

/-- Per edge: is the wrapped source index inside the table's rows? -/
def inRange (src : IVec S1600000 32) : IVec S1600000 1 :=
  (fun x v => Host.reduce IntOp.andi x v reducesTo_S1600000x1_S1600000_d1 h_S_)
    (andi (cmpi .sge (srcIdx src) (broadcastInDim S1600000x1 ![] bcast_S_S1600000x1 (constantI S_ 32 0#32)))
      (cmpi .sle (srcIdx src) (broadcastInDim S1600000x1 ![0, 1] bcast_S1x1_S1600000x1_0_1
        (broadcastInDim S1x1 ![1] bcast_S1_S1x1_1 (constantI S1 32 99999#32)))))
    (constantI S_ 1 1#1)

/-- The rows of `h` at the wrapped source indices. -/
def gathered (h : FVec F S100000x64 .f32) (src : IVec S1600000 32) : FVec F S1600000x64 .f32 :=
  Host.gather gather_S100000x64_S1600000x1_S1600000x64_1_0_n_n_0_1_164 h (srcIdx src)

/-- The gathered rows, a row whose index is out of range replaced by the fill value. -/
def takeFn (h : FVec F S100000x64 .f32) (src : IVec S1600000 32) : FVec F S1600000x64 .f32 :=
  select (broadcastInDim S1600000x64 ![0] bcast_S1600000_S1600000x64_0 (inRange src)) (gathered h src)
    (broadcastInDim S1600000x64 ![] bcast_S_S1600000x64 (constant S_ .f32 0x7FC00000#32))

/-- The message rows summed into a zero table at the destination indices. -/
def aggFn (dst : IVec S1600000 32) (u : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) u

/-- Layer 0's weight matrix out of the stacked weights. -/
def w0 (lw : FVec F S4x64x64 .f32) : FVec F S64x64 .f32 :=
  shapeCast S64x64 (extractStridedSlice S1x64x64 ![0, 0, 0] lw slices_S4x64x64_S1x64x64_0_0_0) shapeCasts_S1x64x64_S64x64
def w1 (lw : FVec F S4x64x64 .f32) : FVec F S64x64 .f32 :=
  shapeCast S64x64 (extractStridedSlice S1x64x64 ![1, 0, 0] lw slices_S4x64x64_S1x64x64_1_0_0) shapeCasts_S1x64x64_S64x64
def w2 (lw : FVec F S4x64x64 .f32) : FVec F S64x64 .f32 :=
  shapeCast S64x64 (extractStridedSlice S1x64x64 ![2, 0, 0] lw slices_S4x64x64_S1x64x64_2_0_0) shapeCasts_S1x64x64_S64x64
def w3 (lw : FVec F S4x64x64 .f32) : FVec F S64x64 .f32 :=
  shapeCast S64x64 (extractStridedSlice S1x64x64 ![3, 0, 0] lw slices_S4x64x64_S1x64x64_3_0_0) shapeCasts_S1x64x64_S64x64

/-- Layer 0's bias out of the stacked biases, as a one-row matrix. -/
def b0 (lb : FVec F S4x64 .f32) : FVec F S1x64 .f32 :=
  shapeCast S1x64 (shapeCast S64 (extractStridedSlice S1x64 ![0, 0] lb slices_S4x64_S1x64_0_0) shapeCasts_S1x64_S64) shapeCasts_S64_S1x64
def b1 (lb : FVec F S4x64 .f32) : FVec F S1x64 .f32 :=
  shapeCast S1x64 (shapeCast S64 (extractStridedSlice S1x64 ![1, 0] lb slices_S4x64_S1x64_1_0) shapeCasts_S1x64_S64) shapeCasts_S64_S1x64
def b2 (lb : FVec F S4x64 .f32) : FVec F S1x64 .f32 :=
  shapeCast S1x64 (shapeCast S64 (extractStridedSlice S1x64 ![2, 0] lb slices_S4x64_S1x64_2_0) shapeCasts_S1x64_S64) shapeCasts_S64_S1x64
def b3 (lb : FVec F S4x64 .f32) : FVec F S1x64 .f32 :=
  shapeCast S1x64 (shapeCast S64 (extractStridedSlice S1x64 ![3, 0] lb slices_S4x64_S1x64_3_0) shapeCasts_S1x64_S64) shapeCasts_S64_S1x64

end Cert.KernelIdeal.HostFns

end
-- ==== Proof.Thread.lean ====
/-
  Buffers that nothing writes between the boundary where they were last written and a later one.

  The program is a chain of host stretches and regions; the contents of its buffers at each boundary are a
  fold through the chain.  A host operation changes only its own result buffer and a region only its own
  output array, so a buffer that no operation of a stretch names as its result, and that is no region's
  output, holds at the later boundary what it held at the earlier one.  Stated here, boundary by boundary,
  for the buffers the value proof reads late: the argument arrays (never written), the edge stage's result
  (read by every layer's message region) and each layer's node features (read again by the same layer's
  update region after its gather and its message region have run).
-/
import proofs.«401560_j6914897347055_1_alg».proof.Proof.Gen.KernelIdeal.Frame
import Idealize.ShloMosaic.Lib.StableHlo.Run

set_option maxRecDepth 16384

noncomputable section

namespace Cert.KernelIdeal.Thread

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- Across a host stretch: the stretch is a list of operations, each of which changes exactly one buffer, its
    result.  A buffer that differs from every result of the list is therefore read after the stretch as before
    it.  The list is walked operation by operation; each comparison is between two named references and is
    decided. -/
local macro "across_host% " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The argument arrays, at the boundaries where they are read -/

/-! The first host stretch only reshapes two arguments into fresh buffers. -/

theorem W1_arg1 : W1 m ρ c (Proc.devRef .tc main_arg1) = m ((c : Thread nD τ).loc main_arg1) :=
  calc W1 m ρ c (Proc.devRef .tc main_arg1)
    _ = W0 m ρ c (Proc.devRef .tc main_arg1) := across_host% hostOps0 main_arg1
    _ = m ((c : Thread nD τ).loc main_arg1) := rfl
theorem W1_arg4 : W1 m ρ c (Proc.devRef .tc main_arg4) = m ((c : Thread nD τ).loc main_arg4) :=
  calc W1 m ρ c (Proc.devRef .tc main_arg4)
    _ = W0 m ρ c (Proc.devRef .tc main_arg4) := across_host% hostOps0 main_arg4
    _ = m ((c : Thread nD τ).loc main_arg4) := rfl
theorem W1_arg5 : W1 m ρ c (Proc.devRef .tc main_arg5) = m ((c : Thread nD τ).loc main_arg5) :=
  calc W1 m ρ c (Proc.devRef .tc main_arg5)
    _ = W0 m ρ c (Proc.devRef .tc main_arg5) := across_host% hostOps0 main_arg5
    _ = m ((c : Thread nD τ).loc main_arg5) := rfl
theorem W1_arg6 : W1 m ρ c (Proc.devRef .tc main_arg6) = m ((c : Thread nD τ).loc main_arg6) :=
  calc W1 m ρ c (Proc.devRef .tc main_arg6)
    _ = W0 m ρ c (Proc.devRef .tc main_arg6) := across_host% hostOps0 main_arg6
    _ = m ((c : Thread nD τ).loc main_arg6) := rfl
theorem W1_arg7 : W1 m ρ c (Proc.devRef .tc main_arg7) = m ((c : Thread nD τ).loc main_arg7) :=
  calc W1 m ρ c (Proc.devRef .tc main_arg7)
    _ = W0 m ρ c (Proc.devRef .tc main_arg7) := across_host% hostOps0 main_arg7
    _ = m ((c : Thread nD τ).loc main_arg7) := rfl

/-! Region 0 has neither of these two among its arrays. -/

theorem W2_arg0 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := across_host% hostOps0 main_arg0
    _ = m ((c : Thread nD τ).loc main_arg0) := rfl
theorem W2_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := across_host% hostOps0 main_arg2
    _ = m ((c : Thread nD τ).loc main_arg2) := rfl

/-! The first gather stretch writes only its own temporaries and the gathered rows; region 1's arrays are the
    gathered rows, the edge stage's result and its own output. -/

theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := across_host% hostOps1 main_arg3
    _ = W1 m ρ c (Proc.devRef .tc main_arg3) := W2_of_ne m ρ c main_arg3 (by decide)
    _ = W0 m ρ c (Proc.devRef .tc main_arg3) := across_host% hostOps0 main_arg3
    _ = m ((c : Thread nD τ).loc main_arg3) := rfl
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := across_host% hostOps1 main_arg8
    _ = W1 m ρ c (Proc.devRef .tc main_arg8) := W2_of_ne m ρ c main_arg8 (by decide)
    _ = W0 m ρ c (Proc.devRef .tc main_arg8) := across_host% hostOps0 main_arg8
    _ = m ((c : Thread nD τ).loc main_arg8) := rfl
theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := across_host% hostOps1 main_arg9
    _ = W1 m ρ c (Proc.devRef .tc main_arg9) := W2_of_ne m ρ c main_arg9 (by decide)
    _ = W0 m ρ c (Proc.devRef .tc main_arg9) := across_host% hostOps0 main_arg9
    _ = m ((c : Thread nD τ).loc main_arg9) := rfl
theorem W5_arg0 : W5 m ρ c (Proc.devRef .tc main_arg0) = m ((c : Thread nD τ).loc main_arg0) :=
  calc W5 m ρ c (Proc.devRef .tc main_arg0)
    _ = W4 m ρ c (Proc.devRef .tc main_arg0) := across_host% hostOps2 main_arg0
    _ = W3 m ρ c (Proc.devRef .tc main_arg0) := W4_of_ne m ρ c main_arg0 (by decide)
    _ = W2 m ρ c (Proc.devRef .tc main_arg0) := across_host% hostOps1 main_arg0
    _ = m ((c : Thread nD τ).loc main_arg0) := W2_arg0 m ρ c

/-! From one layer's boundary to the next the same two kinds of step repeat: a stretch that writes only its own
    results, and a region whose arrays do not include the argument. -/

theorem W6_arg2 : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := across_host% hostOps2 main_arg2
    _ = W3 m ρ c (Proc.devRef .tc main_arg2) := W4_of_ne m ρ c main_arg2 (by decide)
    _ = W2 m ρ c (Proc.devRef .tc main_arg2) := across_host% hostOps1 main_arg2
    _ = m ((c : Thread nD τ).loc main_arg2) := W2_arg2 m ρ c
theorem W8_arg3 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := across_host% hostOps3 main_arg3
    _ = W5 m ρ c (Proc.devRef .tc main_arg3) := W6_of_ne m ρ c main_arg3 (by decide)
    _ = W4 m ρ c (Proc.devRef .tc main_arg3) := across_host% hostOps2 main_arg3
    _ = m ((c : Thread nD τ).loc main_arg3) := W4_arg3 m ρ c
theorem W8_arg8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := across_host% hostOps3 main_arg8
    _ = W5 m ρ c (Proc.devRef .tc main_arg8) := W6_of_ne m ρ c main_arg8 (by decide)
    _ = W4 m ρ c (Proc.devRef .tc main_arg8) := across_host% hostOps2 main_arg8
    _ = m ((c : Thread nD τ).loc main_arg8) := W4_arg8 m ρ c
theorem W8_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := across_host% hostOps3 main_arg9
    _ = W5 m ρ c (Proc.devRef .tc main_arg9) := W6_of_ne m ρ c main_arg9 (by decide)
    _ = W4 m ρ c (Proc.devRef .tc main_arg9) := across_host% hostOps2 main_arg9
    _ = m ((c : Thread nD τ).loc main_arg9) := W4_arg9 m ρ c

theorem W10_arg2 : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := across_host% hostOps4 main_arg2
    _ = W7 m ρ c (Proc.devRef .tc main_arg2) := W8_of_ne m ρ c main_arg2 (by decide)
    _ = W6 m ρ c (Proc.devRef .tc main_arg2) := across_host% hostOps3 main_arg2
    _ = m ((c : Thread nD τ).loc main_arg2) := W6_arg2 m ρ c
theorem W12_arg3 : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := across_host% hostOps5 main_arg3
    _ = W9 m ρ c (Proc.devRef .tc main_arg3) := W10_of_ne m ρ c main_arg3 (by decide)
    _ = W8 m ρ c (Proc.devRef .tc main_arg3) := across_host% hostOps4 main_arg3
    _ = m ((c : Thread nD τ).loc main_arg3) := W8_arg3 m ρ c
theorem W12_arg8 : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := across_host% hostOps5 main_arg8
    _ = W9 m ρ c (Proc.devRef .tc main_arg8) := W10_of_ne m ρ c main_arg8 (by decide)
    _ = W8 m ρ c (Proc.devRef .tc main_arg8) := across_host% hostOps4 main_arg8
    _ = m ((c : Thread nD τ).loc main_arg8) := W8_arg8 m ρ c
theorem W12_arg9 : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := across_host% hostOps5 main_arg9
    _ = W9 m ρ c (Proc.devRef .tc main_arg9) := W10_of_ne m ρ c main_arg9 (by decide)
    _ = W8 m ρ c (Proc.devRef .tc main_arg9) := across_host% hostOps4 main_arg9
    _ = m ((c : Thread nD τ).loc main_arg9) := W8_arg9 m ρ c

theorem W14_arg2 : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := across_host% hostOps6 main_arg2
    _ = W11 m ρ c (Proc.devRef .tc main_arg2) := W12_of_ne m ρ c main_arg2 (by decide)
    _ = W10 m ρ c (Proc.devRef .tc main_arg2) := across_host% hostOps5 main_arg2
    _ = m ((c : Thread nD τ).loc main_arg2) := W10_arg2 m ρ c
theorem W16_arg3 : W16 m ρ c (Proc.devRef .tc main_arg3) = m ((c : Thread nD τ).loc main_arg3) :=
  calc W16 m ρ c (Proc.devRef .tc main_arg3)
    _ = W15 m ρ c (Proc.devRef .tc main_arg3) := W16_of_ne m ρ c main_arg3 (by decide)
    _ = W14 m ρ c (Proc.devRef .tc main_arg3) := across_host% hostOps7 main_arg3
    _ = W13 m ρ c (Proc.devRef .tc main_arg3) := W14_of_ne m ρ c main_arg3 (by decide)
    _ = W12 m ρ c (Proc.devRef .tc main_arg3) := across_host% hostOps6 main_arg3
    _ = m ((c : Thread nD τ).loc main_arg3) := W12_arg3 m ρ c
theorem W16_arg8 : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := across_host% hostOps7 main_arg8
    _ = W13 m ρ c (Proc.devRef .tc main_arg8) := W14_of_ne m ρ c main_arg8 (by decide)
    _ = W12 m ρ c (Proc.devRef .tc main_arg8) := across_host% hostOps6 main_arg8
    _ = m ((c : Thread nD τ).loc main_arg8) := W12_arg8 m ρ c
theorem W16_arg9 : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := across_host% hostOps7 main_arg9
    _ = W13 m ρ c (Proc.devRef .tc main_arg9) := W14_of_ne m ρ c main_arg9 (by decide)
    _ = W12 m ρ c (Proc.devRef .tc main_arg9) := across_host% hostOps6 main_arg9
    _ = m ((c : Thread nD τ).loc main_arg9) := W12_arg9 m ρ c

/-! ## The edge stage's result, from where region 0 leaves it to each message region's entry

    Each message region takes the edge stage's result as its second input array, and an input array is left
    as it was entered; the update regions and the stretches between do not name it at all. -/

theorem W3_edge : W3 m ρ c (Proc.devRef .tc main_v2) = W2 m ρ c (Proc.devRef .tc main_v2) :=
  calc W3 m ρ c (Proc.devRef .tc main_v2)
    _ = W2 m ρ c (Proc.devRef .tc main_v2) := across_host% hostOps1 main_v2
theorem W7_edge : W7 m ρ c (Proc.devRef .tc main_v2) = W2 m ρ c (Proc.devRef .tc main_v2) :=
  calc W7 m ρ c (Proc.devRef .tc main_v2)
    _ = W6 m ρ c (Proc.devRef .tc main_v2) := across_host% hostOps3 main_v2
    _ = W5 m ρ c (Proc.devRef .tc main_v2) := W6_of_ne m ρ c main_v2 (by decide)
    _ = W4 m ρ c (Proc.devRef .tc main_v2) := across_host% hostOps2 main_v2
    _ = W3 m ρ c (Proc.devRef .tc main_v2) :=
        (W4_arr m ρ c 1).trans (((dat1 (V3 m ρ) c).arrAt_in 1 rfl _).trans (A_eq1 (V3 m ρ) c 1))
    _ = W2 m ρ c (Proc.devRef .tc main_v2) := W3_edge m ρ c
theorem W11_edge : W11 m ρ c (Proc.devRef .tc main_v2) = W2 m ρ c (Proc.devRef .tc main_v2) :=
  calc W11 m ρ c (Proc.devRef .tc main_v2)
    _ = W10 m ρ c (Proc.devRef .tc main_v2) := across_host% hostOps5 main_v2
    _ = W9 m ρ c (Proc.devRef .tc main_v2) := W10_of_ne m ρ c main_v2 (by decide)
    _ = W8 m ρ c (Proc.devRef .tc main_v2) := across_host% hostOps4 main_v2
    _ = W7 m ρ c (Proc.devRef .tc main_v2) :=
        (W8_arr m ρ c 1).trans (((dat3 (V7 m ρ) c).arrAt_in 1 rfl _).trans (A_eq3 (V7 m ρ) c 1))
    _ = W2 m ρ c (Proc.devRef .tc main_v2) := W7_edge m ρ c
theorem W15_edge : W15 m ρ c (Proc.devRef .tc main_v2) = W2 m ρ c (Proc.devRef .tc main_v2) :=
  calc W15 m ρ c (Proc.devRef .tc main_v2)
    _ = W14 m ρ c (Proc.devRef .tc main_v2) := across_host% hostOps7 main_v2
    _ = W13 m ρ c (Proc.devRef .tc main_v2) := W14_of_ne m ρ c main_v2 (by decide)
    _ = W12 m ρ c (Proc.devRef .tc main_v2) := across_host% hostOps6 main_v2
    _ = W11 m ρ c (Proc.devRef .tc main_v2) :=
        (W12_arr m ρ c 1).trans (((dat5 (V11 m ρ) c).arrAt_in 1 rfl _).trans (A_eq5 (V11 m ρ) c 1))
    _ = W2 m ρ c (Proc.devRef .tc main_v2) := W11_edge m ρ c

/-! ## A layer's node features, from where the previous update leaves them to this layer's update region's entry

    Between the two lie the layer's gather stretch (which reads the features and writes the gathered rows), its
    message region (whose arrays are the gathered rows, the edge stage's result and its output) and the stretch
    that scatters the messages and slices the layer's weights: none writes the features. -/

theorem W9_nodes1 : W9 m ρ c (Proc.devRef .tc main_v13) = W6 m ρ c (Proc.devRef .tc main_v13) :=
  calc W9 m ρ c (Proc.devRef .tc main_v13)
    _ = W8 m ρ c (Proc.devRef .tc main_v13) := across_host% hostOps4 main_v13
    _ = W7 m ρ c (Proc.devRef .tc main_v13) := W8_of_ne m ρ c main_v13 (by decide)
    _ = W6 m ρ c (Proc.devRef .tc main_v13) := across_host% hostOps3 main_v13
theorem W13_nodes2 : W13 m ρ c (Proc.devRef .tc main_v24) = W10 m ρ c (Proc.devRef .tc main_v24) :=
  calc W13 m ρ c (Proc.devRef .tc main_v24)
    _ = W12 m ρ c (Proc.devRef .tc main_v24) := across_host% hostOps6 main_v24
    _ = W11 m ρ c (Proc.devRef .tc main_v24) := W12_of_ne m ρ c main_v24 (by decide)
    _ = W10 m ρ c (Proc.devRef .tc main_v24) := across_host% hostOps5 main_v24
theorem W17_nodes3 : W17 m ρ c (Proc.devRef .tc main_v35) = W14 m ρ c (Proc.devRef .tc main_v35) :=
  calc W17 m ρ c (Proc.devRef .tc main_v35)
    _ = W16 m ρ c (Proc.devRef .tc main_v35) := across_host% hostOps8 main_v35
    _ = W15 m ρ c (Proc.devRef .tc main_v35) := W16_of_ne m ρ c main_v35 (by decide)
    _ = W14 m ρ c (Proc.devRef .tc main_v35) := across_host% hostOps7 main_v35

end Cert.KernelIdeal.Thread

end
-- ==== Proof.LibTypedRef.lean ====
/-
  Typed references' transports cancel.

  A typed reference carries a buffer together with the equation between the buffer's type and the value's
  type; contents move between the two types by transport along that equation, one way and back.  Going
  one way and then back is the identity, whatever the reference.
-/
import Idealize.ShloMosaic.Lib.StableHlo

namespace Idealize.ShloMosaic.StableHlo.TRef

variable {sig : RefSig} {Val : EltTy → Type} {T : BufTy}

/-- Contents moved to the buffer's type and back are unchanged. -/
theorem ofBuf_toBuf (x : TRef sig T) (v : T.Contents Val) : x.ofBuf (x.toBuf v) = v := by
  obtain ⟨r, h, _, _⟩ := x
  subst h
  rfl

/-- Contents moved to the value's type and back are unchanged. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.RegionE.lean ====
/-
  What the first region leaves in its output array: the edge stage of its input arrays.

  The region walks the 1 600 000 edges in 200 blocks of 8000 rows.  At a block it reads 8000 rows of edge
  features and the two weight matrices and the two one-row biases whole, and writes 8000 rows of
  `(relu (x · W1 + b1)) · W2 + b2`: a matrix product into a zero accumulator is the plain sum over the
  contracted axis, a change of float format is the identity, and the ramp is the maximum with zero.  Row
  `r` of the array lies in block `r / 8000` at row `r % 8000`, and the blocks cover every row, so the array
  after the region is the edge stage of the arrays the region found, entry by entry.
-/
import proofs.«401560_j6914897347055_1_alg».proof.Proof.Gen.KernelIdeal.Frame
import proofs.«401560_j6914897347055_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionE

open Idealize.ShloMosaic Idealize.ShloMosaic.TcCoe Idealize.ShloMosaic.ValueIdx Idealize.SL.Sem
open Cert.KernelIdeal Cert.KernelIdeal.Gen
open scoped BigOperators

/-! ## The two matrix products of a block, read at an entry

Both products contract the left factor's column axis against the right factor's row axis and have no batch
axis.  So at output entry `(p, q)` and contraction position `k` the left factor is read at `(p, k)` and the right
at `(k, q)`: one equation per factor and axis, then the sum over the one contracted axis re-indexed by `k`. -/

/-- First product, left factor (features), row axis: the output entry's row. -/
theorem feat_row (i : S8000x64.Idx) (q : dot_S8000x16_S16x64_S8000x64_1_0_0_1_n_n.contr.Idx) :
    (dot_S8000x16_S16x64_S8000x64_1_0_0_1_n_n.lhsIdx i q 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl
/-- First product, left factor, column axis: the contraction position. -/
theorem feat_col (i : S8000x64.Idx) (q : dot_S8000x16_S16x64_S8000x64_1_0_0_1_n_n.contr.Idx) :
    (dot_S8000x16_S16x64_S8000x64_1_0_0_1_n_n.lhsIdx i q 1).val = (q ⟨0, by decide⟩).val :=
  dot_S8000x16_S16x64_S8000x64_1_0_0_1_n_n.lhsIdx_val_of_single rfl i q
/-- First product, right factor (first weights), row axis: the contraction position. -/
theorem w1_row (i : S8000x64.Idx) (q : dot_S8000x16_S16x64_S8000x64_1_0_0_1_n_n.contr.Idx) :
    (dot_S8000x16_S16x64_S8000x64_1_0_0_1_n_n.rhsIdx i q 0).val = (q ⟨0, by decide⟩).val :=
  dot_S8000x16_S16x64_S8000x64_1_0_0_1_n_n.rhsIdx_val_of_single rfl i q
/-- First product, right factor, column axis: the output entry's column. -/
theorem w1_col (i : S8000x64.Idx) (q : dot_S8000x16_S16x64_S8000x64_1_0_0_1_n_n.contr.Idx) :
    (dot_S8000x16_S16x64_S8000x64_1_0_0_1_n_n.rhsIdx i q 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl

/-- Second product, left factor (hidden rows), row axis: the output entry's row. -/
theorem hid_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- Second product, left factor, column axis: the contraction position. -/
theorem hid_col (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- Second product, right factor (second weights), row axis: the contraction position. -/
theorem w2_row (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- Second product, right factor, column axis: the output entry's column. -/
theorem w2_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The first product into a zero accumulator at entry `(p, q)`: `∑ j, x[p, j] · w[j, q]` over the 16 features. -/
theorem featProd_apply (x : FVec Ideal S8000x16 .bf16) (w : FVec Ideal S16x64 .bf16) (p : Fin 8000) (q : Fin 64) :
    matmul dot_S8000x16_S16x64_S8000x64_1_0_0_1_n_n none x w (constant (F := Ideal) S8000x64 .f32 0x00000000#32) (ix2 p q)
      = ∑ j : Fin 16, x (ix2 p j) * w (ix2 j q) := by
  simp only [matmul]
  rw [Ideal.matmul_constant_zero_apply, ← Equiv.sum_comp (contrEquiv1 dot_S8000x16_S16x64_S8000x64_1_0_0_1_n_n 16 rfl rfl).symm]
  refine Finset.sum_congr rfl fun k _ => ?_
  have hk := contrEquiv1_symm_val dot_S8000x16_S16x64_S8000x64_1_0_0_1_n_n 16 rfl rfl k
  have el : dot_S8000x16_S16x64_S8000x64_1_0_0_1_n_n.lhsIdx (ix2 p q) ((contrEquiv1 dot_S8000x16_S16x64_S8000x64_1_0_0_1_n_n 16 rfl rfl).symm k) = ix2 p k := funext fun a => Fin.ext (by
    match a with
    | ⟨0, _⟩ => exact feat_row _ _
    | ⟨1, _⟩ => exact (feat_col _ _).trans hk)
  have er : dot_S8000x16_S16x64_S8000x64_1_0_0_1_n_n.rhsIdx (ix2 p q) ((contrEquiv1 dot_S8000x16_S16x64_S8000x64_1_0_0_1_n_n 16 rfl rfl).symm k) = ix2 k q := funext fun a => Fin.ext (by
    match a with
    | ⟨0, _⟩ => exact (w1_row _ _).trans hk
    | ⟨1, _⟩ => exact w1_col _ _)
  rw [el, er]

/-- The second product into a zero accumulator at entry `(p, q)`: `∑ k, h[p, k] · w[k, q]` over the 64 hidden columns. -/
theorem hidProd_apply (h : FVec Ideal S8000x64 .bf16) (w : FVec Ideal S64x64 .bf16) (p : Fin 8000) (q : Fin 64) :
    matmul dot_S8000x64_S64x64_S8000x64_1_0_0_1_n_n none h w (constant (F := Ideal) S8000x64 .f32 0x00000000#32) (ix2 p q)
      = ∑ k : Fin 64, h (ix2 p k) * w (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact hid_row _ _
    | ⟨1, _⟩ => exact (hid_col _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (w2_row _ _).trans hk
    | ⟨1, _⟩ => exact w2_col _ _)
  rw [el, er]

/-! ## What a block's body computes, entry by entry -/

/-- The edge stage of one block: entry `(p, q)` from the block's 8000 feature rows and the weights and biases. -/
def blockAt (x0 : Vec Ideal S8000x16 .f32) (x1 : Vec Ideal S16x64 .f32) (x2 : Vec Ideal S1x64 .f32)
    (x3 : Vec Ideal S64x64 .f32) (x4 : Vec Ideal S1x64 .f32) (p : Fin 8000) (q : Fin 64) : EReal :=
  (∑ k : Fin 64, max ((∑ j : Fin 16, x0 (ix2 p j) * x1 (ix2 j k)) + x2 (ix2 0 k)) 0 * x3 (ix2 k q)) + x4 (ix2 0 q)

/-- The body's arithmetic at entry `(p, q)` is the edge stage of the block there: the format changes are identities,
    each product is its plain sum, a bias row is read at row 0 whatever the entry's row, and the ramp is `max · 0`. -/
theorem pay_apply (x0 : Vec Ideal S8000x16 .f32) (x1 : Vec Ideal S16x64 .f32) (x2 : Vec Ideal S1x64 .f32)
    (x3 : Vec Ideal S64x64 .f32) (x4 : Vec Ideal S1x64 .f32) (p : Fin 8000) (q : Fin 64) :
    k0_pay1 (F := Ideal) x0 x1 x2 x3 x4 (ix2 p q) = blockAt x0 x1 x2 x3 x4 p q := by
  unfold k0_pay1 blockAt
  simp only [addf_apply, hidProd_apply, featProd_apply, shapeCast_self, broadcastTo_1b_ab_apply, truncf_apply,
    maximumf_apply, broadcast_apply, Scalar.ofBits, Ideal.ofBits_def, Ideal.ofBits_zero_f32]

/-- The same with each block entry named by the array entry it is a copy of: row `p` of the feature block is
    row `r` of the feature array, and the weights and biases are whole copies.  The result is the edge stage of
    the ARRAYS at `(r, q)`. -/
theorem pay_entry (A0 : Vec Ideal S1600000x16 .f32) (A1 : Vec Ideal S16x64 .f32) (A2 : Vec Ideal S1x64 .f32)
    (A3 : Vec Ideal S64x64 .f32) (A4 : Vec Ideal S1x64 .f32)
    (x0 : Vec Ideal S8000x16 .f32) (x1 : Vec Ideal S16x64 .f32) (x2 : Vec Ideal S1x64 .f32)
    (x3 : Vec Ideal S64x64 .f32) (x4 : Vec Ideal S1x64 .f32) (p : Fin 8000) (q : Fin 64) (r : Fin 1600000)
    (h0 : ∀ j : Fin 16, x0 (ix2 p j) = A0 (ix2 r j))
    (h1 : ∀ (j : Fin 16) (k : Fin 64), x1 (ix2 j k) = A1 (ix2 j k))
    (h2 : ∀ k : Fin 64, x2 (ix2 0 k) = A2 (ix2 0 k))
    (h3 : ∀ k k' : Fin 64, x3 (ix2 k k') = A3 (ix2 k k'))
    (h4 : ∀ k : Fin 64, x4 (ix2 0 k) = A4 (ix2 0 k)) :
    k0_pay1 (F := Ideal) x0 x1 x2 x3 x4 (ix2 p q) = Spec.edgeAt A0 A1 A2 A3 A4 r q := by
  rw [pay_apply]
  unfold blockAt Spec.edgeAt
  simp only [h0, h1, h2, h3, h4]

/-! ## From blocks to the array

Grid point `t` stages block `t` of the features (rows `8000·t … 8000·t + 7999`, all 16 columns), the whole of each
weight matrix and bias row, and writes back block `t` of the output (the same rows, all 64 columns). -/

variable (V : (c : Dev nD) → (b : Ref sig .tc) → Buf (Elt Ideal) ((c : Thread nD τ).loc b))

theorem zeroOff : (![0, 0] : Fin 2 → Nat) = fun _ => 0 := funext fun a => by fin_cases a <;> rfl

/-- The block indices, decided once over the 200 grid points: the features' and the output's row block is the
    point's number, their column block is 0, and the weights and biases sit at block (0, 0). -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s feature block is row `8000·t + p` of the feature array. -/
theorem feat_entry (c : Dev nD) (t : Fin cfg0.N) (p : Fin 8000) (j : Fin 16) (r : Fin 1600000)
    (hr : r.val = 8000 * t.val + p.val) :
    (iblk0 V c 0 t : Vec Ideal S8000x16 .f32) (ix2 p j) = (V c main_arg1 : Vec Ideal S1600000x16 .f32) (ix2 r j) := by
  obtain ⟨e0, e1, -⟩ := blockIdx t
  unfold iblk0
  rw [View.read_apply]
  show V c main_arg1 _ = V c main_arg1 _
  congr 1
  funext a
  apply Fin.ext
  match a with
  | ⟨0, _⟩ => show win0_0.index t (0 : Fin 2) * 8000 + 1 * p.val = r.val; omega
  | ⟨1, _⟩ => show win0_0.index t (1 : Fin 2) * 16 + 1 * j.val = j.val; omega

/-- The first weights' block at any point is the whole 16 × 64 array. -/
theorem w1_entry (c : Dev nD) (t : Fin cfg0.N) (j : Fin 16) (k : Fin 64) :
    (iblk0 V c 1 t : Vec Ideal S16x64 .f32) (ix2 j k) = (V c main_arg4 : Vec Ideal S16x64 .f32) (ix2 j k) := by
  obtain ⟨-, -, e0, e1, -⟩ := blockIdx t
  unfold iblk0
  rw [View.read_apply]
  show V c main_arg4 _ = V c main_arg4 _
  congr 1
  funext a
  apply Fin.ext
  match a with
  | ⟨0, _⟩ => show win0_1.index t (0 : Fin 2) * 16 + 1 * j.val = j.val; omega
  | ⟨1, _⟩ => show win0_1.index t (1 : Fin 2) * 64 + 1 * k.val = k.val; omega

/-- The first bias' block at any point is the whole one-row array. -/
theorem b1_entry (c : Dev nD) (t : Fin cfg0.N) (k : Fin 64) :
    (iblk0 V c 2 t : Vec Ideal S1x64 .f32) (ix2 0 k) = (V c main_v0 : Vec Ideal S1x64 .f32) (ix2 0 k) := by
  obtain ⟨-, -, -, -, e0, e1, -⟩ := blockIdx t
  unfold iblk0
  rw [View.read_apply]
  show V c main_v0 _ = V c main_v0 _
  congr 1
  funext a
  apply Fin.ext
  match a with
  | ⟨0, _⟩ => show win0_2.index t (0 : Fin 2) * 1 + 1 * 0 = 0; omega
  | ⟨1, _⟩ => show win0_2.index t (1 : Fin 2) * 64 + 1 * k.val = k.val; omega

/-- The second weights' block at any point is the whole 64 × 64 array. -/
theorem w2_entry (c : Dev nD) (t : Fin cfg0.N) (k k' : Fin 64) :
    (iblk0 V c 3 t : Vec Ideal S64x64 .f32) (ix2 k k') = (V c main_arg6 : Vec Ideal S64x64 .f32) (ix2 k k') := by
  obtain ⟨-, -, -, -, -, -, e0, e1, -⟩ := blockIdx t
  unfold iblk0
  rw [View.read_apply]
  show V c main_arg6 _ = V c main_arg6 _
  congr 1
  funext a
  apply Fin.ext
  match a with
  | ⟨0, _⟩ => show win0_3.index t (0 : Fin 2) * 64 + 1 * k.val = k.val; omega
  | ⟨1, _⟩ => show win0_3.index t (1 : Fin 2) * 64 + 1 * k'.val = k'.val; omega

/-- The second bias' block at any point is the whole one-row array. -/
theorem b2_entry (c : Dev nD) (t : Fin cfg0.N) (k : Fin 64) :
    (iblk0 V c 4 t : Vec Ideal S1x64 .f32) (ix2 0 k) = (V c main_v1 : Vec Ideal S1x64 .f32) (ix2 0 k) := by
  obtain ⟨-, -, -, -, -, -, -, -, e0, e1, -⟩ := blockIdx t
  unfold iblk0
  rw [View.read_apply]
  show V c main_v1 _ = V c main_v1 _
  congr 1
  funext a
  apply Fin.ext
  match a with
  | ⟨0, _⟩ => show win0_4.index t (0 : Fin 2) * 1 + 1 * 0 = 0; omega
  | ⟨1, _⟩ => show win0_4.index t (1 : Fin 2) * 64 + 1 * k.val = k.val; omega

/-- What point `t` writes back is block `t` of the edge stage of the arrays the region found. -/
theorem flushed_eq (c : Dev nD) (t : Fin cfg0.N) :
    (dat0 (F := Ideal) V c).flushed 5 t
      = ((cfg0.win 5).blk t).view.read (Elt Ideal)
          (Spec.edgeNet (V c main_arg1) (V c main_arg4) (V c main_v0) (V c main_arg6) (V c main_v1)) := by
  show (cfg0.win 5).cut (grid0.coords t) ((dat0 (F := Ideal) V c).after 5 t) = _
  rw [after0_5]
  unfold out0_5
  rw [View.canon_unit_zero zeroOff]
  simp only [View.ld_unit_zero (S := S8000x16) zeroOff, View.ld_unit_zero (S := S16x64) zeroOff,
    View.ld_unit_zero (S := S1x64) zeroOff, View.ld_unit_zero (S := S64x64) zeroOff]
  have hN : cfg0.N = 200 := N_0
  have ht : t.val < 200 := hN ▸ t.isLt
  obtain ⟨-, -, -, -, -, -, -, -, -, -, e0, e1⟩ := blockIdx t
  funext y
  obtain ⟨p, q, rfl⟩ : ∃ (p : Fin 8000) (q : Fin 64), y = ix2 p q := ⟨y 0, y 1, eq_ix2 y⟩
  have hp : p.val < 8000 := p.isLt
  have he : ((cfg0.win 5).blk t).view.emb (ix2 p q) = ix2 (⟨8000 * t.val + p.val, by omega⟩ : Fin 1600000) q :=
    funext fun a => Fin.ext (by
      match a with
      | ⟨0, _⟩ => show win0_5.index t (0 : Fin 2) * 8000 + 1 * p.val = 8000 * t.val + p.val; omega
      | ⟨1, _⟩ => show win0_5.index t (1 : Fin 2) * 64 + 1 * q.val = q.val; omega)
  show k0_pay1 (F := Ideal) (iblk0 V c 0 t) (iblk0 V c 1 t) (iblk0 V c 2 t) (iblk0 V c 3 t) (iblk0 V c 4 t) (ix2 p q)
    = Spec.edgeNet (V c main_arg1) (V c main_arg4) (V c main_v0) (V c main_arg6) (V c main_v1)
        (((cfg0.win 5).blk t).view.emb (ix2 p q))
  rw [he, Spec.edgeNet_apply]
  exact pay_entry (V c main_arg1) (V c main_arg4) (V c main_v0) (V c main_arg6) (V c main_v1)
    (iblk0 V c 0 t) (iblk0 V c 1 t) (iblk0 V c 2 t) (iblk0 V c 3 t) (iblk0 V c 4 t) p q ⟨8000 * t.val + p.val, by omega⟩
    (fun j => feat_entry V c t p j _ rfl) (fun j k => w1_entry V c t j k) (fun k => b1_entry V c t k)
    (fun k k' => w2_entry V c t k k') (fun k => b2_entry V c t k)

/-- An entry of the output array is in point `t`'s block iff each coordinate is in the block's range on its axis. -/
theorem mem_blk (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v2).slice (win0_5.rect t)).set ↔ _
  rw [View.set_slice_whole, Rect.mem_set_unit]
  exact Iff.rfl

/-- Every entry is written back by some point: row `r` lies in block `r / 8000`. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 200 := N_0
  have hlt : (i 0).val / 8000 < cfg0.N := by rw [hN]; omega
  obtain ⟨-, -, -, -, -, -, -, -, -, -, e0, e1⟩ := blockIdx ⟨(i 0).val / 8000, hlt⟩
  refine ⟨⟨(i 0).val / 8000, hlt⟩, flush0_5 _, ?_⟩
  rw [mem_blk]
  intro a
  match a with
  | ⟨0, _⟩ =>
    show win0_5.index ⟨(i 0).val / 8000, hlt⟩ (0 : Fin 2) * 8000 ≤ (i 0).val ∧ (i 0).val < win0_5.index ⟨(i 0).val / 8000, hlt⟩ (0 : Fin 2) * 8000 + 8000
    have e0' : win0_5.index ⟨(i 0).val / 8000, hlt⟩ (0 : Fin 2) = (i 0).val / 8000 := e0
    omega
  | ⟨1, _⟩ =>
    show win0_5.index ⟨(i 0).val / 8000, hlt⟩ (1 : Fin 2) * 64 ≤ (i 1).val ∧ (i 1).val < win0_5.index ⟨(i 0).val / 8000, hlt⟩ (1 : Fin 2) * 64 + 64
    omega

/-- The array region 0 leaves is the edge stage of the arrays it found. -/
theorem value0 (c : Dev nD) :
    (dat0 (F := Ideal) V c).arrAt 5 cfg0.N
      = Spec.edgeNet (V c main_arg1) (V c main_arg4) (V c main_v0) (V c main_arg6) (V c main_v1) :=
  (dat0 (F := Ideal) V c).arrAt_eq_of_cover 5
    (Spec.edgeNet (V c main_arg1) (V c main_arg4) (V c main_v0) (V c main_arg6) (V c main_v1))
    (fun t _ => flushed_eq V c t) covered

end Cert.KernelIdeal.RegionE

end
-- ==== Proof.RegionM.lean ====
/-
  What a message region leaves in its output array: the ramp of the sum of its two input arrays.

  The region walks the 1 600 000 edges in 400 blocks of 4000 rows; at a block it reads the same 4000 rows
  of both inputs and writes `max (a + b) 0` entry by entry.  The blocks cover every row, so the array after
  the region is that function of the two arrays the region found, entry by entry.  The program has four
  such regions, one per layer, alike but for the buffers they are wired to.
-/
import proofs.«401560_j6914897347055_1_alg».proof.Proof.Gen.KernelIdeal.Frame
import proofs.«401560_j6914897347055_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.RegionM

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole block, however they are spelt. -/
theorem zero_offsets : (![0, 0] : Fin 2 → Nat) = fun _ => 0 := funext fun a => by fin_cases a <;> rfl

/-- One entry of a block's result: the ramp of the sum of the two blocks' entries there, which is the message
    at array index `i` when the two block entries are the two arrays' entries at `i`. -/
theorem ramp_sum_entry (pay : Vec Ideal S4000x64 .f32 → Vec Ideal S4000x64 .f32 → FVec Ideal S4000x64 .f32)
    (hpay : ∀ x0 x1 j, pay x0 x1 j = max (x0 j + x1 j) 0)
    (hs e : Spec.SE64.Idx → EReal) (x0 x1 : Vec Ideal S4000x64 .f32) (j : S4000x64.Idx) (i : Spec.SE64.Idx)
    (h0 : x0 j = hs i) (h1 : x1 j = e i) : pay x0 x1 j = Spec.msg hs e i := by
  rw [hpay, h0, h1]; rfl

/-! ## Region 1 -/

/-- The block's result at an entry: shape casts to the same shape are the identity, the sum and the maximum
    are entrywise, and the zero word is zero. -/
theorem pay1_entry (x0 x1 : Vec Ideal S4000x64 .f32) (j : S4000x64.Idx) :
    k1_pay1 (F := Ideal) x0 x1 j = max (x0 j + x1 j) 0 := by
  unfold k1_pay1
  rw [shapeCast_self, shapeCast_self]
  show max (x0 j + x1 j) (Ideal.ofBits .f32 0x00000000#32) = _
  rw [Ideal.ofBits_zero_f32]

/-- All three windows sit at block `(t, 0)` at grid point `t`. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the messages of the two arrays the region found: entry `j` of
    each input block and of the output block is the array entry at row `4000 t + j 0`, column `j 1`. -/
theorem flushed1 (c : Dev nD) (t : Fin cfg1.N) :
    (dat1 (F := Ideal) V c).flushed 2 t
      = ((cfg1.win 2).blk t).view.read (Elt Ideal) (Spec.msg (V c main_v3) (V c main_v2)) := by
  show (cfg1.win 2).cut (grid1.coords t) ((dat1 V c).after 2 t) = _
  rw [after1_2]
  unfold out1_2
  rw [View.canon_unit_zero zero_offsets]
  simp only [View.ld_unit_zero (S := S4000x64) zero_offsets]
  obtain ⟨e0, e1, e2, e3, e4, e5⟩ := block_index1 t
  funext j
  show k1_pay1 (iblk1 V c 0 t) (iblk1 V c 1 t) j
    = Spec.msg (V c main_v3) (V c main_v2) (((cfg1.win 2).blk t).view.emb j)
  refine ramp_sum_entry k1_pay1 pay1_entry (V c main_v3) (V c main_v2) (iblk1 V c 0 t) (iblk1 V c 1 t) j
    (((cfg1.win 2).blk t).view.emb j) ?_ ?_
  · show V c main_v3 (((cfg1.win 0).blk t).view.emb j) = V c main_v3 (((cfg1.win 2).blk t).view.emb j)
    refine congrArg (V c main_v3) ?_
    funext a; apply Fin.ext
    match a with
    | ⟨0, _⟩ =>
      show win1_0.index t (0 : Fin 2) * 4000 + 1 * (j 0).val = win1_2.index t (0 : Fin 2) * 4000 + 1 * (j 0).val
      rw [e0, e4]
    | ⟨1, _⟩ =>
      show win1_0.index t (1 : Fin 2) * 64 + 1 * (j 1).val = win1_2.index t (1 : Fin 2) * 64 + 1 * (j 1).val
      rw [e1, e5]
  · show V c main_v2 (((cfg1.win 1).blk t).view.emb j) = V c main_v2 (((cfg1.win 2).blk t).view.emb j)
    refine congrArg (V c main_v2) ?_
    funext a; apply Fin.ext
    match a with
    | ⟨0, _⟩ =>
      show win1_1.index t (0 : Fin 2) * 4000 + 1 * (j 0).val = win1_2.index t (0 : Fin 2) * 4000 + 1 * (j 0).val
      rw [e2, e4]
    | ⟨1, _⟩ =>
      show win1_1.index t (1 : Fin 2) * 64 + 1 * (j 1).val = win1_2.index t (1 : Fin 2) * 64 + 1 * (j 1).val
      rw [e3, e5]

/-- An array index lies in point `t`'s output block iff each coordinate lies in the block's range on its axis. -/
theorem mem_block1 (t : Fin cfg1.N) (i : S1600000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v4).slice (win1_2.rect t)).set ↔ _
  rw [View.set_slice_whole, Rect.mem_set_unit]
  exact Iff.rfl

/-- Every row lies in a block: row `r` in block `r / 4000`, and a block spans all 64 columns. -/
theorem cover1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : grid1.N = 400 := N_1
  have ht : (i 0).val / 4000 < cfg1.N := by show (i 0).val / 4000 < grid1.N; rw [hN]; omega
  obtain ⟨-, -, -, -, e4, e5⟩ := block_index1 ⟨(i 0).val / 4000, ht⟩
  refine ⟨⟨(i 0).val / 4000, ht⟩, flush1_2 _, ?_⟩
  rw [mem_block1]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 64 ≤ (i 1).val
      ∧ (i 1).val < win1_2.index ⟨(i 0).val / 4000, ht⟩ (1 : Fin 2) * 64 + 64
    rw [e5]; omega

/-- The array region 1 leaves is the messages of the arrays it found. -/
theorem value1 (c : Dev nD) :
    (dat1 (F := Ideal) V c).arrAt 2 cfg1.N = Spec.msg (V c main_v3) (V c main_v2) :=
  (dat1 V c).arrAt_eq_of_cover 2 (Spec.msg (V c main_v3) (V c main_v2)) (fun t _ => flushed1 V c t) cover1

/-! ## Region 3 -/

/-- The block's result at an entry, as in region 1. -/
theorem pay3_entry (x0 x1 : Vec Ideal S4000x64 .f32) (j : S4000x64.Idx) :
    k3_pay1 (F := Ideal) x0 x1 j = max (x0 j + x1 j) 0 := by
  unfold k3_pay1
  rw [shapeCast_self, shapeCast_self]
  show max (x0 j + x1 j) (Ideal.ofBits .f32 0x00000000#32) = _
  rw [Ideal.ofBits_zero_f32]

/-- All three windows sit at block `(t, 0)` at grid point `t`. -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the messages of the two arrays the region found. -/
theorem flushed3 (c : Dev nD) (t : Fin cfg3.N) :
    (dat3 (F := Ideal) V c).flushed 2 t
      = ((cfg3.win 2).blk t).view.read (Elt Ideal) (Spec.msg (V c main_v14) (V c main_v2)) := by
  show (cfg3.win 2).cut (grid3.coords t) ((dat3 V c).after 2 t) = _
  rw [after3_2]
  unfold out3_2
  rw [View.canon_unit_zero zero_offsets]
  simp only [View.ld_unit_zero (S := S4000x64) zero_offsets]
  obtain ⟨e0, e1, e2, e3, e4, e5⟩ := block_index3 t
  funext j
  show k3_pay1 (iblk3 V c 0 t) (iblk3 V c 1 t) j
    = Spec.msg (V c main_v14) (V c main_v2) (((cfg3.win 2).blk t).view.emb j)
  refine ramp_sum_entry k3_pay1 pay3_entry (V c main_v14) (V c main_v2) (iblk3 V c 0 t) (iblk3 V c 1 t) j
    (((cfg3.win 2).blk t).view.emb j) ?_ ?_
  · show V c main_v14 (((cfg3.win 0).blk t).view.emb j) = V c main_v14 (((cfg3.win 2).blk t).view.emb j)
    refine congrArg (V c main_v14) ?_
    funext a; apply Fin.ext
    match a with
    | ⟨0, _⟩ =>
      show win3_0.index t (0 : Fin 2) * 4000 + 1 * (j 0).val = win3_2.index t (0 : Fin 2) * 4000 + 1 * (j 0).val
      rw [e0, e4]
    | ⟨1, _⟩ =>
      show win3_0.index t (1 : Fin 2) * 64 + 1 * (j 1).val = win3_2.index t (1 : Fin 2) * 64 + 1 * (j 1).val
      rw [e1, e5]
  · show V c main_v2 (((cfg3.win 1).blk t).view.emb j) = V c main_v2 (((cfg3.win 2).blk t).view.emb j)
    refine congrArg (V c main_v2) ?_
    funext a; apply Fin.ext
    match a with
    | ⟨0, _⟩ =>
      show win3_1.index t (0 : Fin 2) * 4000 + 1 * (j 0).val = win3_2.index t (0 : Fin 2) * 4000 + 1 * (j 0).val
      rw [e2, e4]
    | ⟨1, _⟩ =>
      show win3_1.index t (1 : Fin 2) * 64 + 1 * (j 1).val = win3_2.index t (1 : Fin 2) * 64 + 1 * (j 1).val
      rw [e3, e5]

/-- An array index lies in point `t`'s output block iff each coordinate lies in the block's range on its axis. -/
theorem mem_block3 (t : Fin cfg3.N) (i : S1600000x64.Idx) :
    i ∈ ((cfg3.win 2).blk t).view.set ↔ ∀ a : Fin 2, win3_2.index t a * S4000x64.size a ≤ (i a).val
      ∧ (i a).val < win3_2.index t a * S4000x64.size a + S4000x64.size a := by
  show i ∈ ((View.whole main_v15).slice (win3_2.rect t)).set ↔ _
  rw [View.set_slice_whole, Rect.mem_set_unit]
  exact Iff.rfl

/-- Every row lies in a block: row `r` in block `r / 4000`, and a block spans all 64 columns. -/
theorem cover3 (i : S1600000x64.Idx) :
    ∃ t : Fin cfg3.N, (cfg3.win 2).flush t = true ∧ i ∈ ((cfg3.win 2).blk t).view.set := by
  have hi0 : (i 0).val < 1600000 := (i 0).isLt
  have hi1 : (i 1).val < 64 := (i 1).isLt
  have hN : grid3.N = 400 := N_3
  have ht : (i 0).val / 4000 < cfg3.N := by show (i 0).val / 4000 < grid3.N; rw [hN]; omega
  obtain ⟨-, -, -, -, e4, e5⟩ := block_index3 ⟨(i 0).val / 4000, ht⟩
  refine ⟨⟨(i 0).val / 4000, ht⟩, flush3_2 _, ?_⟩
  rw [mem_block3]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 64 ≤ (i 1).val
      ∧ (i 1).val < win3_2.index ⟨(i 0).val / 4000, ht⟩ (1 : Fin 2) * 64 + 64
    rw [e5]; omega

/-- The array region 3 leaves is the messages of the arrays it found. -/
theorem value3 (c : Dev nD) :
    (dat3 (F := Ideal) V c).arrAt 2 cfg3.N = Spec.msg (V c main_v14) (V c main_v2) :=
  (dat3 V c).arrAt_eq_of_cover 2 (Spec.msg (V c main_v14) (V c main_v2)) (fun t _ => flushed3 V c t) cover3

/-! ## Region 5 -/

/-- The block's result at an entry, as in region 1. -/
theorem pay5_entry (x0 x1 : Vec Ideal S4000x64 .f32) (j : S4000x64.Idx) :
    k5_pay1 (F := Ideal) x0 x1 j = max (x0 j + x1 j) 0 := by
  unfold k5_pay1
  rw [shapeCast_self, shapeCast_self]
  show max (x0 j + x1 j) (Ideal.ofBits .f32 0x00000000#32) = _
  rw [Ideal.ofBits_zero_f32]

/-- All three windows sit at block `(t, 0)` at grid point `t`. -/
theorem block_index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the messages of the two arrays the region found. -/
theorem flushed5 (c : Dev nD) (t : Fin cfg5.N) :
    (dat5 (F := Ideal) V c).flushed 2 t
      = ((cfg5.win 2).blk t).view.read (Elt Ideal) (Spec.msg (V c main_v25) (V c main_v2)) := by
  show (cfg5.win 2).cut (grid5.coords t) ((dat5 V c).after 2 t) = _
  rw [after5_2]
  unfold out5_2
  rw [View.canon_unit_zero zero_offsets]
  simp only [View.ld_unit_zero (S := S4000x64) zero_offsets]
  obtain ⟨e0, e1, e2, e3, e4, e5⟩ := block_index5 t
  funext j
  show k5_pay1 (iblk5 V c 0 t) (iblk5 V c 1 t) j
    = Spec.msg (V c main_v25) (V c main_v2) (((cfg5.win 2).blk t).view.emb j)
  refine ramp_sum_entry k5_pay1 pay5_entry (V c main_v25) (V c main_v2) (iblk5 V c 0 t) (iblk5 V c 1 t) j
    (((cfg5.win 2).blk t).view.emb j) ?_ ?_
  · show V c main_v25 (((cfg5.win 0).blk t).view.emb j) = V c main_v25 (((cfg5.win 2).blk t).view.emb j)
    refine congrArg (V c main_v25) ?_
    funext a; apply Fin.ext
    match a with
    | ⟨0, _⟩ =>
      show win5_0.index t (0 : Fin 2) * 4000 + 1 * (j 0).val = win5_2.index t (0 : Fin 2) * 4000 + 1 * (j 0).val
      rw [e0, e4]
    | ⟨1, _⟩ =>
      show win5_0.index t (1 : Fin 2) * 64 + 1 * (j 1).val = win5_2.index t (1 : Fin 2) * 64 + 1 * (j 1).val
      rw [e1, e5]
  · show V c main_v2 (((cfg5.win 1).blk t).view.emb j) = V c main_v2 (((cfg5.win 2).blk t).view.emb j)
    refine congrArg (V c main_v2) ?_
    funext a; apply Fin.ext
    match a with
    | ⟨0, _⟩ =>
      show win5_1.index t (0 : Fin 2) * 4000 + 1 * (j 0).val = win5_2.index t (0 : Fin 2) * 4000 + 1 * (j 0).val
      rw [e2, e4]
    | ⟨1, _⟩ =>
      show win5_1.index t (1 : Fin 2) * 64 + 1 * (j 1).val = win5_2.index t (1 : Fin 2) * 64 + 1 * (j 1).val
      rw [e3, e5]

/-- An array index lies in point `t`'s output block iff each coordinate lies in the block's range on its axis. -/
theorem mem_block5 (t : Fin cfg5.N) (i : S1600000x64.Idx) :
    i ∈ ((cfg5.win 2).blk t).view.set ↔ ∀ a : Fin 2, win5_2.index t a * S4000x64.size a ≤ (i a).val
      ∧ (i a).val < win5_2.index t a * S4000x64.size a + S4000x64.size a := by
  show i ∈ ((View.whole main_v26).slice (win5_2.rect t)).set ↔ _
  rw [View.set_slice_whole, Rect.mem_set_unit]
  exact Iff.rfl

/-- Every row lies in a block: row `r` in block `r / 4000`, and a block spans all 64 columns. -/
theorem cover5 (i : S1600000x64.Idx) :
    ∃ t : Fin cfg5.N, (cfg5.win 2).flush t = true ∧ i ∈ ((cfg5.win 2).blk t).view.set := by
  have hi0 : (i 0).val < 1600000 := (i 0).isLt
  have hi1 : (i 1).val < 64 := (i 1).isLt
  have hN : grid5.N = 400 := N_5
  have ht : (i 0).val / 4000 < cfg5.N := by show (i 0).val / 4000 < grid5.N; rw [hN]; omega
  obtain ⟨-, -, -, -, e4, e5⟩ := block_index5 ⟨(i 0).val / 4000, ht⟩
  refine ⟨⟨(i 0).val / 4000, ht⟩, flush5_2 _, ?_⟩
  rw [mem_block5]
  intro a
  match a with
  | ⟨0, _⟩ =>
    show win5_2.index ⟨(i 0).val / 4000, ht⟩ (0 : Fin 2) * 4000 ≤ (i 0).val
      ∧ (i 0).val < win5_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win5_2.index ⟨(i 0).val / 4000, ht⟩ (1 : Fin 2) * 64 ≤ (i 1).val
      ∧ (i 1).val < win5_2.index ⟨(i 0).val / 4000, ht⟩ (1 : Fin 2) * 64 + 64
    rw [e5]; omega

/-- The array region 5 leaves is the messages of the arrays it found. -/
theorem value5 (c : Dev nD) :
    (dat5 (F := Ideal) V c).arrAt 2 cfg5.N = Spec.msg (V c main_v25) (V c main_v2) :=
  (dat5 V c).arrAt_eq_of_cover 2 (Spec.msg (V c main_v25) (V c main_v2)) (fun t _ => flushed5 V c t) cover5

/-! ## Region 7 -/

/-- The block's result at an entry, as in region 1. -/
theorem pay7_entry (x0 x1 : Vec Ideal S4000x64 .f32) (j : S4000x64.Idx) :
    k7_pay1 (F := Ideal) x0 x1 j = max (x0 j + x1 j) 0 := by
  unfold k7_pay1
  rw [shapeCast_self, shapeCast_self]
  show max (x0 j + x1 j) (Ideal.ofBits .f32 0x00000000#32) = _
  rw [Ideal.ofBits_zero_f32]

/-- All three windows sit at block `(t, 0)` at grid point `t`. -/
theorem block_index7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the messages of the two arrays the region found. -/
theorem flushed7 (c : Dev nD) (t : Fin cfg7.N) :
    (dat7 (F := Ideal) V c).flushed 2 t
      = ((cfg7.win 2).blk t).view.read (Elt Ideal) (Spec.msg (V c main_v36) (V c main_v2)) := by
  show (cfg7.win 2).cut (grid7.coords t) ((dat7 V c).after 2 t) = _
  rw [after7_2]
  unfold out7_2
  rw [View.canon_unit_zero zero_offsets]
  simp only [View.ld_unit_zero (S := S4000x64) zero_offsets]
  obtain ⟨e0, e1, e2, e3, e4, e5⟩ := block_index7 t
  funext j
  show k7_pay1 (iblk7 V c 0 t) (iblk7 V c 1 t) j
    = Spec.msg (V c main_v36) (V c main_v2) (((cfg7.win 2).blk t).view.emb j)
  refine ramp_sum_entry k7_pay1 pay7_entry (V c main_v36) (V c main_v2) (iblk7 V c 0 t) (iblk7 V c 1 t) j
    (((cfg7.win 2).blk t).view.emb j) ?_ ?_
  · show V c main_v36 (((cfg7.win 0).blk t).view.emb j) = V c main_v36 (((cfg7.win 2).blk t).view.emb j)
    refine congrArg (V c main_v36) ?_
    funext a; apply Fin.ext
    match a with
    | ⟨0, _⟩ =>
      show win7_0.index t (0 : Fin 2) * 4000 + 1 * (j 0).val = win7_2.index t (0 : Fin 2) * 4000 + 1 * (j 0).val
      rw [e0, e4]
    | ⟨1, _⟩ =>
      show win7_0.index t (1 : Fin 2) * 64 + 1 * (j 1).val = win7_2.index t (1 : Fin 2) * 64 + 1 * (j 1).val
      rw [e1, e5]
  · show V c main_v2 (((cfg7.win 1).blk t).view.emb j) = V c main_v2 (((cfg7.win 2).blk t).view.emb j)
    refine congrArg (V c main_v2) ?_
    funext a; apply Fin.ext
    match a with
    | ⟨0, _⟩ =>
      show win7_1.index t (0 : Fin 2) * 4000 + 1 * (j 0).val = win7_2.index t (0 : Fin 2) * 4000 + 1 * (j 0).val
      rw [e2, e4]
    | ⟨1, _⟩ =>
      show win7_1.index t (1 : Fin 2) * 64 + 1 * (j 1).val = win7_2.index t (1 : Fin 2) * 64 + 1 * (j 1).val
      rw [e3, e5]

/-- An array index lies in point `t`'s output block iff each coordinate lies in the block's range on its axis. -/
theorem mem_block7 (t : Fin cfg7.N) (i : S1600000x64.Idx) :
    i ∈ ((cfg7.win 2).blk t).view.set ↔ ∀ a : Fin 2, win7_2.index t a * S4000x64.size a ≤ (i a).val
      ∧ (i a).val < win7_2.index t a * S4000x64.size a + S4000x64.size a := by
  show i ∈ ((View.whole main_v37).slice (win7_2.rect t)).set ↔ _
  rw [View.set_slice_whole, Rect.mem_set_unit]
  exact Iff.rfl

/-- Every row lies in a block: row `r` in block `r / 4000`, and a block spans all 64 columns. -/
theorem cover7 (i : S1600000x64.Idx) :
    ∃ t : Fin cfg7.N, (cfg7.win 2).flush t = true ∧ i ∈ ((cfg7.win 2).blk t).view.set := by
  have hi0 : (i 0).val < 1600000 := (i 0).isLt
  have hi1 : (i 1).val < 64 := (i 1).isLt
  have hN : grid7.N = 400 := N_7
  have ht : (i 0).val / 4000 < cfg7.N := by show (i 0).val / 4000 < grid7.N; rw [hN]; omega
  obtain ⟨-, -, -, -, e4, e5⟩ := block_index7 ⟨(i 0).val / 4000, ht⟩
  refine ⟨⟨(i 0).val / 4000, ht⟩, flush7_2 _, ?_⟩
  rw [mem_block7]
  intro a
  match a with
  | ⟨0, _⟩ =>
    show win7_2.index ⟨(i 0).val / 4000, ht⟩ (0 : Fin 2) * 4000 ≤ (i 0).val
      ∧ (i 0).val < win7_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win7_2.index ⟨(i 0).val / 4000, ht⟩ (1 : Fin 2) * 64 ≤ (i 1).val
      ∧ (i 1).val < win7_2.index ⟨(i 0).val / 4000, ht⟩ (1 : Fin 2) * 64 + 64
    rw [e5]; omega

/-- The array region 7 leaves is the messages of the arrays it found. -/
theorem value7 (c : Dev nD) :
    (dat7 (F := Ideal) V c).arrAt 2 cfg7.N = Spec.msg (V c main_v36) (V c main_v2) :=
  (dat7 V c).arrAt_eq_of_cover 2 (Spec.msg (V c main_v36) (V c main_v2)) (fun t _ => flushed7 V c t) cover7

end Cert.KernelIdeal.RegionM

end
-- ==== Proof.RegionU.lean ====
/-
  What a node-update region leaves in its output array: the node update of its input arrays.

  The region walks the 100 000 nodes in 20 blocks of 5000 rows; at a block it reads the same 5000 rows of
  the node features and of the summed messages, the layer's weight matrix and its one-row bias whole, and
  writes `max ((h + agg) · W + b) 0`: the matrix product into a zero accumulator is the plain sum over the
  contracted axis and a change of float format is the identity.  The blocks cover every row, so the array
  after the region is the node update of the arrays the region found, entry by entry.  The program has
  four such regions, one per layer.
-/
import proofs.«401560_j6914897347055_1_alg».proof.Proof.Gen.KernelIdeal.Frame
import proofs.«401560_j6914897347055_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionU

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The block's arithmetic, entry by entry

All four regions multiply a 5000 × 64 block by the 64 × 64 weights with the same contraction: the block's
columns against the weights' rows. -/

/-- A pair of zero offsets is the zero offset on every axis. -/
theorem zeroOffsets : (![0, 0] : Fin 2 → Nat) = fun _ => 0 := funext fun a => by fin_cases a <;> rfl

/-- The product's left factor is read on the output entry's row … -/
theorem prodLeft_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … at the summed column; -/
theorem prodLeft_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- the right factor at the summed row … -/
theorem prodRight_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- … on the output entry's column. -/
theorem prodRight_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block's product into a zero accumulator, at row `p` and column `q`: the sum over the 64 shared
    indices of the block's row `p` against the weights' column `q`. -/
theorem blockProduct_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun ax => Fin.ext (by
      match ax with
      | ⟨0, _⟩ => exact prodLeft_row _ _
      | ⟨1, _⟩ => exact (prodLeft_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun ax => Fin.ext (by
      match ax with
      | ⟨0, _⟩ => exact (prodRight_row _ _).trans hk
      | ⟨1, _⟩ => exact prodRight_col _ _)
  rw [el, er]

/-! ## Region 2 -/

/-- The block's arithmetic at row `p`, column `q`: the ramp of the affine map of the summed rows. -/
theorem pay2_apply (h g : Vec Ideal S5000x64 .f32) (W : Vec Ideal S64x64 .f32) (b : Vec Ideal S1x64 .f32)
    (p : Fin 5000) (q : Fin 64) :
    k2_pay1 (F := Ideal) h g W b (ix2 p q)
      = max ((∑ k : Fin 64, (h (ix2 p k) + g (ix2 p k)) * W (ix2 k q)) + b (ix2 0 q)) 0 := by
  unfold k2_pay1
  simp only [shapeCast_self]
  rw [maximumf_apply, addf_apply, broadcast_apply, blockProduct_apply, broadcastTo_1b_ab_apply]
  simp only [truncf_apply, addf_apply]
  exact congrArg (max _) Ideal.ofBits_zero_f32

/-- The same with the block's rows named as rows `r` of two whole arrays: the node update at `r`, `q`. -/
theorem pay2_rows (h g : Vec Ideal S5000x64 .f32) (W : Vec Ideal S64x64 .f32) (b : Vec Ideal S1x64 .f32)
    (H G : Spec.SN64.Idx → EReal) (r : Fin 100000) (p : Fin 5000) (q : Fin 64)
    (hh : ∀ k : Fin 64, h (ix2 p k) = H (ix2 r k)) (hg : ∀ k : Fin 64, g (ix2 p k) = G (ix2 r k)) :
    k2_pay1 (F := Ideal) h g W b (ix2 p q) = Spec.updAt H G W b r q := by
  rw [pay2_apply]
  unfold Spec.updAt
  simp only [hh, hg]

/-- The one store of the body fills the staging buffer with the block's arithmetic. -/
theorem stored2 (h g : Vec Ideal S5000x64 .f32) (W : Vec Ideal S64x64 .f32) (b : Vec Ideal S1x64 .f32) :
    out2_4 (F := Ideal) h g W b = k2_pay1 (F := Ideal) h g W b := by
  unfold out2_4
  rw [View.canon_unit_zero zeroOffsets]
  simp only [View.ld_unit_zero (S := S5000x64) zeroOffsets, View.ld_unit_zero (S := S64x64) zeroOffsets,
    View.ld_unit_zero (S := S1x64) zeroOffsets]

/-- Where the windows sit at grid point `t`: the three row windows at block `t`, the weights and the bias at
    their one block. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the node-feature block at point `t` is row `5000 t + p` of the node features. -/
theorem featRows2 (c : Dev nD) (t : Fin cfg2.N) (p : Fin 5000) (k : Fin 64) (r : Fin 100000)
    (hr : r.val = 5000 * t.val + p.val) :
    (iblk2 (F := Ideal) V c 0 t : Vec Ideal S5000x64 .f32) (ix2 p k) = (V c main_arg0 : Spec.SN64.Idx → EReal) (ix2 r k) := by
  obtain ⟨e0, e1, -⟩ := blockIndex2 t
  unfold iblk2
  rw [View.read_apply]
  show V c main_arg0 _ = V c main_arg0 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Row `p` of the summed-message block at point `t` is row `5000 t + p` of the summed messages. -/
theorem aggRows2 (c : Dev nD) (t : Fin cfg2.N) (p : Fin 5000) (k : Fin 64) (r : Fin 100000)
    (hr : r.val = 5000 * t.val + p.val) :
    (iblk2 (F := Ideal) V c 1 t : Vec Ideal S5000x64 .f32) (ix2 p k) = (V c main_v7 : Spec.SN64.Idx → EReal) (ix2 r k) := by
  obtain ⟨-, -, e0, e1, -⟩ := blockIndex2 t
  unfold iblk2
  rw [View.read_apply]
  show V c main_v7 _ = V c main_v7 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- The weight window's block is the whole weight matrix at every point. -/
theorem weights2 (c : Dev nD) (t : Fin cfg2.N) :
    (iblk2 (F := Ideal) V c 2 t : Vec Ideal S64x64 .f32) = (V c main_v9 : Spec.S64x64.Idx → EReal) := by
  obtain ⟨-, -, -, -, e0, e1, -⟩ := blockIndex2 t
  funext y
  unfold iblk2
  rw [View.read_apply]
  show V c main_v9 _ = V c main_v9 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The bias window's block is the whole one-row bias at every point. -/
theorem bias2 (c : Dev nD) (t : Fin cfg2.N) :
    (iblk2 (F := Ideal) V c 3 t : Vec Ideal S1x64 .f32) = (V c main_v12 : Spec.S1x64.Idx → EReal) := by
  obtain ⟨-, -, -, -, -, -, e0, e1, -⟩ := blockIndex2 t
  funext y
  unfold iblk2
  rw [View.read_apply]
  show V c main_v12 _ = V c main_v12 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- What point `t` writes back is block `t` of the node update of the arrays the region found. -/
theorem written2 (c : Dev nD) (t : Fin cfg2.N) :
    (dat2 (F := Ideal) V c).flushed 4 t = ((cfg2.win 4).blk t).view.read (Elt Ideal)
      (Spec.upd (V c main_arg0) (V c main_v7) (V c main_v9) (V c main_v12)) := by
  show (cfg2.win 4).cut (grid2.coords t) ((dat2 V c).after 4 t) = _
  rw [after2_4, stored2 (iblk2 V c 0 t) (iblk2 V c 1 t) (iblk2 V c 2 t) (iblk2 V c 3 t), weights2 V c t, bias2 V c t]
  obtain ⟨-, -, -, -, -, -, -, -, e0, e1⟩ := blockIndex2 t
  have ht : t.val < 20 := lt_of_lt_of_eq t.isLt N_2
  refine funext fun (j : S5000x64.Idx) => ?_
  obtain ⟨p, q, rfl⟩ : ∃ (p : Fin 5000) (q : Fin 64), j = ix2 p q := ⟨j 0, j 1, eq_ix2 j⟩
  have hp : p.val < 5000 := p.isLt
  refine (pay2_rows (iblk2 V c 0 t) (iblk2 V c 1 t) (V c main_v9) (V c main_v12) (V c main_arg0) (V c main_v7)
    ⟨5000 * t.val + p.val, by omega⟩ p q (fun k => featRows2 V c t p k _ rfl) (fun k => aggRows2 V c t p k _ rfl)).trans ?_
  refine (Spec.upd_apply (V c main_arg0) (V c main_v7) (V c main_v9) (V c main_v12) ⟨5000 * t.val + p.val, by omega⟩ q).symm.trans ?_
  show Spec.upd (V c main_arg0) (V c main_v7) (V c main_v9) (V c main_v12) _
    = Spec.upd (V c main_arg0) (V c main_v7) (V c main_v9) (V c main_v12) _
  congr 1
  funext a
  apply Fin.ext
  match a with
  | ⟨0, _⟩ => show 5000 * t.val + p.val = win2_4.index t (0 : Fin 2) * 5000 + 1 * p.val; rw [e0]; omega
  | ⟨1, _⟩ => show q.val = win2_4.index t (1 : Fin 2) * 64 + 1 * q.val; rw [e1]; omega

/-- An index of the output array lies in point `t`'s block iff each coordinate lies in the block's range. -/
theorem mem_block2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v13).slice (win2_4.rect t)).set ↔ _
  rw [View.set_slice_whole, Rect.mem_set_unit]
  exact Iff.rfl

/-- Every row lies in a block: row `r` in block `r / 5000`. -/
theorem covered2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_4 _, ?_⟩
  rw [mem_block2]
  obtain ⟨-, -, -, -, -, -, -, -, e0, e1⟩ := blockIndex2 ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; show (i 0).val / 5000 * 5000 ≤ (i 0).val ∧ (i 0).val < (i 0).val / 5000 * 5000 + 5000; omega
  | ⟨1, _⟩ =>
    show win2_4.index _ (1 : Fin 2) * 64 ≤ (i 1).val ∧ (i 1).val < win2_4.index _ (1 : Fin 2) * 64 + 64
    rw [e1]; omega

/-- The array region 2 leaves is the node update of the arrays it found. -/
theorem value2 (c : Dev nD) :
    (dat2 (F := Ideal) V c).arrAt 4 cfg2.N = Spec.upd (V c main_arg0) (V c main_v7) (V c main_v9) (V c main_v12) :=
  (dat2 (F := Ideal) V c).arrAt_eq_of_cover 4 (Spec.upd (V c main_arg0) (V c main_v7) (V c main_v9) (V c main_v12))
    (fun t _ => written2 V c t) covered2

/-! ## Region 4 -/

/-- The block's arithmetic at row `p`, column `q`: the ramp of the affine map of the summed rows. -/
theorem pay4_apply (h g : Vec Ideal S5000x64 .f32) (W : Vec Ideal S64x64 .f32) (b : Vec Ideal S1x64 .f32)
    (p : Fin 5000) (q : Fin 64) :
    k4_pay1 (F := Ideal) h g W b (ix2 p q)
      = max ((∑ k : Fin 64, (h (ix2 p k) + g (ix2 p k)) * W (ix2 k q)) + b (ix2 0 q)) 0 := by
  unfold k4_pay1
  simp only [shapeCast_self]
  rw [maximumf_apply, addf_apply, broadcast_apply, blockProduct_apply, broadcastTo_1b_ab_apply]
  simp only [truncf_apply, addf_apply]
  exact congrArg (max _) Ideal.ofBits_zero_f32

/-- The same with the block's rows named as rows `r` of two whole arrays: the node update at `r`, `q`. -/
theorem pay4_rows (h g : Vec Ideal S5000x64 .f32) (W : Vec Ideal S64x64 .f32) (b : Vec Ideal S1x64 .f32)
    (H G : Spec.SN64.Idx → EReal) (r : Fin 100000) (p : Fin 5000) (q : Fin 64)
    (hh : ∀ k : Fin 64, h (ix2 p k) = H (ix2 r k)) (hg : ∀ k : Fin 64, g (ix2 p k) = G (ix2 r k)) :
    k4_pay1 (F := Ideal) h g W b (ix2 p q) = Spec.updAt H G W b r q := by
  rw [pay4_apply]
  unfold Spec.updAt
  simp only [hh, hg]

/-- The one store of the body fills the staging buffer with the block's arithmetic. -/
theorem stored4 (h g : Vec Ideal S5000x64 .f32) (W : Vec Ideal S64x64 .f32) (b : Vec Ideal S1x64 .f32) :
    out4_4 (F := Ideal) h g W b = k4_pay1 (F := Ideal) h g W b := by
  unfold out4_4
  rw [View.canon_unit_zero zeroOffsets]
  simp only [View.ld_unit_zero (S := S5000x64) zeroOffsets, View.ld_unit_zero (S := S64x64) zeroOffsets,
    View.ld_unit_zero (S := S1x64) zeroOffsets]

/-- Where the windows sit at grid point `t`: the three row windows at block `t`, the weights and the bias at
    their one block. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p` of the node-feature block at point `t` is row `5000 t + p` of the node features. -/
theorem featRows4 (c : Dev nD) (t : Fin cfg4.N) (p : Fin 5000) (k : Fin 64) (r : Fin 100000)
    (hr : r.val = 5000 * t.val + p.val) :
    (iblk4 (F := Ideal) V c 0 t : Vec Ideal S5000x64 .f32) (ix2 p k) = (V c main_v13 : Spec.SN64.Idx → EReal) (ix2 r k) := by
  obtain ⟨e0, e1, -⟩ := blockIndex4 t
  unfold iblk4
  rw [View.read_apply]
  show V c main_v13 _ = V c main_v13 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

/-- Row `p` of the summed-message block at point `t` is row `5000 t + p` of the summed messages. -/
theorem aggRows4 (c : Dev nD) (t : Fin cfg4.N) (p : Fin 5000) (k : Fin 64) (r : Fin 100000)
    (hr : r.val = 5000 * t.val + p.val) :
    (iblk4 (F := Ideal) V c 1 t : Vec Ideal S5000x64 .f32) (ix2 p k) = (V c main_v18 : Spec.SN64.Idx → EReal) (ix2 r k) := by
  obtain ⟨-, -, e0, e1, -⟩ := blockIndex4 t
  unfold iblk4
  rw [View.read_apply]
  show V c main_v18 _ = V c main_v18 _
  congr 1
  funext a
  apply Fin.ext
  match a with
  | ⟨0, _⟩ => show win4_1.index t (0 : Fin 2) * 5000 + 1 * p.val = r.val; rw [e0, hr]; omega
  | ⟨1, _⟩ => show win4_1.index t (1 : Fin 2) * 64 + 1 * k.val = k.val; rw [e1]; omega

/-- The weight window's block is the whole weight matrix at every point. -/
theorem weights4 (c : Dev nD) (t : Fin cfg4.N) :
    (iblk4 (F := Ideal) V c 2 t : Vec Ideal S64x64 .f32) = (V c main_v20 : Spec.S64x64.Idx → EReal) := by
  obtain ⟨-, -, -, -, e0, e1, -⟩ := blockIndex4 t
  funext y
  unfold iblk4
  rw [View.read_apply]
  show V c main_v20 _ = V c main_v20 _
  congr 1
  funext a
  apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- The bias window's block is the whole one-row bias at every point. -/
theorem bias4 (c : Dev nD) (t : Fin cfg4.N) :
    (iblk4 (F := Ideal) V c 3 t : Vec Ideal S1x64 .f32) = (V c main_v23 : Spec.S1x64.Idx → EReal) := by
  obtain ⟨-, -, -, -, -, -, e0, e1, -⟩ := blockIndex4 t
  funext y
  unfold iblk4
  rw [View.read_apply]
  show V c main_v23 _ = V c main_v23 _
  congr 1
  funext a
  apply Fin.ext
  match a with
  | ⟨0, _⟩ => show win4_3.index t (0 : Fin 2) * 1 + 1 * (y 0).val = (y 0).val; rw [e0]; omega
  | ⟨1, _⟩ => show win4_3.index t (1 : Fin 2) * 64 + 1 * (y 1).val = (y 1).val; rw [e1]; omega

/-- What point `t` writes back is block `t` of the node update of the arrays the region found. -/
theorem written4 (c : Dev nD) (t : Fin cfg4.N) :
    (dat4 (F := Ideal) V c).flushed 4 t = ((cfg4.win 4).blk t).view.read (Elt Ideal)
      (Spec.upd (V c main_v13) (V c main_v18) (V c main_v20) (V c main_v23)) := by
  show (cfg4.win 4).cut (grid4.coords t) ((dat4 V c).after 4 t) = _
  rw [after4_4, stored4 (iblk4 V c 0 t) (iblk4 V c 1 t) (iblk4 V c 2 t) (iblk4 V c 3 t), weights4 V c t, bias4 V c t]
  obtain ⟨-, -, -, -, -, -, -, -, e0, e1⟩ := blockIndex4 t
  have ht : t.val < 20 := lt_of_lt_of_eq t.isLt N_4
  refine funext fun (j : S5000x64.Idx) => ?_
  obtain ⟨p, q, rfl⟩ : ∃ (p : Fin 5000) (q : Fin 64), j = ix2 p q := ⟨j 0, j 1, eq_ix2 j⟩
  have hp : p.val < 5000 := p.isLt
  refine (pay4_rows (iblk4 V c 0 t) (iblk4 V c 1 t) (V c main_v20) (V c main_v23) (V c main_v13) (V c main_v18)
    ⟨5000 * t.val + p.val, by omega⟩ p q (fun k => featRows4 V c t p k _ rfl) (fun k => aggRows4 V c t p k _ rfl)).trans ?_
  refine (Spec.upd_apply (V c main_v13) (V c main_v18) (V c main_v20) (V c main_v23) ⟨5000 * t.val + p.val, by omega⟩ q).symm.trans ?_
  show Spec.upd (V c main_v13) (V c main_v18) (V c main_v20) (V c main_v23) _
    = Spec.upd (V c main_v13) (V c main_v18) (V c main_v20) (V c main_v23) _
  congr 1
  funext a
  apply Fin.ext
  match a with
  | ⟨0, _⟩ => show 5000 * t.val + p.val = win4_4.index t (0 : Fin 2) * 5000 + 1 * p.val; rw [e0]; omega
  | ⟨1, _⟩ => show q.val = win4_4.index t (1 : Fin 2) * 64 + 1 * q.val; rw [e1]; omega

/-- An index of the output array lies in point `t`'s block iff each coordinate lies in the block's range. -/
theorem mem_block4 (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v24).slice (win4_4.rect t)).set ↔ _
  rw [View.set_slice_whole, Rect.mem_set_unit]
  exact Iff.rfl

/-- Every row lies in a block: row `r` in block `r / 5000`. -/
theorem covered4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_4 _, ?_⟩
  rw [mem_block4]
  obtain ⟨-, -, -, -, -, -, -, -, e0, e1⟩ := blockIndex4 ⟨(i 0).val / 5000, by rw [hN]; omega⟩
  intro a
  match a with
  | ⟨0, _⟩ =>
    show win4_4.index _ (0 : Fin 2) * 5000 ≤ (i 0).val ∧ (i 0).val < win4_4.index _ (0 : Fin 2) * 5000 + 5000
    rw [e0]; show (i 0).val / 5000 * 5000 ≤ (i 0).val ∧ (i 0).val < (i 0).val / 5000 * 5000 + 5000; omega
  | ⟨1, _⟩ =>
    show win4_4.index _ (1 : Fin 2) * 64 ≤ (i 1).val ∧ (i 1).val < win4_4.index _ (1 : Fin 2) * 64 + 64
    rw [e1]; omega

/-- The array region 4 leaves is the node update of the arrays it found. -/
theorem value4 (c : Dev nD) :
    (dat4 (F := Ideal) V c).arrAt 4 cfg4.N = Spec.upd (V c main_v13) (V c main_v18) (V c main_v20) (V c main_v23) :=
  (dat4 (F := Ideal) V c).arrAt_eq_of_cover 4 (Spec.upd (V c main_v13) (V c main_v18) (V c main_v20) (V c main_v23))
    (fun t _ => written4 V c t) covered4

/-! ## Region 6 -/

/-- The block's arithmetic at row `p`, column `q`: the ramp of the affine map of the summed rows. -/
theorem pay6_apply (h g : Vec Ideal S5000x64 .f32) (W : Vec Ideal S64x64 .f32) (b : Vec Ideal S1x64 .f32)
    (p : Fin 5000) (q : Fin 64) :
    k6_pay1 (F := Ideal) h g W b (ix2 p q)
      = max ((∑ k : Fin 64, (h (ix2 p k) + g (ix2 p k)) * W (ix2 k q)) + b (ix2 0 q)) 0 := by
  unfold k6_pay1
  simp only [shapeCast_self]
  rw [maximumf_apply, addf_apply, broadcast_apply, blockProduct_apply, broadcastTo_1b_ab_apply]
  simp only [truncf_apply, addf_apply]
  exact congrArg (max _) Ideal.ofBits_zero_f32

/-- The same with the block's rows named as rows `r` of two whole arrays: the node update at `r`, `q`. -/
theorem pay6_rows (h g : Vec Ideal S5000x64 .f32) (W : Vec Ideal S64x64 .f32) (b : Vec Ideal S1x64 .f32)
    (H G : Spec.SN64.Idx → EReal) (r : Fin 100000) (p : Fin 5000) (q : Fin 64)
    (hh : ∀ k : Fin 64, h (ix2 p k) = H (ix2 r k)) (hg : ∀ k : Fin 64, g (ix2 p k) = G (ix2 r k)) :
    k6_pay1 (F := Ideal) h g W b (ix2 p q) = Spec.updAt H G W b r q := by
  rw [pay6_apply]
  unfold Spec.updAt
  simp only [hh, hg]

/-- The one store of the body fills the staging buffer with the block's arithmetic. -/
theorem stored6 (h g : Vec Ideal S5000x64 .f32) (W : Vec Ideal S64x64 .f32) (b : Vec Ideal S1x64 .f32) :
    out6_4 (F := Ideal) h g W b = k6_pay1 (F := Ideal) h g W b := by
  unfold out6_4
  rw [View.canon_unit_zero zeroOffsets]
  simp only [View.ld_unit_zero (S := S5000x64) zeroOffsets, View.ld_unit_zero (S := S64x64) zeroOffsets,
    View.ld_unit_zero (S := S1x64) zeroOffsets]

/-- Where the windows sit at grid point `t`: the three row windows at block `t`, the weights and the bias at
    their one block. -/
theorem blockIndex6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row `p` of the node-feature block at point `t` is row `5000 t + p` of the node features. -/
theorem featRows6 (c : Dev nD) (t : Fin cfg6.N) (p : Fin 5000) (k : Fin 64) (r : Fin 100000)
    (hr : r.val = 5000 * t.val + p.val) :
    (iblk6 (F := Ideal) V c 0 t : Vec Ideal S5000x64 .f32) (ix2 p k) = (V c main_v24 : Spec.SN64.Idx → EReal) (ix2 r k) := by
  obtain ⟨e0, e1, -⟩ := blockIndex6 t
  unfold iblk6
  rw [View.read_apply]
  show V c main_v24 _ = V c main_v24 _
  congr 1
  funext a
  apply Fin.ext
  match a with
  | ⟨0, _⟩ => show win6_0.index t (0 : Fin 2) * 5000 + 1 * p.val = r.val; rw [e0, hr]; omega
  | ⟨1, _⟩ => show win6_0.index t (1 : Fin 2) * 64 + 1 * k.val = k.val; rw [e1]; omega

/-- Row `p` of the summed-message block at point `t` is row `5000 t + p` of the summed messages. -/
theorem aggRows6 (c : Dev nD) (t : Fin cfg6.N) (p : Fin 5000) (k : Fin 64) (r : Fin 100000)
    (hr : r.val = 5000 * t.val + p.val) :
    (iblk6 (F := Ideal) V c 1 t : Vec Ideal S5000x64 .f32) (ix2 p k) = (V c main_v29 : Spec.SN64.Idx → EReal) (ix2 r k) := by
  obtain ⟨-, -, e0, e1, -⟩ := blockIndex6 t
  unfold iblk6
  rw [View.read_apply]
  show V c main_v29 _ = V c main_v29 _
  congr 1
  funext a
  apply Fin.ext
  match a with
  | ⟨0, _⟩ => show win6_1.index t (0 : Fin 2) * 5000 + 1 * p.val = r.val; rw [e0, hr]; omega
  | ⟨1, _⟩ => show win6_1.index t (1 : Fin 2) * 64 + 1 * k.val = k.val; rw [e1]; omega

/-- The weight window's block is the whole weight matrix at every point. -/
theorem weights6 (c : Dev nD) (t : Fin cfg6.N) :
    (iblk6 (F := Ideal) V c 2 t : Vec Ideal S64x64 .f32) = (V c main_v31 : Spec.S64x64.Idx → EReal) := by
  obtain ⟨-, -, -, -, e0, e1, -⟩ := blockIndex6 t
  funext y
  unfold iblk6
  rw [View.read_apply]
  show V c main_v31 _ = V c main_v31 _
  congr 1
  funext a
  apply Fin.ext
  match a with
  | ⟨0, _⟩ => show win6_2.index t (0 : Fin 2) * 64 + 1 * (y 0).val = (y 0).val; rw [e0]; omega
  | ⟨1, _⟩ => show win6_2.index t (1 : Fin 2) * 64 + 1 * (y 1).val = (y 1).val; rw [e1]; omega

/-- The bias window's block is the whole one-row bias at every point. -/
theorem bias6 (c : Dev nD) (t : Fin cfg6.N) :
    (iblk6 (F := Ideal) V c 3 t : Vec Ideal S1x64 .f32) = (V c main_v34 : Spec.S1x64.Idx → EReal) := by
  obtain ⟨-, -, -, -, -, -, e0, e1, -⟩ := blockIndex6 t
  funext y
  unfold iblk6
  rw [View.read_apply]
  show V c main_v34 _ = V c main_v34 _
  congr 1
  funext a
  apply Fin.ext
  match a with
  | ⟨0, _⟩ => show win6_3.index t (0 : Fin 2) * 1 + 1 * (y 0).val = (y 0).val; rw [e0]; omega
  | ⟨1, _⟩ => show win6_3.index t (1 : Fin 2) * 64 + 1 * (y 1).val = (y 1).val; rw [e1]; omega

/-- What point `t` writes back is block `t` of the node update of the arrays the region found. -/
theorem written6 (c : Dev nD) (t : Fin cfg6.N) :
    (dat6 (F := Ideal) V c).flushed 4 t = ((cfg6.win 4).blk t).view.read (Elt Ideal)
      (Spec.upd (V c main_v24) (V c main_v29) (V c main_v31) (V c main_v34)) := by
  show (cfg6.win 4).cut (grid6.coords t) ((dat6 V c).after 4 t) = _
  rw [after6_4, stored6 (iblk6 V c 0 t) (iblk6 V c 1 t) (iblk6 V c 2 t) (iblk6 V c 3 t), weights6 V c t, bias6 V c t]
  obtain ⟨-, -, -, -, -, -, -, -, e0, e1⟩ := blockIndex6 t
  have ht : t.val < 20 := lt_of_lt_of_eq t.isLt N_6
  refine funext fun (j : S5000x64.Idx) => ?_
  obtain ⟨p, q, rfl⟩ : ∃ (p : Fin 5000) (q : Fin 64), j = ix2 p q := ⟨j 0, j 1, eq_ix2 j⟩
  have hp : p.val < 5000 := p.isLt
  refine (pay6_rows (iblk6 V c 0 t) (iblk6 V c 1 t) (V c main_v31) (V c main_v34) (V c main_v24) (V c main_v29)
    ⟨5000 * t.val + p.val, by omega⟩ p q (fun k => featRows6 V c t p k _ rfl) (fun k => aggRows6 V c t p k _ rfl)).trans ?_
  refine (Spec.upd_apply (V c main_v24) (V c main_v29) (V c main_v31) (V c main_v34) ⟨5000 * t.val + p.val, by omega⟩ q).symm.trans ?_
  show Spec.upd (V c main_v24) (V c main_v29) (V c main_v31) (V c main_v34) _
    = Spec.upd (V c main_v24) (V c main_v29) (V c main_v31) (V c main_v34) _
  congr 1
  funext a
  apply Fin.ext
  match a with
  | ⟨0, _⟩ => show 5000 * t.val + p.val = win6_4.index t (0 : Fin 2) * 5000 + 1 * p.val; rw [e0]; omega
  | ⟨1, _⟩ => show q.val = win6_4.index t (1 : Fin 2) * 64 + 1 * q.val; rw [e1]; omega

/-- An index of the output array lies in point `t`'s block iff each coordinate lies in the block's range. -/
theorem mem_block6 (t : Fin cfg6.N) (i : S100000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v35).slice (win6_4.rect t)).set ↔ _
  rw [View.set_slice_whole, Rect.mem_set_unit]
  exact Iff.rfl

/-- Every row lies in a block: row `r` in block `r / 5000`. -/
theorem covered6 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_4 _, ?_⟩
  rw [mem_block6]
  obtain ⟨-, -, -, -, -, -, -, -, e0, e1⟩ := blockIndex6 ⟨(i 0).val / 5000, by rw [hN]; omega⟩
  intro a
  match a with
  | ⟨0, _⟩ =>
    show win6_4.index _ (0 : Fin 2) * 5000 ≤ (i 0).val ∧ (i 0).val < win6_4.index _ (0 : Fin 2) * 5000 + 5000
    rw [e0]; show (i 0).val / 5000 * 5000 ≤ (i 0).val ∧ (i 0).val < (i 0).val / 5000 * 5000 + 5000; omega
  | ⟨1, _⟩ =>
    show win6_4.index _ (1 : Fin 2) * 64 ≤ (i 1).val ∧ (i 1).val < win6_4.index _ (1 : Fin 2) * 64 + 64
    rw [e1]; omega

/-- The array region 6 leaves is the node update of the arrays it found. -/
theorem value6 (c : Dev nD) :
    (dat6 (F := Ideal) V c).arrAt 4 cfg6.N = Spec.upd (V c main_v24) (V c main_v29) (V c main_v31) (V c main_v34) :=
  (dat6 (F := Ideal) V c).arrAt_eq_of_cover 4 (Spec.upd (V c main_v24) (V c main_v29) (V c main_v31) (V c main_v34))
    (fun t _ => written6 V c t) covered6

/-! ## Region 8 -/

/-- The block's arithmetic at row `p`, column `q`: the ramp of the affine map of the summed rows. -/
theorem pay8_apply (h g : Vec Ideal S5000x64 .f32) (W : Vec Ideal S64x64 .f32) (b : Vec Ideal S1x64 .f32)
    (p : Fin 5000) (q : Fin 64) :
    k8_pay1 (F := Ideal) h g W b (ix2 p q)
      = max ((∑ k : Fin 64, (h (ix2 p k) + g (ix2 p k)) * W (ix2 k q)) + b (ix2 0 q)) 0 := by
  unfold k8_pay1
  simp only [shapeCast_self]
  rw [maximumf_apply, addf_apply, broadcast_apply, blockProduct_apply, broadcastTo_1b_ab_apply]
  simp only [truncf_apply, addf_apply]
  exact congrArg (max _) Ideal.ofBits_zero_f32

/-- The same with the block's rows named as rows `r` of two whole arrays: the node update at `r`, `q`. -/
theorem pay8_rows (h g : Vec Ideal S5000x64 .f32) (W : Vec Ideal S64x64 .f32) (b : Vec Ideal S1x64 .f32)
    (H G : Spec.SN64.Idx → EReal) (r : Fin 100000) (p : Fin 5000) (q : Fin 64)
    (hh : ∀ k : Fin 64, h (ix2 p k) = H (ix2 r k)) (hg : ∀ k : Fin 64, g (ix2 p k) = G (ix2 r k)) :
    k8_pay1 (F := Ideal) h g W b (ix2 p q) = Spec.updAt H G W b r q := by
  rw [pay8_apply]
  unfold Spec.updAt
  simp only [hh, hg]

/-- The one store of the body fills the staging buffer with the block's arithmetic. -/
theorem stored8 (h g : Vec Ideal S5000x64 .f32) (W : Vec Ideal S64x64 .f32) (b : Vec Ideal S1x64 .f32) :
    out8_4 (F := Ideal) h g W b = k8_pay1 (F := Ideal) h g W b := by
  unfold out8_4
  rw [View.canon_unit_zero zeroOffsets]
  simp only [View.ld_unit_zero (S := S5000x64) zeroOffsets, View.ld_unit_zero (S := S64x64) zeroOffsets,
    View.ld_unit_zero (S := S1x64) zeroOffsets]

/-- Where the windows sit at grid point `t`: the three row windows at block `t`, the weights and the bias at
    their one block. -/
theorem blockIndex8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Row `p` of the node-feature block at point `t` is row `5000 t + p` of the node features. -/
theorem featRows8 (c : Dev nD) (t : Fin cfg8.N) (p : Fin 5000) (k : Fin 64) (r : Fin 100000)
    (hr : r.val = 5000 * t.val + p.val) :
    (iblk8 (F := Ideal) V c 0 t : Vec Ideal S5000x64 .f32) (ix2 p k) = (V c main_v35 : Spec.SN64.Idx → EReal) (ix2 r k) := by
  obtain ⟨e0, e1, -⟩ := blockIndex8 t
  unfold iblk8
  rw [View.read_apply]
  show V c main_v35 _ = V c main_v35 _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

/-- Row `p` of the summed-message block at point `t` is row `5000 t + p` of the summed messages. -/
theorem aggRows8 (c : Dev nD) (t : Fin cfg8.N) (p : Fin 5000) (k : Fin 64) (r : Fin 100000)
    (hr : r.val = 5000 * t.val + p.val) :
    (iblk8 (F := Ideal) V c 1 t : Vec Ideal S5000x64 .f32) (ix2 p k) = (V c main_v40 : Spec.SN64.Idx → EReal) (ix2 r k) := by
  obtain ⟨-, -, e0, e1, -⟩ := blockIndex8 t
  unfold iblk8
  rw [View.read_apply]
  show V c main_v40 _ = V c main_v40 _
  congr 1
  funext a
  apply Fin.ext
  match a with
  | ⟨0, _⟩ => show win8_1.index t (0 : Fin 2) * 5000 + 1 * p.val = r.val; rw [e0, hr]; omega
  | ⟨1, _⟩ => show win8_1.index t (1 : Fin 2) * 64 + 1 * k.val = k.val; rw [e1]; omega

/-- The weight window's block is the whole weight matrix at every point. -/
theorem weights8 (c : Dev nD) (t : Fin cfg8.N) :
    (iblk8 (F := Ideal) V c 2 t : Vec Ideal S64x64 .f32) = (V c main_v42 : Spec.S64x64.Idx → EReal) := by
  obtain ⟨-, -, -, -, e0, e1, -⟩ := blockIndex8 t
  funext y
  unfold iblk8
  rw [View.read_apply]
  show V c main_v42 _ = V c main_v42 _
  congr 1
  funext a
  apply Fin.ext
  match a with
  | ⟨0, _⟩ => show win8_2.index t (0 : Fin 2) * 64 + 1 * (y 0).val = (y 0).val; rw [e0]; omega
  | ⟨1, _⟩ => show win8_2.index t (1 : Fin 2) * 64 + 1 * (y 1).val = (y 1).val; rw [e1]; omega

/-- The bias window's block is the whole one-row bias at every point. -/
theorem bias8 (c : Dev nD) (t : Fin cfg8.N) :
    (iblk8 (F := Ideal) V c 3 t : Vec Ideal S1x64 .f32) = (V c main_v45 : Spec.S1x64.Idx → EReal) := by
  obtain ⟨-, -, -, -, -, -, e0, e1, -⟩ := blockIndex8 t
  funext y
  unfold iblk8
  rw [View.read_apply]
  show V c main_v45 _ = V c main_v45 _
  congr 1
  funext a
  apply Fin.ext
  match a with
  | ⟨0, _⟩ => show win8_3.index t (0 : Fin 2) * 1 + 1 * (y 0).val = (y 0).val; rw [e0]; omega
  | ⟨1, _⟩ => show win8_3.index t (1 : Fin 2) * 64 + 1 * (y 1).val = (y 1).val; rw [e1]; omega

/-- What point `t` writes back is block `t` of the node update of the arrays the region found. -/
theorem written8 (c : Dev nD) (t : Fin cfg8.N) :
    (dat8 (F := Ideal) V c).flushed 4 t = ((cfg8.win 4).blk t).view.read (Elt Ideal)
      (Spec.upd (V c main_v35) (V c main_v40) (V c main_v42) (V c main_v45)) := by
  show (cfg8.win 4).cut (grid8.coords t) ((dat8 V c).after 4 t) = _
  rw [after8_4, stored8 (iblk8 V c 0 t) (iblk8 V c 1 t) (iblk8 V c 2 t) (iblk8 V c 3 t), weights8 V c t, bias8 V c t]
  obtain ⟨-, -, -, -, -, -, -, -, e0, e1⟩ := blockIndex8 t
  have ht : t.val < 20 := lt_of_lt_of_eq t.isLt N_8
  refine funext fun (j : S5000x64.Idx) => ?_
  obtain ⟨p, q, rfl⟩ : ∃ (p : Fin 5000) (q : Fin 64), j = ix2 p q := ⟨j 0, j 1, eq_ix2 j⟩
  have hp : p.val < 5000 := p.isLt
  refine (pay8_rows (iblk8 V c 0 t) (iblk8 V c 1 t) (V c main_v42) (V c main_v45) (V c main_v35) (V c main_v40)
    ⟨5000 * t.val + p.val, by omega⟩ p q (fun k => featRows8 V c t p k _ rfl) (fun k => aggRows8 V c t p k _ rfl)).trans ?_
  refine (Spec.upd_apply (V c main_v35) (V c main_v40) (V c main_v42) (V c main_v45) ⟨5000 * t.val + p.val, by omega⟩ q).symm.trans ?_
  show Spec.upd (V c main_v35) (V c main_v40) (V c main_v42) (V c main_v45) _
    = Spec.upd (V c main_v35) (V c main_v40) (V c main_v42) (V c main_v45) _
  congr 1
  funext a
  apply Fin.ext
  match a with
  | ⟨0, _⟩ => show 5000 * t.val + p.val = win8_4.index t (0 : Fin 2) * 5000 + 1 * p.val; rw [e0]; omega
  | ⟨1, _⟩ => show q.val = win8_4.index t (1 : Fin 2) * 64 + 1 * q.val; rw [e1]; omega

/-- An index of the output array lies in point `t`'s block iff each coordinate lies in the block's range. -/
theorem mem_block8 (t : Fin cfg8.N) (i : S100000x64.Idx) :
    i ∈ ((cfg8.win 4).blk t).view.set ↔ ∀ a : Fin 2, win8_4.index t a * S5000x64.size a ≤ (i a).val
      ∧ (i a).val < win8_4.index t a * S5000x64.size a + S5000x64.size a := by
  show i ∈ ((View.whole main_v46).slice (win8_4.rect t)).set ↔ _
  rw [View.set_slice_whole, Rect.mem_set_unit]
  exact Iff.rfl

/-- Every row lies in a block: row `r` in block `r / 5000`. -/
theorem covered8 (i : S100000x64.Idx) :
    ∃ t : Fin cfg8.N, (cfg8.win 4).flush t = true ∧ i ∈ ((cfg8.win 4).blk t).view.set := by
  have hi0 : (i 0).val < 100000 := (i 0).isLt
  have hi1 : (i 1).val < 64 := (i 1).isLt
  have hN : cfg8.N = 20 := N_8
  refine ⟨⟨(i 0).val / 5000, by rw [hN]; omega⟩, flush8_4 _, ?_⟩
  rw [mem_block8]
  obtain ⟨-, -, -, -, -, -, -, -, e0, e1⟩ := blockIndex8 ⟨(i 0).val / 5000, by rw [hN]; omega⟩
  intro a
  match a with
  | ⟨0, _⟩ =>
    show win8_4.index _ (0 : Fin 2) * 5000 ≤ (i 0).val ∧ (i 0).val < win8_4.index _ (0 : Fin 2) * 5000 + 5000
    rw [e0]; show (i 0).val / 5000 * 5000 ≤ (i 0).val ∧ (i 0).val < (i 0).val / 5000 * 5000 + 5000; omega
  | ⟨1, _⟩ =>
    show win8_4.index _ (1 : Fin 2) * 64 ≤ (i 1).val ∧ (i 1).val < win8_4.index _ (1 : Fin 2) * 64 + 64
    rw [e1]; omega

/-- The array region 8 leaves is the node update of the arrays it found. -/
theorem value8 (c : Dev nD) :
    (dat8 (F := Ideal) V c).arrAt 4 cfg8.N = Spec.upd (V c main_v35) (V c main_v40) (V c main_v42) (V c main_v45) :=
  (dat8 (F := Ideal) V c).arrAt_eq_of_cover 4 (Spec.upd (V c main_v35) (V c main_v40) (V c main_v42) (V c main_v45))
    (fun t _ => written8 V c t) covered8

end Cert.KernelIdeal.RegionU

end
-- ==== Proof.Layer0.lean ====
/-
  Layer 0 of the blocked program, read off the fold of buffer contents.

  The layer is a host stretch that gathers source rows of the node features, a message region, a host
  stretch that sums the messages into destination rows and cuts the layer's weights and bias out of the
  stacked parameters, and an update region.  Each region's output array is its stage's function of the
  arrays it found; each array it found is either a result of the stretch before it, read off that stretch's
  operations, or a buffer nothing has written since an earlier boundary.  Put together, what the update
  region leaves is one layer step applied to the features the layer was given.
  Before the first layer the edge stage is computed once by region 0 from the argument arrays.
-/
import proofs.«401560_j6914897347055_1_alg».proof.Proof.Gen.KernelIdeal.Frame
import proofs.«401560_j6914897347055_1_alg».proof.Proof.Spec
import proofs.«401560_j6914897347055_1_alg».proof.Proof.HostFns
import proofs.«401560_j6914897347055_1_alg».proof.Proof.Thread
import proofs.«401560_j6914897347055_1_alg».proof.Proof.LibTypedRef
import proofs.«401560_j6914897347055_1_alg».proof.Proof.RegionE
import proofs.«401560_j6914897347055_1_alg».proof.Proof.RegionM
import proofs.«401560_j6914897347055_1_alg».proof.Proof.RegionU
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The edge stage: what region 0 leaves is the edge stage of the argument arrays, the two bias vectors recast as one-row matrices. -/
theorem edge_value :
    W2 m ρ c (Proc.devRef .tc main_v2)
      = Spec.edgeNet (m ((c : Thread nD τ).loc main_arg1)) (m ((c : Thread nD τ).loc main_arg4)) (HostFns.biasRow (F := Ideal) (m ((c : Thread nD τ).loc main_arg5))) (m ((c : Thread nD τ).loc main_arg6)) (HostFns.biasRow (F := Ideal) (m ((c : Thread nD τ).loc main_arg7))) := by
  refine (W2_arr m ρ c 5).trans ?_
  rw [RegionE.value0]
  have e1 : V1 m ρ c main_arg1 = m ((c : Thread nD τ).loc main_arg1) := Thread.W1_arg1 m ρ c
  have e4 : V1 m ρ c main_arg4 = m ((c : Thread nD τ).loc main_arg4) := Thread.W1_arg4 m ρ c
  have e6 : V1 m ρ c main_arg6 = m ((c : Thread nD τ).loc main_arg6) := Thread.W1_arg6 m ρ c
  have eb1 : V1 m ρ c main_v0 = HostFns.biasRow (F := Ideal) (m ((c : Thread nD τ).loc main_arg5)) := by
    show StableHlo.after hostOps0 (W0 m ρ c) (Proc.devRef .tc main_v0) = _
    after_results
    rfl
  have eb2 : V1 m ρ c main_v1 = HostFns.biasRow (F := Ideal) (m ((c : Thread nD τ).loc main_arg7)) := by
    show StableHlo.after hostOps0 (W0 m ρ c) (Proc.devRef .tc main_v1) = _
    after_results
    rfl
  rw [e1, e4, e6, eb1, eb2]

/-- The node update of equal arrays is equal. -/
theorem upd_congr {h h' agg agg' : Spec.SN64.Idx → EReal} {W W' : Spec.S64x64.Idx → EReal} {b b' : Spec.S1x64.Idx → EReal}
    (e1 : h = h') (e2 : agg = agg') (e3 : W = W') (e4 : b = b') : Spec.upd h agg W b = Spec.upd h' agg' W' b' := by
  subst e1 e2 e3 e4; rfl

/-- The update region finds the node features the layer was given. -/
theorem found_nodes : V5 m ρ c main_arg0 = (m ((c : Thread nD τ).loc main_arg0)) := Thread.W5_arg0 m ρ c

/-- The layer's weight matrix, cut out of the stacked weights by the stretch before the update region. -/
theorem found_weights : V5 m ρ c main_v9 = HostFns.w0 (F := Ideal) (m ((c : Thread nD τ).loc main_arg8)) := by
  show StableHlo.after hostOps2 (W4 m ρ c) (Proc.devRef .tc main_v9) = _
  after_results
  rw [Thread.W4_arg8 m ρ c]
  rfl

/-- The layer's bias row, cut out of the stacked biases by the same stretch. -/
theorem found_bias : V5 m ρ c main_v12 = HostFns.b0 (F := Ideal) (m ((c : Thread nD τ).loc main_arg9)) := by
  show StableHlo.after hostOps2 (W4 m ρ c) (Proc.devRef .tc main_v12) = _
  after_results
  rw [Thread.W4_arg9 m ρ c]
  rfl

-- each operation of the stretch reads and writes through a typed view of its buffers; a value written and read
-- back through the same view is unchanged, which leaves the operations' plain composition.  The gather and the
-- reduction are kept folded while the two sides are compared: their bodies range over every element of their
-- operands, and the equation never looks inside them
attribute [local irreducible] Host.reduce Host.gather in
set_option maxHeartbeats 1600000 in
/-- The gathered source rows: the stretch before the message region, read off its operations. -/
theorem found_gathered : V3 m ρ c main_v3 = HostFns.takeFn (F := Ideal) (m ((c : Thread nD τ).loc main_arg0)) (m ((c : Thread nD τ).loc main_arg2)) := by
  show StableHlo.after hostOps1 (W2 m ρ c) (Proc.devRef .tc main_v3) = _
  after_results_simp
  simp only [StableHlo.TRef.ofBuf_toBuf]
  rw [Thread.W2_arg2 m ρ c, Thread.W2_arg0 m ρ c]
  rfl

/-- The edge rows the message region finds are what region 0 left. -/
theorem found_edge : V3 m ρ c main_v2 = W2 m ρ c (Proc.devRef .tc main_v2) := Thread.W3_edge m ρ c

/-- The messages: the message region's exit array. -/
theorem messages : W4 m ρ c (Proc.devRef .tc main_v4)
    = Spec.msg (HostFns.takeFn (F := Ideal) (m ((c : Thread nD τ).loc main_arg0)) (m ((c : Thread nD τ).loc main_arg2))) (W2 m ρ c (Proc.devRef .tc main_v2)) :=
  (W4_arr m ρ c 2).trans ((RegionM.value1 (V3 m ρ) c).trans
    (congrArg₂ Spec.msg (found_gathered m ρ c) (found_edge m ρ c)))

-- the scatter-add is kept folded while the two sides are compared, for the same reason
attribute [local irreducible] Host.scatterAdd in
/-- The summed messages: the scatter-add of the stretch before the update region. -/
theorem found_summed : V5 m ρ c main_v7
    = HostFns.aggFn (F := Ideal) (m ((c : Thread nD τ).loc main_arg3)) (Spec.msg (HostFns.takeFn (F := Ideal) (m ((c : Thread nD τ).loc main_arg0)) (m ((c : Thread nD τ).loc main_arg2))) (W2 m ρ c (Proc.devRef .tc main_v2))) := by
  show StableHlo.after hostOps2 (W4 m ρ c) (Proc.devRef .tc main_v7) = _
  after_results
  rw [Thread.W4_arg3 m ρ c, messages m ρ c]
  rfl

/-- Layer 0: the node features its update region leaves are one layer step from the features it was given. -/
theorem layer0_value :
    W6 m ρ c (Proc.devRef .tc main_v13)
      = Spec.layer (fun h => HostFns.takeFn (F := Ideal) h (m ((c : Thread nD τ).loc main_arg2))) (fun u => HostFns.aggFn (F := Ideal) (m ((c : Thread nD τ).loc main_arg3)) u)
          (W2 m ρ c (Proc.devRef .tc main_v2)) (HostFns.w0 (F := Ideal) (m ((c : Thread nD τ).loc main_arg8))) (HostFns.b0 (F := Ideal) (m ((c : Thread nD τ).loc main_arg9)))
          (m ((c : Thread nD τ).loc main_arg0)) :=
  (W6_arr m ρ c 4).trans ((RegionU.value2 (V5 m ρ) c).trans
    (upd_congr (found_nodes m ρ c) (found_summed m ρ c) (found_weights m ρ c) (found_bias m ρ c)))

end Cert.KernelIdeal.Layer0

end
-- ==== Proof.Layer1.lean ====
/-
  Layer 1 of the blocked program, read off the fold of buffer contents.

  The layer is a host stretch that gathers source rows of the node features, a message region, a host
  stretch that sums the messages into destination rows and cuts the layer's weights and bias out of the
  stacked parameters, and an update region.  Each region's output array is its stage's function of the
  arrays it found; each array it found is either a result of the stretch before it, read off that stretch's
  operations, or a buffer nothing has written since an earlier boundary.  Put together, what the update
  region leaves is one layer step applied to the features the layer was given.
-/
import proofs.«401560_j6914897347055_1_alg».proof.Proof.Gen.KernelIdeal.Frame
import proofs.«401560_j6914897347055_1_alg».proof.Proof.Spec
import proofs.«401560_j6914897347055_1_alg».proof.Proof.HostFns
import proofs.«401560_j6914897347055_1_alg».proof.Proof.Thread
import proofs.«401560_j6914897347055_1_alg».proof.Proof.LibTypedRef
import proofs.«401560_j6914897347055_1_alg».proof.Proof.RegionE
import proofs.«401560_j6914897347055_1_alg».proof.Proof.RegionM
import proofs.«401560_j6914897347055_1_alg».proof.Proof.RegionU
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The node update of equal arrays is equal. -/
theorem upd_congr {h h' agg agg' : Spec.SN64.Idx → EReal} {W W' : Spec.S64x64.Idx → EReal} {b b' : Spec.S1x64.Idx → EReal}
    (e1 : h = h') (e2 : agg = agg') (e3 : W = W') (e4 : b = b') : Spec.upd h agg W b = Spec.upd h' agg' W' b' := by
  subst e1 e2 e3 e4; rfl

/-- The update region finds the node features the layer was given. -/
theorem found_nodes : V9 m ρ c main_v13 = (W6 m ρ c (Proc.devRef .tc main_v13)) := Thread.W9_nodes1 m ρ c

/-- The layer's weight matrix, cut out of the stacked weights by the stretch before the update region. -/
theorem found_weights : V9 m ρ c main_v20 = HostFns.w1 (F := Ideal) (m ((c : Thread nD τ).loc main_arg8)) := by
  show StableHlo.after hostOps4 (W8 m ρ c) (Proc.devRef .tc main_v20) = _
  after_results
  rw [Thread.W8_arg8 m ρ c]
  rfl

/-- The layer's bias row, cut out of the stacked biases by the same stretch. -/
theorem found_bias : V9 m ρ c main_v23 = HostFns.b1 (F := Ideal) (m ((c : Thread nD τ).loc main_arg9)) := by
  show StableHlo.after hostOps4 (W8 m ρ c) (Proc.devRef .tc main_v23) = _
  after_results
  rw [Thread.W8_arg9 m ρ c]
  rfl

-- each operation of the stretch reads and writes through a typed view of its buffers; a value written and read
-- back through the same view is unchanged, which leaves the operations' plain composition.  The gather and the
-- reduction are kept folded while the two sides are compared: their bodies range over every element of their
-- operands, and the equation never looks inside them
attribute [local irreducible] Host.reduce Host.gather in
set_option maxHeartbeats 1600000 in
/-- The gathered source rows: the stretch before the message region, read off its operations. -/
theorem found_gathered : V7 m ρ c main_v14 = HostFns.takeFn (F := Ideal) (W6 m ρ c (Proc.devRef .tc main_v13)) (m ((c : Thread nD τ).loc main_arg2)) := by
  show StableHlo.after hostOps3 (W6 m ρ c) (Proc.devRef .tc main_v14) = _
  after_results_simp
  simp only [StableHlo.TRef.ofBuf_toBuf]
  rw [Thread.W6_arg2 m ρ c]
  rfl

/-- The edge rows the message region finds are what region 0 left. -/
theorem found_edge : V7 m ρ c main_v2 = W2 m ρ c (Proc.devRef .tc main_v2) := Thread.W7_edge m ρ c

/-- The messages: the message region's exit array. -/
theorem messages : W8 m ρ c (Proc.devRef .tc main_v15)
    = Spec.msg (HostFns.takeFn (F := Ideal) (W6 m ρ c (Proc.devRef .tc main_v13)) (m ((c : Thread nD τ).loc main_arg2))) (W2 m ρ c (Proc.devRef .tc main_v2)) :=
  (W8_arr m ρ c 2).trans ((RegionM.value3 (V7 m ρ) c).trans
    (congrArg₂ Spec.msg (found_gathered m ρ c) (found_edge m ρ c)))

-- the scatter-add is kept folded while the two sides are compared, for the same reason
attribute [local irreducible] Host.scatterAdd in
/-- The summed messages: the scatter-add of the stretch before the update region. -/
theorem found_summed : V9 m ρ c main_v18
    = HostFns.aggFn (F := Ideal) (m ((c : Thread nD τ).loc main_arg3)) (Spec.msg (HostFns.takeFn (F := Ideal) (W6 m ρ c (Proc.devRef .tc main_v13)) (m ((c : Thread nD τ).loc main_arg2))) (W2 m ρ c (Proc.devRef .tc main_v2))) := by
  show StableHlo.after hostOps4 (W8 m ρ c) (Proc.devRef .tc main_v18) = _
  after_results
  rw [Thread.W8_arg3 m ρ c, messages m ρ c]
  rfl

/-- Layer 1: the node features its update region leaves are one layer step from the features it was given. -/
theorem layer1_value :
    W10 m ρ c (Proc.devRef .tc main_v24)
      = Spec.layer (fun h => HostFns.takeFn (F := Ideal) h (m ((c : Thread nD τ).loc main_arg2))) (fun u => HostFns.aggFn (F := Ideal) (m ((c : Thread nD τ).loc main_arg3)) u)
          (W2 m ρ c (Proc.devRef .tc main_v2)) (HostFns.w1 (F := Ideal) (m ((c : Thread nD τ).loc main_arg8))) (HostFns.b1 (F := Ideal) (m ((c : Thread nD τ).loc main_arg9)))
          (W6 m ρ c (Proc.devRef .tc main_v13)) :=
  (W10_arr m ρ c 4).trans ((RegionU.value4 (V9 m ρ) c).trans
    (upd_congr (found_nodes m ρ c) (found_summed m ρ c) (found_weights m ρ c) (found_bias m ρ c)))

end Cert.KernelIdeal.Layer1

end
-- ==== Proof.Layer2.lean ====
/-
  Layer 2 of the blocked program, read off the fold of buffer contents.

  The layer is a host stretch that gathers source rows of the node features, a message region, a host
  stretch that sums the messages into destination rows and cuts the layer's weights and bias out of the
  stacked parameters, and an update region.  Each region's output array is its stage's function of the
  arrays it found; each array it found is either a result of the stretch before it, read off that stretch's
  operations, or a buffer nothing has written since an earlier boundary.  Put together, what the update
  region leaves is one layer step applied to the features the layer was given.
-/
import proofs.«401560_j6914897347055_1_alg».proof.Proof.Gen.KernelIdeal.Frame
import proofs.«401560_j6914897347055_1_alg».proof.Proof.Spec
import proofs.«401560_j6914897347055_1_alg».proof.Proof.HostFns
import proofs.«401560_j6914897347055_1_alg».proof.Proof.Thread
import proofs.«401560_j6914897347055_1_alg».proof.Proof.LibTypedRef
import proofs.«401560_j6914897347055_1_alg».proof.Proof.RegionE
import proofs.«401560_j6914897347055_1_alg».proof.Proof.RegionM
import proofs.«401560_j6914897347055_1_alg».proof.Proof.RegionU
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The node update of equal arrays is equal. -/
theorem upd_congr {h h' agg agg' : Spec.SN64.Idx → EReal} {W W' : Spec.S64x64.Idx → EReal} {b b' : Spec.S1x64.Idx → EReal}
    (e1 : h = h') (e2 : agg = agg') (e3 : W = W') (e4 : b = b') : Spec.upd h agg W b = Spec.upd h' agg' W' b' := by
  subst e1 e2 e3 e4; rfl

/-- The update region finds the node features the layer was given. -/
theorem found_nodes : V13 m ρ c main_v24 = (W10 m ρ c (Proc.devRef .tc main_v24)) := Thread.W13_nodes2 m ρ c

/-- The layer's weight matrix, cut out of the stacked weights by the stretch before the update region. -/
theorem found_weights : V13 m ρ c main_v31 = HostFns.w2 (F := Ideal) (m ((c : Thread nD τ).loc main_arg8)) := by
  show StableHlo.after hostOps6 (W12 m ρ c) (Proc.devRef .tc main_v31) = _
  after_results
  rw [Thread.W12_arg8 m ρ c]
  rfl

/-- The layer's bias row, cut out of the stacked biases by the same stretch. -/
theorem found_bias : V13 m ρ c main_v34 = HostFns.b2 (F := Ideal) (m ((c : Thread nD τ).loc main_arg9)) := by
  show StableHlo.after hostOps6 (W12 m ρ c) (Proc.devRef .tc main_v34) = _
  after_results
  rw [Thread.W12_arg9 m ρ c]
  rfl

-- each operation of the stretch reads and writes through a typed view of its buffers; a value written and read
-- back through the same view is unchanged, which leaves the operations' plain composition.  The gather and the
-- reduction are kept folded while the two sides are compared: their bodies range over every element of their
-- operands, and the equation never looks inside them
attribute [local irreducible] Host.reduce Host.gather in
set_option maxHeartbeats 1600000 in
/-- The gathered source rows: the stretch before the message region, read off its operations. -/
theorem found_gathered : V11 m ρ c main_v25 = HostFns.takeFn (F := Ideal) (W10 m ρ c (Proc.devRef .tc main_v24)) (m ((c : Thread nD τ).loc main_arg2)) := by
  show StableHlo.after hostOps5 (W10 m ρ c) (Proc.devRef .tc main_v25) = _
  after_results_simp
  simp only [StableHlo.TRef.ofBuf_toBuf]
  rw [Thread.W10_arg2 m ρ c]
  rfl

/-- The edge rows the message region finds are what region 0 left. -/
theorem found_edge : V11 m ρ c main_v2 = W2 m ρ c (Proc.devRef .tc main_v2) := Thread.W11_edge m ρ c

/-- The messages: the message region's exit array. -/
theorem messages : W12 m ρ c (Proc.devRef .tc main_v26)
    = Spec.msg (HostFns.takeFn (F := Ideal) (W10 m ρ c (Proc.devRef .tc main_v24)) (m ((c : Thread nD τ).loc main_arg2))) (W2 m ρ c (Proc.devRef .tc main_v2)) :=
  (W12_arr m ρ c 2).trans ((RegionM.value5 (V11 m ρ) c).trans
    (congrArg₂ Spec.msg (found_gathered m ρ c) (found_edge m ρ c)))

-- the scatter-add is kept folded while the two sides are compared, for the same reason
attribute [local irreducible] Host.scatterAdd in
/-- The summed messages: the scatter-add of the stretch before the update region. -/
theorem found_summed : V13 m ρ c main_v29
    = HostFns.aggFn (F := Ideal) (m ((c : Thread nD τ).loc main_arg3)) (Spec.msg (HostFns.takeFn (F := Ideal) (W10 m ρ c (Proc.devRef .tc main_v24)) (m ((c : Thread nD τ).loc main_arg2))) (W2 m ρ c (Proc.devRef .tc main_v2))) := by
  show StableHlo.after hostOps6 (W12 m ρ c) (Proc.devRef .tc main_v29) = _
  after_results
  rw [Thread.W12_arg3 m ρ c, messages m ρ c]
  rfl

/-- Layer 2: the node features its update region leaves are one layer step from the features it was given. -/
theorem layer2_value :
    W14 m ρ c (Proc.devRef .tc main_v35)
      = Spec.layer (fun h => HostFns.takeFn (F := Ideal) h (m ((c : Thread nD τ).loc main_arg2))) (fun u => HostFns.aggFn (F := Ideal) (m ((c : Thread nD τ).loc main_arg3)) u)
          (W2 m ρ c (Proc.devRef .tc main_v2)) (HostFns.w2 (F := Ideal) (m ((c : Thread nD τ).loc main_arg8))) (HostFns.b2 (F := Ideal) (m ((c : Thread nD τ).loc main_arg9)))
          (W10 m ρ c (Proc.devRef .tc main_v24)) :=
  (W14_arr m ρ c 4).trans ((RegionU.value6 (V13 m ρ) c).trans
    (upd_congr (found_nodes m ρ c) (found_summed m ρ c) (found_weights m ρ c) (found_bias m ρ c)))

end Cert.KernelIdeal.Layer2

end
-- ==== Proof.Layer3.lean ====
/-
  Layer 3 of the blocked program, read off the fold of buffer contents.

  The layer is a host stretch that gathers source rows of the node features, a message region, a host
  stretch that sums the messages into destination rows and cuts the layer's weights and bias out of the
  stacked parameters, and an update region.  Each region's output array is its stage's function of the
  arrays it found; each array it found is either a result of the stretch before it, read off that stretch's
  operations, or a buffer nothing has written since an earlier boundary.  Put together, what the update
  region leaves is one layer step applied to the features the layer was given.
-/
import proofs.«401560_j6914897347055_1_alg».proof.Proof.Gen.KernelIdeal.Frame
import proofs.«401560_j6914897347055_1_alg».proof.Proof.Spec
import proofs.«401560_j6914897347055_1_alg».proof.Proof.HostFns
import proofs.«401560_j6914897347055_1_alg».proof.Proof.Thread
import proofs.«401560_j6914897347055_1_alg».proof.Proof.LibTypedRef
import proofs.«401560_j6914897347055_1_alg».proof.Proof.RegionE
import proofs.«401560_j6914897347055_1_alg».proof.Proof.RegionM
import proofs.«401560_j6914897347055_1_alg».proof.Proof.RegionU
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Layer3

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The node update of equal arrays is equal. -/
theorem upd_congr {h h' agg agg' : Spec.SN64.Idx → EReal} {W W' : Spec.S64x64.Idx → EReal} {b b' : Spec.S1x64.Idx → EReal}
    (e1 : h = h') (e2 : agg = agg') (e3 : W = W') (e4 : b = b') : Spec.upd h agg W b = Spec.upd h' agg' W' b' := by
  subst e1 e2 e3 e4; rfl

/-- The update region finds the node features the layer was given. -/
theorem found_nodes : V17 m ρ c main_v35 = (W14 m ρ c (Proc.devRef .tc main_v35)) := Thread.W17_nodes3 m ρ c

/-- The layer's weight matrix, cut out of the stacked weights by the stretch before the update region. -/
theorem found_weights : V17 m ρ c main_v42 = HostFns.w3 (F := Ideal) (m ((c : Thread nD τ).loc main_arg8)) := by
  show StableHlo.after hostOps8 (W16 m ρ c) (Proc.devRef .tc main_v42) = _
  after_results
  rw [Thread.W16_arg8 m ρ c]
  rfl

/-- The layer's bias row, cut out of the stacked biases by the same stretch. -/
theorem found_bias : V17 m ρ c main_v45 = HostFns.b3 (F := Ideal) (m ((c : Thread nD τ).loc main_arg9)) := by
  show StableHlo.after hostOps8 (W16 m ρ c) (Proc.devRef .tc main_v45) = _
  after_results
  rw [Thread.W16_arg9 m ρ c]
  rfl

-- each operation of the stretch reads and writes through a typed view of its buffers; a value written and read
-- back through the same view is unchanged, which leaves the operations' plain composition.  The gather and the
-- reduction are kept folded while the two sides are compared: their bodies range over every element of their
-- operands, and the equation never looks inside them
attribute [local irreducible] Host.reduce Host.gather in
set_option maxHeartbeats 1600000 in
/-- The gathered source rows: the stretch before the message region, read off its operations. -/
theorem found_gathered : V15 m ρ c main_v36 = HostFns.takeFn (F := Ideal) (W14 m ρ c (Proc.devRef .tc main_v35)) (m ((c : Thread nD τ).loc main_arg2)) := by
  show StableHlo.after hostOps7 (W14 m ρ c) (Proc.devRef .tc main_v36) = _
  after_results_simp
  simp only [StableHlo.TRef.ofBuf_toBuf]
  rw [Thread.W14_arg2 m ρ c]
  rfl

/-- The edge rows the message region finds are what region 0 left. -/
theorem found_edge : V15 m ρ c main_v2 = W2 m ρ c (Proc.devRef .tc main_v2) := Thread.W15_edge m ρ c

/-- The messages: the message region's exit array. -/
theorem messages : W16 m ρ c (Proc.devRef .tc main_v37)
    = Spec.msg (HostFns.takeFn (F := Ideal) (W14 m ρ c (Proc.devRef .tc main_v35)) (m ((c : Thread nD τ).loc main_arg2))) (W2 m ρ c (Proc.devRef .tc main_v2)) :=
  (W16_arr m ρ c 2).trans ((RegionM.value7 (V15 m ρ) c).trans
    (congrArg₂ Spec.msg (found_gathered m ρ c) (found_edge m ρ c)))

-- the scatter-add is kept folded while the two sides are compared, for the same reason
attribute [local irreducible] Host.scatterAdd in
/-- The summed messages: the scatter-add of the stretch before the update region. -/
theorem found_summed : V17 m ρ c main_v40
    = HostFns.aggFn (F := Ideal) (m ((c : Thread nD τ).loc main_arg3)) (Spec.msg (HostFns.takeFn (F := Ideal) (W14 m ρ c (Proc.devRef .tc main_v35)) (m ((c : Thread nD τ).loc main_arg2))) (W2 m ρ c (Proc.devRef .tc main_v2))) := by
  show StableHlo.after hostOps8 (W16 m ρ c) (Proc.devRef .tc main_v40) = _
  after_results
  rw [Thread.W16_arg3 m ρ c, messages m ρ c]
  rfl

/-- Layer 3: the node features its update region leaves are one layer step from the features it was given. -/
theorem layer3_value :
    W18 m ρ c (Proc.devRef .tc main_v46)
      = Spec.layer (fun h => HostFns.takeFn (F := Ideal) h (m ((c : Thread nD τ).loc main_arg2))) (fun u => HostFns.aggFn (F := Ideal) (m ((c : Thread nD τ).loc main_arg3)) u)
          (W2 m ρ c (Proc.devRef .tc main_v2)) (HostFns.w3 (F := Ideal) (m ((c : Thread nD τ).loc main_arg8))) (HostFns.b3 (F := Ideal) (m ((c : Thread nD τ).loc main_arg9)))
          (W14 m ρ c (Proc.devRef .tc main_v35)) :=
  (W18_arr m ρ c 4).trans ((RegionU.value8 (V17 m ρ) c).trans
    (upd_congr (found_nodes m ρ c) (found_summed m ρ c) (found_weights m ρ c) (found_bias m ρ c)))

end Cert.KernelIdeal.Layer3

end
-- ==== Proof.Take.lean ====
/-
  Gathering source rows when every source index is a row of the table.

  The blocked program gathers with a guard: it tests each wrapped source index against the table's rows
  and replaces a row whose index fails the test by a fill value.  When every source index `s` satisfies
  `0 ≤ s < 100000` the wrap leaves it alone, the test passes on every edge, and the guarded gather IS the
  plain gather of the rows at the wrapped indices.  The precondition of the claim says exactly that of
  the source indices.
-/
import proofs.«401560_j6914897347055_1_alg».proof.Defs
import proofs.«401560_j6914897347055_1_alg».proof.Proof.Gen.Pre_finite_inputs
import proofs.«401560_j6914897347055_1_alg».proof.Proof.HostFns
import Idealize.ShloMosaic.Lib.ValueIdx
import Idealize.ShloMosaic.Lib.StableHlo.Predicate
import Idealize.ShloMosaic.Lib.ReduceAll

noncomputable section

namespace Cert.KernelIdeal.Take

open Idealize.ShloMosaic Idealize.SL.Sem Cert.KernelIdeal Cert.KernelIdeal.Gen

/-- Every source index, read as a signed integer, is a row of the node table. -/
def SrcOk (src : IVec S1600000 32) : Prop :=
  ∀ k : S1600000.Idx, (0 : Int) ≤ (src k).toInt ∧ (src k).toInt < 100000

/-! ## One word: the wrap and the two range tests

A word `w` with `0 ≤ w < 100000` as a signed integer is not below zero, so the wrap's select keeps it;
it is at least `0` and at most `99999`, so both range tests answer `1`. -/

theorem toInt_zero32 : (0#32 : BitVec 32).toInt = 0 := by decide
theorem toInt_99999 : (99999#32 : BitVec 32).toInt = 99999 := by decide
theorem toInt_100000 : (100000#32 : BitVec 32).toInt = 100000 := by decide

/-- A nonnegative word is not signed-below zero: the comparison's bit is `0`. -/
theorem slt_zero_of_nonneg (w : BitVec 32) (h0 : 0 ≤ w.toInt) : IntOp.cmpi .slt w 0#32 = 0#1 := by
  refine ValueIdx.eq_zero_of_ne_one fun h => ?_
  have := IntOp.cmpi_slt.1 h
  rw [toInt_zero32] at this
  omega

/-- The wrap keeps a nonnegative word. -/
theorem wrap_word (w : BitVec 32) (h0 : 0 ≤ w.toInt) :
    Scalar.select (IntOp.cmpi .slt w 0#32) (IntOp.addi w 100000#32) w = w := by
  rw [slt_zero_of_nonneg w h0, ValueIdx.select_zero]

/-- Both range tests pass on a word in `[0, 100000)`. -/
theorem tests_word (w : BitVec 32) (h0 : 0 ≤ w.toInt) (h1 : w.toInt < 100000) :
    IntOp.andi (IntOp.cmpi .sge w 0#32) (IntOp.cmpi .sle w 99999#32) = 1#1 := by
  refine IntOp.andi_eq_one.2 ⟨IntOp.cmpi_sge.2 ?_, IntOp.cmpi_sle.2 ?_⟩
  · rw [toInt_zero32]; exact h0
  · rw [toInt_99999]; omega

/-! ## A conjunction of ones

A left fold by `and` that starts at `1` and meets only `1`s ends at `1`. -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The wrapped indices and the range mask -/

/-- With every source index in range the wrap changes nothing, at any position. -/
theorem wrapped_apply (src : IVec S1600000 32) (hs : SrcOk src) (k : S1600000.Idx) :
    HostFns.wrapped src k = src k :=
  wrap_word (src k) (hs k).1

/-- With every source index in range the range mask is `1` on every edge: the conjunction over the one-element
    axis of the two tests at the edge's wrapped index, from the initial `1`. -/
theorem inRange_apply (src : IVec S1600000 32) (hs : SrcOk src) (r : S1600000.Idx) :
    HostFns.inRange src r = 1#1 := by
  unfold HostFns.inRange
  dsimp only
  rw [Host.reduce_eq_foldl]
  refine foldl_andi_one _ (fun i => ?_) _
  show IntOp.andi (IntOp.cmpi .sge (HostFns.wrapped src _) 0#32) (IntOp.cmpi .sle (HostFns.wrapped src _) 99999#32) = 1#1
  rw [wrapped_apply src hs]
  exact tests_word _ (hs _).1 (hs _).2

/-- With every source index in range the guarded gather is the plain gather. -/
theorem takeFn_eq_gathered (h : FVec Ideal S100000x64 .f32) (src : IVec S1600000 32) (hs : SrcOk src) :
    HostFns.takeFn (F := Ideal) h src = HostFns.gathered (F := Ideal) h src := by
  funext i
  unfold HostFns.takeFn
  rw [ValueIdx.select_apply]
  show Scalar.select (HostFns.inRange src _) _ _ = _
  rw [inRange_apply src hs, ValueIdx.select_one]

/-! ## The precondition says so -/

instance : Subsingleton Cert.Pre_finite_inputs.S_.Idx := ⟨fun a b => funext fun d => d.elim0⟩

/-- The precondition function, all ones, puts every source index in range: its last conjunct is the conjunction over
    all positions of `0 ≤ s` and `s < 100000`. -/
theorem srcOk_of_fn (a0 : FVec Ideal Cert.Pre_finite_inputs.S100000x64 .f32) (a1 : FVec Ideal Cert.Pre_finite_inputs.S1600000x16 .f32)
    (a2 a3 : IVec Cert.Pre_finite_inputs.S1600000 32) (a4 : FVec Ideal Cert.Pre_finite_inputs.S16x64 .f32)
    (a5 : FVec Ideal Cert.Pre_finite_inputs.S64 .f32) (a6 : FVec Ideal Cert.Pre_finite_inputs.S64x64 .f32)
    (a7 : FVec Ideal Cert.Pre_finite_inputs.S64 .f32) (a8 : FVec Ideal Cert.Pre_finite_inputs.S4x64x64 .f32)
    (a9 : FVec Ideal Cert.Pre_finite_inputs.S4x64 .f32)
    (hp : Cert.Pre_finite_inputs.fn (F := Ideal) a0 a1 a2 a3 a4 a5 a6 a7 a8 a9 = fun _ => 1#1) : SrcOk a2 := by
  have h0 := congrFun hp ValueIdx.ix0
  dsimp only [Cert.Pre_finite_inputs.fn, Cert.Pre_finite_inputs.fn_part1, Cert.Pre_finite_inputs.fn_part2] at h0
  have hall := (IntOp.andi_eq_one.1 h0).2
  intro k
  have hk := Host.reduce_andi_all _ _ _ _ _ hall k
  obtain ⟨hge, hlt⟩ := IntOp.andi_eq_one.1 hk
  have hge' := IntOp.cmpi_sge.1 hge
  have hlt' := IntOp.cmpi_slt.1 hlt
  refine ⟨?_, ?_⟩
  · have : (0#32 : BitVec 32).toInt ≤ (a2 k).toInt := hge'
    rwa [toInt_zero32] at this
  · have : (a2 k).toInt < (100000#32 : BitVec 32).toInt := hlt'
    rwa [toInt_100000] at this

/-- The claim's precondition puts every source index in range, on every core. -/
theorem srcOk_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    SrcOk (m ((c.tc : Thread Cert.KernelIdeal.nD Cert.KernelIdeal.τ).loc Cert.KernelIdeal.main_arg2)) :=
  srcOk_of_fn _ _ _ _ _ _ _ _ _ _ (hpre c)

end Cert.KernelIdeal.Take

end
-- ==== Proof.KernelValue.lean ====
/-
  The blocked program's result: four layer steps from the argument node features.

  Each layer's update region leaves one layer step applied to the features the layer was given, and the
  first layer is given the argument node features, so the result is four layer steps from them.  Every step
  gathers source rows with the guard; with every source index a row of the table the guard never binds, and
  the gather is the plain one.  The edge rows are the edge stage of the argument arrays.
-/
import proofs.«401560_j6914897347055_1_alg».proof.Proof.Layer0
import proofs.«401560_j6914897347055_1_alg».proof.Proof.Layer1
import proofs.«401560_j6914897347055_1_alg».proof.Proof.Layer2
import proofs.«401560_j6914897347055_1_alg».proof.Proof.Layer3
import proofs.«401560_j6914897347055_1_alg».proof.Proof.Take

set_option maxRecDepth 16384

noncomputable section

namespace Cert.KernelIdeal.KernelValue

open Idealize.ShloMosaic Idealize.ShloMosaic.TcCoe Idealize.SL.Sem
open Cert.KernelIdeal Cert.KernelIdeal.Gen

/-- Four layer steps with a given gather `G` and given edge rows `e`: the sum into destination rows, the weights and
    the biases are the host's, cut out of the stacked parameters layer by layer. -/
def fourLayers (G : (Spec.SN64.Idx → EReal) → Spec.SE64.Idx → EReal) (e : Spec.SE64.Idx → EReal)
    (dst : IVec S1600000 32) (lw : FVec Ideal S4x64x64 .f32) (lb : FVec Ideal S4x64 .f32)
    (a0 : Spec.SN64.Idx → EReal) : Spec.SN64.Idx → EReal :=
  Spec.layer G (fun u => HostFns.aggFn (F := Ideal) dst u) e (HostFns.w3 (F := Ideal) lw) (HostFns.b3 (F := Ideal) lb)
    (Spec.layer G (fun u => HostFns.aggFn (F := Ideal) dst u) e (HostFns.w2 (F := Ideal) lw) (HostFns.b2 (F := Ideal) lb)
      (Spec.layer G (fun u => HostFns.aggFn (F := Ideal) dst u) e (HostFns.w1 (F := Ideal) lw) (HostFns.b1 (F := Ideal) lb)
        (Spec.layer G (fun u => HostFns.aggFn (F := Ideal) dst u) e (HostFns.w0 (F := Ideal) lw) (HostFns.b0 (F := Ideal) lb) a0)))

variable (m : (ℓ : Loc nD τ sig) → Buf (Elt Ideal) ℓ) (ρ : Dev nD → PrngReg) (c : Dev nD)

/-- The result is four layer steps from the argument node features, with the guarded gather and the edge rows as
    region 0 left them. -/
theorem result_folded :
    W18 m ρ c (Proc.devRef .tc main_v46)
      = fourLayers (fun h => HostFns.takeFn (F := Ideal) h (m ((c : Thread nD τ).loc main_arg2))) (W2 m ρ c (Proc.devRef .tc main_v2))
          (m ((c : Thread nD τ).loc main_arg3)) (m ((c : Thread nD τ).loc main_arg8)) (m ((c : Thread nD τ).loc main_arg9)) (m ((c : Thread nD τ).loc main_arg0)) := by
  unfold fourLayers
  exact (Layer3.layer3_value m ρ c).trans (congrArg (Spec.layer _ _ _ _ _)
    ((Layer2.layer2_value m ρ c).trans (congrArg (Spec.layer _ _ _ _ _)
      ((Layer1.layer1_value m ρ c).trans (congrArg (Spec.layer _ _ _ _ _) (Layer0.layer0_value m ρ c))))))

/-- With every source index a row of the table: the result is four layer steps with the plain gather, over the edge
    stage of the argument arrays. -/
theorem result_value (hs : Take.SrcOk (m ((c : Thread nD τ).loc main_arg2))) :
    W18 m ρ c (Proc.devRef .tc main_v46)
      = fourLayers (fun h => HostFns.gathered (F := Ideal) h (m ((c : Thread nD τ).loc main_arg2)))
          (Spec.edgeNet (m ((c : Thread nD τ).loc main_arg1)) (m ((c : Thread nD τ).loc main_arg4)) (HostFns.biasRow (F := Ideal) (m ((c : Thread nD τ).loc main_arg5))) (m ((c : Thread nD τ).loc main_arg6)) (HostFns.biasRow (F := Ideal) (m ((c : Thread nD τ).loc main_arg7))))
          (m ((c : Thread nD τ).loc main_arg3)) (m ((c : Thread nD τ).loc main_arg8)) (m ((c : Thread nD τ).loc main_arg9)) (m ((c : Thread nD τ).loc main_arg0)) :=
  (result_folded m ρ c).trans (congrArg₂ (fun G e => fourLayers G e (m ((c : Thread nD τ).loc main_arg3)) (m ((c : Thread nD τ).loc main_arg8)) (m ((c : Thread nD τ).loc main_arg9)) (m ((c : Thread nD τ).loc main_arg0)))
    (funext fun h => Take.takeFn_eq_gathered h (m ((c : Thread nD τ).loc main_arg2)) hs) (Layer0.edge_value m ρ c))

end Cert.KernelIdeal.KernelValue

end
-- ==== Proof.RefStages.lean ====
/-
  The whole-array stages are the stage functions of the specification, entry by entry, at the extended reals.

  A host matrix product read at an entry is the sum over the contracted axis of the products of the two
  operands' entries; a bias row broadcast down the rows reads its own column entry at every row; the ramp
  is the maximum with zero.  So the edge stage on whole arrays is `edgeNet`, the messages are `msg`, and the
  node update is `upd`, and a whole layer is the specification's layer step with the host's gather and sum.
-/
import proofs.«401560_j6914897347055_1_alg».proof.Proof.RefFns
import proofs.«401560_j6914897347055_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefStages

open Idealize.ShloMosaic Idealize.ShloMosaic.ValueIdx Cert.ReferenceIdeal Cert.ReferenceIdeal.Gen Cert.ReferenceIdeal.RefFns

open scoped BigOperators

/-! ### The first product of the edge stage: edge features (1 600 000 × 16) times a 16 × 64 matrix

The product contracts the left operand's axis 1 with the right operand's axis 0.  At output entry `i` and
contraction index `c` the left operand is read at row `i 0`, column `c`, and the right operand at row `c`,
column `i 1`: four coordinate facts, one per operand axis. -/

theorem featProd_lhs_row (i : S1600000x64.Idx) (c : dot_S1600000x16_S16x64_S1600000x64_1_0_0_1_n_n.contr.Idx) :
    (dot_S1600000x16_S16x64_S1600000x64_1_0_0_1_n_n.lhsIdx i c 0).val = (i 0).val := by
  unfold DotDims.lhsIdx
  rw [dif_neg (show ¬(0 : Fin S1600000x16.rank) ∈ dot_S1600000x16_S16x64_S1600000x64_1_0_0_1_n_n.lhsBatch by decide),
    dif_pos (show (0 : Fin S1600000x16.rank) ∈ dot_S1600000x16_S16x64_S1600000x64_1_0_0_1_n_n.lhsNonContracting by decide)]
  rfl

theorem featProd_lhs_col (i : S1600000x64.Idx) (c : dot_S1600000x16_S16x64_S1600000x64_1_0_0_1_n_n.contr.Idx) :
    (dot_S1600000x16_S16x64_S1600000x64_1_0_0_1_n_n.lhsIdx i c 1).val = (c ⟨0, by decide⟩).val :=
  dot_S1600000x16_S16x64_S1600000x64_1_0_0_1_n_n.lhsIdx_val_of_single rfl i c

theorem featProd_rhs_row (i : S1600000x64.Idx) (c : dot_S1600000x16_S16x64_S1600000x64_1_0_0_1_n_n.contr.Idx) :
    (dot_S1600000x16_S16x64_S1600000x64_1_0_0_1_n_n.rhsIdx i c 0).val = (c ⟨0, by decide⟩).val :=
  dot_S1600000x16_S16x64_S1600000x64_1_0_0_1_n_n.rhsIdx_val_of_single rfl i c

theorem featProd_rhs_col (i : S1600000x64.Idx) (c : dot_S1600000x16_S16x64_S1600000x64_1_0_0_1_n_n.contr.Idx) :
    (dot_S1600000x16_S16x64_S1600000x64_1_0_0_1_n_n.rhsIdx i c 1).val = (i 1).val := by
  unfold DotDims.rhsIdx
  rw [dif_neg (show ¬(1 : Fin S16x64.rank) ∈ dot_S1600000x16_S16x64_S1600000x64_1_0_0_1_n_n.rhsBatch by decide),
    dif_pos (show (1 : Fin S16x64.rank) ∈ dot_S1600000x16_S16x64_S1600000x64_1_0_0_1_n_n.rhsNonContracting by decide)]
  rfl

/-- Entry `(p, q)` of the product is `∑ k, l[p, k] · r[k, q]`: the contraction index set has one axis of extent 16,
    and the sum is carried over to `Fin 16` along that identification. -/
theorem featProd_apply (l : FVec Ideal S1600000x16 .f32) (r : FVec Ideal S16x64 .f32) (p : Fin 1600000) (q : Fin 64) :
    Host.dotGeneral (F := Ideal) dot_S1600000x16_S16x64_S1600000x64_1_0_0_1_n_n none l r (ix2 p q)
      = ∑ k : Fin 16, l (ix2 p k) * r (ix2 k q) := by
  simp only [Host.dotGeneral]
  rw [Ideal.dotGeneral_apply, ← Equiv.sum_comp (contrEquiv1 dot_S1600000x16_S16x64_S1600000x64_1_0_0_1_n_n 16 rfl rfl).symm]
  refine Finset.sum_congr rfl fun k _ => ?_
  have hk := contrEquiv1_symm_val dot_S1600000x16_S16x64_S1600000x64_1_0_0_1_n_n 16 rfl rfl k
  have el : dot_S1600000x16_S16x64_S1600000x64_1_0_0_1_n_n.lhsIdx (ix2 p q)
      ((contrEquiv1 dot_S1600000x16_S16x64_S1600000x64_1_0_0_1_n_n 16 rfl rfl).symm k) = ix2 p k :=
    funext fun a => Fin.ext (by
      match a with
      | ⟨0, _⟩ => exact featProd_lhs_row _ _
      | ⟨1, _⟩ => exact (featProd_lhs_col _ _).trans hk)
  have er : dot_S1600000x16_S16x64_S1600000x64_1_0_0_1_n_n.rhsIdx (ix2 p q)
      ((contrEquiv1 dot_S1600000x16_S16x64_S1600000x64_1_0_0_1_n_n 16 rfl rfl).symm k) = ix2 k q :=
    funext fun a => Fin.ext (by
      match a with
      | ⟨0, _⟩ => exact (featProd_rhs_row _ _).trans hk
      | ⟨1, _⟩ => exact featProd_rhs_col _ _)
  rw [el, er]

/-! ### The second product of the edge stage: hidden rows (1 600 000 × 64) times a 64 × 64 matrix

The same dimension numbers: left axis 1 against right axis 0. -/

theorem hidProd_lhs_row (i : S1600000x64.Idx) (c : dot_S1600000x64_S64x64_S1600000x64_1_0_0_1_n_n.contr.Idx) :
    (dot_S1600000x64_S64x64_S1600000x64_1_0_0_1_n_n.lhsIdx i c 0).val = (i 0).val := by
  unfold DotDims.lhsIdx
  rw [dif_neg (show ¬(0 : Fin S1600000x64.rank) ∈ dot_S1600000x64_S64x64_S1600000x64_1_0_0_1_n_n.lhsBatch by decide),
    dif_pos (show (0 : Fin S1600000x64.rank) ∈ dot_S1600000x64_S64x64_S1600000x64_1_0_0_1_n_n.lhsNonContracting by decide)]
  rfl

theorem hidProd_lhs_col (i : S1600000x64.Idx) (c : dot_S1600000x64_S64x64_S1600000x64_1_0_0_1_n_n.contr.Idx) :
    (dot_S1600000x64_S64x64_S1600000x64_1_0_0_1_n_n.lhsIdx i c 1).val = (c ⟨0, by decide⟩).val :=
  dot_S1600000x64_S64x64_S1600000x64_1_0_0_1_n_n.lhsIdx_val_of_single rfl i c

theorem hidProd_rhs_row (i : S1600000x64.Idx) (c : dot_S1600000x64_S64x64_S1600000x64_1_0_0_1_n_n.contr.Idx) :
    (dot_S1600000x64_S64x64_S1600000x64_1_0_0_1_n_n.rhsIdx i c 0).val = (c ⟨0, by decide⟩).val :=
  dot_S1600000x64_S64x64_S1600000x64_1_0_0_1_n_n.rhsIdx_val_of_single rfl i c

theorem hidProd_rhs_col (i : S1600000x64.Idx) (c : dot_S1600000x64_S64x64_S1600000x64_1_0_0_1_n_n.contr.Idx) :
    (dot_S1600000x64_S64x64_S1600000x64_1_0_0_1_n_n.rhsIdx i c 1).val = (i 1).val := by
  unfold DotDims.rhsIdx
  rw [dif_neg (show ¬(1 : Fin S64x64.rank) ∈ dot_S1600000x64_S64x64_S1600000x64_1_0_0_1_n_n.rhsBatch by decide),
    dif_pos (show (1 : Fin S64x64.rank) ∈ dot_S1600000x64_S64x64_S1600000x64_1_0_0_1_n_n.rhsNonContracting by decide)]
  rfl

/-- Entry `(p, q)` of the product is `∑ k, l[p, k] · r[k, q]`, the sum over the 64 hidden columns. -/
theorem hidProd_apply (l : FVec Ideal S1600000x64 .f32) (r : FVec Ideal S64x64 .f32) (p : Fin 1600000) (q : Fin 64) :
    Host.dotGeneral (F := Ideal) dot_S1600000x64_S64x64_S1600000x64_1_0_0_1_n_n none l r (ix2 p q)
      = ∑ k : Fin 64, l (ix2 p k) * r (ix2 k q) := by
  simp only [Host.dotGeneral]
  rw [Ideal.dotGeneral_apply, ← Equiv.sum_comp (contrEquiv1 dot_S1600000x64_S64x64_S1600000x64_1_0_0_1_n_n 64 rfl rfl).symm]
  refine Finset.sum_congr rfl fun k _ => ?_
  have hk := contrEquiv1_symm_val dot_S1600000x64_S64x64_S1600000x64_1_0_0_1_n_n 64 rfl rfl k
  have el : dot_S1600000x64_S64x64_S1600000x64_1_0_0_1_n_n.lhsIdx (ix2 p q)
      ((contrEquiv1 dot_S1600000x64_S64x64_S1600000x64_1_0_0_1_n_n 64 rfl rfl).symm k) = ix2 p k :=
    funext fun a => Fin.ext (by
      match a with
      | ⟨0, _⟩ => exact hidProd_lhs_row _ _
      | ⟨1, _⟩ => exact (hidProd_lhs_col _ _).trans hk)
  have er : dot_S1600000x64_S64x64_S1600000x64_1_0_0_1_n_n.rhsIdx (ix2 p q)
      ((contrEquiv1 dot_S1600000x64_S64x64_S1600000x64_1_0_0_1_n_n 64 rfl rfl).symm k) = ix2 k q :=
    funext fun a => Fin.ext (by
      match a with
      | ⟨0, _⟩ => exact (hidProd_rhs_row _ _).trans hk
      | ⟨1, _⟩ => exact hidProd_rhs_col _ _)
  rw [el, er]

/-! ### The node update's product: node rows (100 000 × 64) times a 64 × 64 matrix -/

theorem nodeProd_lhs_row (i : S100000x64.Idx) (c : dot_S100000x64_S64x64_S100000x64_1_0_0_1_n_n.contr.Idx) :
    (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

theorem nodeProd_lhs_col (i : S100000x64.Idx) (c : dot_S100000x64_S64x64_S100000x64_1_0_0_1_n_n.contr.Idx) :
    (dot_S100000x64_S64x64_S100000x64_1_0_0_1_n_n.lhsIdx i c 1).val = (c ⟨0, by decide⟩).val :=
  dot_S100000x64_S64x64_S100000x64_1_0_0_1_n_n.lhsIdx_val_of_single rfl i c

theorem nodeProd_rhs_row (i : S100000x64.Idx) (c : dot_S100000x64_S64x64_S100000x64_1_0_0_1_n_n.contr.Idx) :
    (dot_S100000x64_S64x64_S100000x64_1_0_0_1_n_n.rhsIdx i c 0).val = (c ⟨0, by decide⟩).val :=
  dot_S100000x64_S64x64_S100000x64_1_0_0_1_n_n.rhsIdx_val_of_single rfl i c

theorem nodeProd_rhs_col (i : S100000x64.Idx) (c : dot_S100000x64_S64x64_S100000x64_1_0_0_1_n_n.contr.Idx) :
    (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- Entry `(p, q)` of the product is `∑ k, l[p, k] · r[k, q]`, the sum over the 64 hidden columns. -/
theorem nodeProd_apply (l : FVec Ideal S100000x64 .f32) (r : FVec Ideal S64x64 .f32) (p : Fin 100000) (q : Fin 64) :
    Host.dotGeneral (F := Ideal) dot_S100000x64_S64x64_S100000x64_1_0_0_1_n_n none l r (ix2 p q)
      = ∑ k : Fin 64, l (ix2 p k) * r (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q)
      ((contrEquiv1 dot_S100000x64_S64x64_S100000x64_1_0_0_1_n_n 64 rfl rfl).symm k) = ix2 p k :=
    funext fun a => Fin.ext (by
      match a with
      | ⟨0, _⟩ => exact nodeProd_lhs_row _ _
      | ⟨1, _⟩ => exact (nodeProd_lhs_col _ _).trans hk)
  have er : dot_S100000x64_S64x64_S100000x64_1_0_0_1_n_n.rhsIdx (ix2 p q)
      ((contrEquiv1 dot_S100000x64_S64x64_S100000x64_1_0_0_1_n_n 64 rfl rfl).symm k) = ix2 k q :=
    funext fun a => Fin.ext (by
      match a with
      | ⟨0, _⟩ => exact (nodeProd_rhs_row _ _).trans hk
      | ⟨1, _⟩ => exact nodeProd_rhs_col _ _)
  rw [el, er]

/-! ### A one-row matrix broadcast down the rows, and the zero the ramp compares with -/

/-- A one-row matrix broadcast down the 1 600 000 edge rows reads, at `(p, q)`, the row's entry in column `q`:
    the operand's row axis has extent one, so its coordinate is `0`, and the column coordinate is kept. -/
theorem edgeRows_apply (y : FVec Ideal S1x64 .f32) (p : Fin 1600000) (q : Fin 64) :
    broadcastInDim S1600000x64 ![0, 1] bcast_S1x64_S1600000x64_0_1 y (ix2 p q) = y (ix2 (0 : Fin 1) q) :=
  broadcastInDim_apply _ bcast_S1x64_S1600000x64_0_1 y (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The same broadcast down the 100 000 node rows. -/
theorem nodeRows_apply (y : FVec Ideal S1x64 .f32) (p : Fin 100000) (q : Fin 64) :
    broadcastInDim S100000x64 ![0, 1] bcast_S1x64_S100000x64_0_1 y (ix2 p q) = y (ix2 (0 : Fin 1) q) :=
  broadcastInDim_apply _ bcast_S1x64_S100000x64_0_1 y (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The zero scalar broadcast over an edge-indexed array is the extended real `0` at every entry. -/
theorem edgeZero_apply (i : S1600000x64.Idx) :
    broadcastInDim S1600000x64 ![] bcast_S_S1600000x64 (constant (F := Ideal) S_ .f32 0x00000000#32) i = (0 : EReal) := by
  rw [broadcastInDim_apply _ bcast_S_S1600000x64 _ i ix0 (fun a => a.elim0), constant_apply, Ideal.ofBits_zero_f32]

/-- The zero scalar broadcast over a node-indexed array is the extended real `0` at every entry. -/
theorem nodeZero_apply (i : S100000x64.Idx) :
    broadcastInDim S100000x64 ![] bcast_S_S100000x64 (constant (F := Ideal) S_ .f32 0x00000000#32) i = (0 : EReal) := by
  rw [broadcastInDim_apply _ bcast_S_S100000x64 _ i ix0 (fun a => a.elim0), constant_apply, Ideal.ofBits_zero_f32]

/-- The ramp on an edge-indexed array is the maximum with zero, entry by entry. -/
theorem rampE_apply (x : FVec Ideal S1600000x64 .f32) (i : S1600000x64.Idx) : rampE (F := Ideal) x i = max (x i) 0 := by
  unfold rampE
  rw [maximumf_apply, edgeZero_apply]

/-- The ramp on a node-indexed array is the maximum with zero, entry by entry. -/
theorem rampN_apply (x : FVec Ideal S100000x64 .f32) (i : S100000x64.Idx) : rampN (F := Ideal) x i = max (x i) 0 := by
  unfold rampN
  rw [maximumf_apply, nodeZero_apply]

/-! ### The three stages -/

/-- The edge stage on whole arrays is the specification's edge stage, the biases as one-row matrices. -/
theorem edgeHost_eq (ef : FVec Ideal S1600000x16 .f32) (W1 : FVec Ideal S16x64 .f32) (b1 : FVec Ideal S64 .f32)
    (W2 : FVec Ideal S64x64 .f32) (b2 : FVec Ideal S64 .f32) :
    edgeHost (F := Ideal) ef W1 b1 W2 b2 = Spec.edgeNet ef W1 (biasRow (F := Ideal) b1) W2 (biasRow (F := Ideal) b2) := by
  funext i
  obtain ⟨r, q, rfl⟩ : ∃ (r : Fin 1600000) (q : Fin 64), i = ix2 r q := ⟨i 0, i 1, eq_ix2 i⟩
  rw [Spec.edgeNet_apply]
  unfold edgeHost Spec.edgeAt
  rw [addf_apply, hidProd_apply, edgeRows_apply]
  refine congrArg (· + biasRow (F := Ideal) b2 (ix2 (0 : Fin 1) q)) ?_
  refine Finset.sum_congr rfl fun k _ => ?_
  rw [rampE_apply, addf_apply, featProd_apply, edgeRows_apply]

/-- The messages on whole arrays are the specification's. -/
theorem msgHost_eq (hs e : FVec Ideal S1600000x64 .f32) : msgHost (F := Ideal) hs e = Spec.msg hs e := by
  funext i
  unfold msgHost Spec.msg
  rw [rampE_apply, addf_apply]

/-- The node update on whole arrays is the specification's. -/
theorem updHost_eq (h agg : FVec Ideal S100000x64 .f32) (W : FVec Ideal S64x64 .f32) (brow : FVec Ideal S1x64 .f32) :
    updHost (F := Ideal) h agg W brow = Spec.upd h agg W brow := by
  funext i
  obtain ⟨r, q, rfl⟩ : ∃ (r : Fin 100000) (q : Fin 64), i = ix2 r q := ⟨i 0, i 1, eq_ix2 i⟩
  rw [Spec.upd_apply]
  unfold updHost Spec.updAt
  rw [rampN_apply, addf_apply, nodeProd_apply, nodeRows_apply]
  refine congrArg (fun s => max (s + brow (ix2 (0 : Fin 1) q)) 0) ?_
  refine Finset.sum_congr rfl fun k _ => ?_
  rw [addf_apply]

/-- A whole layer is the specification's layer step with the host's gather and sum. -/
theorem layerHost_eq (src dst : IVec S1600000 32) (e : FVec Ideal S1600000x64 .f32) (W : FVec Ideal S64x64 .f32)
    (brow : FVec Ideal S1x64 .f32) (h : FVec Ideal S100000x64 .f32) :
    layerHost (F := Ideal) src dst e W brow h
      = Spec.layer (fun h => gathered (F := Ideal) h src) (fun u => aggFn (F := Ideal) dst u) e W brow h := by
  unfold layerHost Spec.layer
  rw [updHost_eq, msgHost_eq]

end Cert.ReferenceIdeal.RefStages

end
-- ==== Proof.Bridge.lean ====
/-
  The two programs' host functions are the same functions.

  The gather of source rows, the sum of messages into destination rows and the cut of a layer's weight
  matrix out of the stacked weights are the same operations with the same dimension numbers in both
  programs.  A bias reaches its stage as a one-row matrix in two ways — the blocked program recasts the
  vector's shape, the whole-array program broadcasts it along a new leading axis — and both put entry `k`
  of the vector at row 0, column `k`.
-/
import proofs.«401560_j6914897347055_1_alg».proof.Proof.HostFns
import proofs.«401560_j6914897347055_1_alg».proof.Proof.RefFns
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

/-- A vector recast as a one-row matrix and the vector broadcast along a new leading axis of extent one are the
    same matrix: row 0, column `k` holds the vector's entry `k`. -/
theorem biasRow_eq (b : FVec Ideal Cert.KernelIdeal.S64 .f32) :
    Cert.KernelIdeal.HostFns.biasRow (F := Ideal) b = Cert.ReferenceIdeal.RefFns.biasRow (F := Ideal) b := by
  funext i
  obtain ⟨p, q, rfl⟩ : ∃ (p : Fin 1) (q : Fin 64), i = ix2 p q := ⟨i 0, i 1, eq_ix2 i⟩
  unfold Cert.KernelIdeal.HostFns.biasRow Cert.ReferenceIdeal.RefFns.biasRow
  have h1 : shapeCast Cert.KernelIdeal.S1x64 b Cert.KernelIdeal.Gen.shapeCasts_S64_S1x64 (ix2 p q) = b (ix1 q) := by
    refine shapeCast_apply b _ (ix2 p q) (ix1 q) ?_
    rw [Shape.rowMajor_val_one, Shape.rowMajor_val_two]
    show q.val = p.val * 64 + q.val
    have := p.isLt
    omega
  have h2 : broadcastInDim Cert.ReferenceIdeal.S1x64 ![1] Cert.ReferenceIdeal.Gen.bcast_S64_S1x64_1 b (ix2 p q) = b (ix1 q) := by
    refine broadcastInDim_apply _ _ b (ix2 p q) (ix1 q) ?_
    intro a
    match a with
    | ⟨0, _⟩ => rfl
  exact h1.trans h2.symm

/-- The rows gathered at the wrapped source indices are the same in both programs. -/
theorem gathered_eq (h : FVec Ideal Cert.KernelIdeal.S100000x64 .f32) (src : IVec Cert.KernelIdeal.S1600000 32) :
    Cert.KernelIdeal.HostFns.gathered (F := Ideal) h src = Cert.ReferenceIdeal.RefFns.gathered (F := Ideal) h src := rfl

/-- The messages summed into destination rows are the same in both programs. -/
theorem aggFn_eq (dst : IVec Cert.KernelIdeal.S1600000 32) (u : FVec Ideal Cert.KernelIdeal.S1600000x64 .f32) :
    Cert.KernelIdeal.HostFns.aggFn (F := Ideal) dst u = Cert.ReferenceIdeal.RefFns.aggFn (F := Ideal) dst u := rfl

theorem w0_eq (lw : FVec Ideal Cert.KernelIdeal.S4x64x64 .f32) : Cert.KernelIdeal.HostFns.w0 (F := Ideal) lw = Cert.ReferenceIdeal.RefFns.w0 (F := Ideal) lw := rfl
theorem w1_eq (lw : FVec Ideal Cert.KernelIdeal.S4x64x64 .f32) : Cert.KernelIdeal.HostFns.w1 (F := Ideal) lw = Cert.ReferenceIdeal.RefFns.w1 (F := Ideal) lw := rfl
theorem w2_eq (lw : FVec Ideal Cert.KernelIdeal.S4x64x64 .f32) : Cert.KernelIdeal.HostFns.w2 (F := Ideal) lw = Cert.ReferenceIdeal.RefFns.w2 (F := Ideal) lw := rfl
theorem w3_eq (lw : FVec Ideal Cert.KernelIdeal.S4x64x64 .f32) : Cert.KernelIdeal.HostFns.w3 (F := Ideal) lw = Cert.ReferenceIdeal.RefFns.w3 (F := Ideal) lw := rfl

/-- A layer's bias row, cut out of the stacked biases, is the same one-row matrix in both programs. -/
theorem b0_eq (lb : FVec Ideal Cert.KernelIdeal.S4x64 .f32) : Cert.KernelIdeal.HostFns.b0 (F := Ideal) lb = Cert.ReferenceIdeal.RefFns.b0 (F := Ideal) lb :=
  biasRow_eq _
theorem b1_eq (lb : FVec Ideal Cert.KernelIdeal.S4x64 .f32) : Cert.KernelIdeal.HostFns.b1 (F := Ideal) lb = Cert.ReferenceIdeal.RefFns.b1 (F := Ideal) lb :=
  biasRow_eq _
theorem b2_eq (lb : FVec Ideal Cert.KernelIdeal.S4x64 .f32) : Cert.KernelIdeal.HostFns.b2 (F := Ideal) lb = Cert.ReferenceIdeal.RefFns.b2 (F := Ideal) lb :=
  biasRow_eq _
theorem b3_eq (lb : FVec Ideal Cert.KernelIdeal.S4x64 .f32) : Cert.KernelIdeal.HostFns.b3 (F := Ideal) lb = Cert.ReferenceIdeal.RefFns.b3 (F := Ideal) lb :=
  biasRow_eq _

end Cert.Bridge

end
-- ==== Proof.Final.lean ====
/-
  The whole-array program's network is the same four layer steps.

  Each of its layers is the specification's layer step with the host's gather and sum, and its edge stage is
  the specification's; its gather, its sum, its weight cuts and its bias rows are the blocked program's.  So
  the network of the argument arrays is the blocked program's four layer steps with the plain gather over the
  edge stage of the argument arrays.
-/
import proofs.«401560_j6914897347055_1_alg».proof.Proof.KernelValue
import proofs.«401560_j6914897347055_1_alg».proof.Proof.RefStages
import proofs.«401560_j6914897347055_1_alg».proof.Proof.Bridge

set_option maxRecDepth 16384

noncomputable section

namespace Cert.Final

open Idealize.ShloMosaic

/-- The network of the argument arrays is the blocked program's four layer steps. -/
theorem net_eq_fourLayers (a0 : FVec Ideal Cert.KernelIdeal.S100000x64 .f32) (a1 : FVec Ideal Cert.KernelIdeal.S1600000x16 .f32)
    (src dst : IVec Cert.KernelIdeal.S1600000 32) (a4 : FVec Ideal Cert.KernelIdeal.S16x64 .f32) (a5 : FVec Ideal Cert.KernelIdeal.S64 .f32)
    (a6 : FVec Ideal Cert.KernelIdeal.S64x64 .f32) (a7 : FVec Ideal Cert.KernelIdeal.S64 .f32)
    (lw : FVec Ideal Cert.KernelIdeal.S4x64x64 .f32) (lb : FVec Ideal Cert.KernelIdeal.S4x64 .f32) :
    Cert.ReferenceIdeal.RefFns.net (F := Ideal) a0 a1 src dst a4 a5 a6 a7 lw lb
      = Cert.KernelIdeal.KernelValue.fourLayers (fun h => Cert.KernelIdeal.HostFns.gathered (F := Ideal) h src)
          (Cert.Spec.edgeNet a1 a4 (Cert.KernelIdeal.HostFns.biasRow (F := Ideal) a5) a6 (Cert.KernelIdeal.HostFns.biasRow (F := Ideal) a7)) dst lw lb a0 := by
  unfold Cert.ReferenceIdeal.RefFns.net Cert.KernelIdeal.KernelValue.fourLayers
  simp only [Cert.ReferenceIdeal.RefStages.layerHost_eq, Cert.ReferenceIdeal.RefStages.edgeHost_eq]
  rw [Cert.Bridge.biasRow_eq a5, Cert.Bridge.biasRow_eq a7, Cert.Bridge.b0_eq lb, Cert.Bridge.b1_eq lb, Cert.Bridge.b2_eq lb,
    Cert.Bridge.b3_eq lb]
  rfl

end Cert.Final

end
-- ==== Proof.lean ====
/-
  A four-layer message-passing network on a graph of 100 000 nodes and 1 600 000 edges, computed block by block
  by nine pipelined regions among host gathers and scatter-adds, against the same network computed on whole
  arrays: equal results over the extended reals, for finite float inputs and source indices inside the node table.

  Both programs compute the edge stage once (two affine maps with a ramp between them) and then, four times:
  gather the source rows of the node features, add the edge rows and take the ramp, sum the result into the
  destination rows, add the node features, apply the layer's affine map and take the ramp.  The blocked
  program does the three arithmetic stages region by region over blocks of rows; at the extended reals a
  matrix product into a zero accumulator is the plain sum over the contracted axis and a change of float
  format is the identity, so each region leaves its stage's function of the arrays it found, whatever the
  blocking.  The gather and the sum are the same host operations in both programs, with one difference: the
  blocked program's gather replaces a row whose index is outside the table by a fill value, where the other
  clamps the index.  With every source index a row of the table — which the precondition states — the two
  gathers agree, and the two results are the same four layer steps from the same arrays.

  The frames of the two blocked programs are the generated ones; the whole-array program's is its generated
  run with the result dropped.  The idealization rewrote nothing, so what it must preserve is trivial.
-/
import proofs.«401560_j6914897347055_1_alg».proof.Defs
import proofs.«401560_j6914897347055_1_alg».proof.Proof.Gen.Kernel
import proofs.«401560_j6914897347055_1_alg».proof.Proof.Gen.Kernel.Frame
import proofs.«401560_j6914897347055_1_alg».proof.Proof.Gen.KernelIdeal
import proofs.«401560_j6914897347055_1_alg».proof.Proof.Gen.KernelIdeal.Frame
import proofs.«401560_j6914897347055_1_alg».proof.Proof.Gen.ReferenceIdeal
import proofs.«401560_j6914897347055_1_alg».proof.Proof.Gen.Pre_finite_inputs
import proofs.«401560_j6914897347055_1_alg».proof.Proof.RunValue
import proofs.«401560_j6914897347055_1_alg».proof.Proof.RefValue
import proofs.«401560_j6914897347055_1_alg».proof.Proof.KernelValue
import proofs.«401560_j6914897347055_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The whole-array program's frame: its run with the result dropped. -/
theorem frame_referenceIdeal : Cert.frame_ReferenceIdeal := fun m ρ _ =>
  (θ_run (Cert.ReferenceIdeal.defs (F := Ideal)) _ _).mono (fun _ h c => (h c).2) (Cert.ReferenceIdeal.RefValue.run_value m ρ)

/-- The two idealized programs end with equal results: the blocked program's result array holds four layer
    steps from the argument arrays (its source indices are rows of the table by the precondition), and the
    whole-array program's network of the same arrays is those four layer steps. -/
theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v46),
    Cert.KernelIdeal.RunValue.run_value (F := Ideal) m ρ, ?_⟩
  refine (θ_run (Cert.ReferenceIdeal.defs (F := Ideal)) _ _).mono (fun r h c => ⟨(h c).1.trans ?_, (h c).2⟩)
    (Cert.ReferenceIdeal.RefValue.run_value m' ρ')
  obtain ⟨e0, e1, e2, e3, e4, e5, e6, e7, e8, e9⟩ := hagree c
  rw [e0, e1, e2, e3, e4, e5, e6, e7, e8, e9]
  refine (Cert.Final.net_eq_fourLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).trans ?_
  exact (Cert.KernelIdeal.KernelValue.result_value m ρ c (Cert.KernelIdeal.Take.srcOk_of_pre m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
